-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x3x23 : Shape := ⟨3, ![8, 3, 23]⟩
abbrev S8x23x64x64x64 : Shape := ⟨5, ![8, 23, 64, 64, 64]⟩
abbrev S8x262144x3 : Shape := ⟨3, ![8, 262144, 3]⟩
abbrev S_ : Shape := ⟨0, ![]⟩

class Facts : Prop where
  bcast_S_S8x3x23 : S_.BroadcastsInDim S8x3x23 (![] : Fin 0 → Fin S8x3x23.rank)
  reducesTo_S8x3x23_S_d0_1_2 : S8x3x23.ReducesTo [0, 1, 2] S_
  h_S_ : 0 < S_.numel
  bcast_S_S8x23x64x64x64 : S_.BroadcastsInDim S8x23x64x64x64 (![] : Fin 0 → Fin S8x23x64x64x64.rank)
  reducesTo_S8x23x64x64x64_S_d0_1_2_3_4 : S8x23x64x64x64.ReducesTo [0, 1, 2, 3, 4] S_
  bcast_S_S8x262144x3 : S_.BroadcastsInDim S8x262144x3 (![] : Fin 0 → Fin S8x262144x3.rank)
  reducesTo_S8x262144x3_S_d0_1_2 : S8x262144x3.ReducesTo [0, 1, 2] S_

variable [Facts]

def fn_part1 {F : FTy → Type} [FloatOps F] (main_v13 : IVec S_ 1) (main_v16 : IVec S8x262144x3 1) : IVec S_ 1 :=
  let main_c_5 : IVec S_ 1 := constantI S_ 1 1#1
  let main_v17 : IVec S_ 1 := (fun x v => Host.reduce IntOp.andi x v reducesTo_S8x262144x3_S_d0_1_2 h_S_) main_v16 main_c_5
  let main_v18 : IVec S_ 1 := andi main_v13 main_v17
  main_v18

def fn {F : FTy → Type} [FloatOps F] (main_arg0 : FVec F S8x3x23 .f32) (main_arg1 : FVec F S8x3x23 .f32) (main_arg2 : FVec F S8x23x64x64x64 .f32) (main_arg3 : FVec F S8x262144x3 .f32) : IVec S_ 1 :=
  let main_v0 : FVec F S8x3x23 .f32 := Host.absf main_arg0
  let main_cst : FVec F S_ .f32 := constant S_ .f32 0x7F800000#32
  let main_v1 : FVec F S8x3x23 .f32 := broadcastInDim S8x3x23 ![] bcast_S_S8x3x23 main_cst
  let main_v2 : IVec S8x3x23 1 := cmpf .olt main_v0 main_v1
  let main_c : IVec S_ 1 := constantI S_ 1 1#1
  let main_v3 : IVec S_ 1 := (fun x v => Host.reduce IntOp.andi x v reducesTo_S8x3x23_S_d0_1_2 h_S_) main_v2 main_c
  let main_v4 : FVec F S8x3x23 .f32 := Host.absf main_arg1
  let main_cst_0 : FVec F S_ .f32 := constant S_ .f32 0x7F800000#32
  let main_v5 : FVec F S8x3x23 .f32 := broadcastInDim S8x3x23 ![] bcast_S_S8x3x23 main_cst_0
  let main_v6 : IVec S8x3x23 1 := cmpf .olt main_v4 main_v5
  let main_c_1 : IVec S_ 1 := constantI S_ 1 1#1
  let main_v7 : IVec S_ 1 := (fun x v => Host.reduce IntOp.andi x v reducesTo_S8x3x23_S_d0_1_2 h_S_) main_v6 main_c_1
  let main_v8 : IVec S_ 1 := andi main_v3 main_v7
  let main_v9 : FVec F S8x23x64x64x64 .f32 := Host.absf main_arg2
  let main_cst_2 : FVec F S_ .f32 := constant S_ .f32 0x7F800000#32
  let main_v10 : FVec F S8x23x64x64x64 .f32 := broadcastInDim S8x23x64x64x64 ![] bcast_S_S8x23x64x64x64 main_cst_2
  let main_v11 : IVec S8x23x64x64x64 1 := cmpf .olt main_v9 main_v10
  let main_c_3 : IVec S_ 1 := constantI S_ 1 1#1
  let main_v12 : IVec S_ 1 := (fun x v => Host.reduce IntOp.andi x v reducesTo_S8x23x64x64x64_S_d0_1_2_3_4 h_S_) main_v11 main_c_3
  let main_v13 : IVec S_ 1 := andi main_v8 main_v12
  let main_v14 : FVec F S8x262144x3 .f32 := Host.absf main_arg3
  let main_cst_4 : FVec F S_ .f32 := constant S_ .f32 0x7F800000#32
  let main_v15 : FVec F S8x262144x3 .f32 := broadcastInDim S8x262144x3 ![] bcast_S_S8x262144x3 main_cst_4
  let main_v16 : IVec S8x262144x3 1 := cmpf .olt main_v14 main_v15
  fn_part1 (F := F) main_v13 main_v16
-- ==== Kernel.lean ====
abbrev S8x3x23 : Shape := ⟨3, ![8, 3, 23]⟩
abbrev S8x23x64x64x64 : Shape := ⟨5, ![8, 23, 64, 64, 64]⟩
abbrev S8x262144x3 : Shape := ⟨3, ![8, 262144, 3]⟩
abbrev S8x3x262144 : Shape := ⟨3, ![8, 3, 262144]⟩
abbrev S8x23x262144 : Shape := ⟨3, ![8, 23, 262144]⟩
abbrev S8x23x1 : Shape := ⟨3, ![8, 23, 1]⟩
abbrev S1x3x16384 : Shape := ⟨3, ![1, 3, 16384]⟩
abbrev S1x3x23 : Shape := ⟨3, ![1, 3, 23]⟩
abbrev S1x23x1 : Shape := ⟨3, ![1, 23, 1]⟩
abbrev S1x23x3 : Shape := ⟨3, ![1, 23, 3]⟩
abbrev S1x16384 : Shape := ⟨2, ![1, 16384]⟩
abbrev S1x1x16384 : Shape := ⟨3, ![1, 1, 16384]⟩
abbrev S1x23 : Shape := ⟨2, ![1, 23]⟩
abbrev S1x23x16384 : Shape := ⟨3, ![1, 23, 16384]⟩
abbrev S8x1x1 : Shape := ⟨3, ![8, 1, 1]⟩
abbrev S1x1x1 : Shape := ⟨3, ![1, 1, 1]⟩
abbrev S1x1 : Shape := ⟨2, ![1, 1]⟩
abbrev S_ : Shape := ⟨0, ![]⟩

abbrev nBuf : Space → Nat
  | .hbm => 14
  | .vmem => 18
  | .smem => 0
  | _ => 0

abbrev bufTy : (tb : Table) → Fin (tcTables nBuf tb) → BufTy
  | .hbm, ⟨0, _⟩ => ⟨S8x3x23, .f32⟩
  | .hbm, ⟨1, _⟩ => ⟨S8x3x23, .f32⟩
  | .hbm, ⟨2, _⟩ => ⟨S8x23x64x64x64, .f32⟩
  | .hbm, ⟨3, _⟩ => ⟨S8x262144x3, .f32⟩
  | .hbm, ⟨4, _⟩ => ⟨S8x3x262144, .f32⟩
  | .hbm, ⟨5, _⟩ => ⟨S8x23x262144, .f32⟩
  | .hbm, ⟨6, _⟩ => ⟨S8x23x1, .f32⟩
  | .hbm, ⟨7, _⟩ => ⟨S8x1x1, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .local _ .vmem, ⟨0, _⟩ => ⟨S1x3x16384, .f32⟩
  | .local _ .vmem, ⟨1, _⟩ => ⟨S1x3x16384, .f32⟩
  | .local _ .vmem, ⟨2, _⟩ => ⟨S1x3x23, .f32⟩
  | .local _ .vmem, ⟨3, _⟩ => ⟨S1x3x23, .f32⟩
  | .local _ .vmem, ⟨4, _⟩ => ⟨S1x23x1, .f32⟩
  | .local _ .vmem, ⟨5, _⟩ => ⟨S1x23x1, .f32⟩
  | .local _ .vmem, ⟨6, _⟩ => ⟨S1x23x1, .f32⟩
  | .local _ .vmem, ⟨7, _⟩ => ⟨S1x3x16384, .f32⟩
  | .local _ .vmem, ⟨8, _⟩ => ⟨S1x3x16384, .f32⟩
  | .local _ .vmem, ⟨9, _⟩ => ⟨S1x3x23, .f32⟩
  | .local _ .vmem, ⟨10, _⟩ => ⟨S1x3x23, .f32⟩
  | .local _ .vmem, ⟨11, _⟩ => ⟨S1x23x1, .f32⟩
  | .local _ .vmem, ⟨12, _⟩ => ⟨S1x23x1, .f32⟩
  | .local _ .vmem, ⟨13, _⟩ => ⟨S1x23x16384, .f32⟩
  | .local _ .vmem, ⟨14, _⟩ => ⟨S1x23x16384, .f32⟩
  | .local _ .vmem, ⟨15, _⟩ => ⟨S1x1x1, .f32⟩
  | .local _ .vmem, ⟨16, _⟩ => ⟨S1x1x1, .f32⟩
  | .local _ .vmem, ⟨17, _⟩ => ⟨S1x1x1, .f32⟩
  | _, _ => ⟨S8x3x23, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc1_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x23 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x23x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![8, 16], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x3x16384 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x3x23 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x23x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x23x16384 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x1x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  transposes_S8x262144x3_S8x3x262144_0_2_1 : S8x262144x3.Transposes [0, 2, 1] S8x3x262144
  shapeCasts_S8x23x64x64x64_S8x23x262144 : S8x23x64x64x64.ShapeCasts S8x23x262144
  inb_S1x23x1_S1x23x1_0_0_0 : ∀ a, (![0, 0, 0] : Fin 3 → Nat) a + S1x23x1.size a ≤ S1x23x1.size a
  h_S1x23x1 : 0 < S1x23x1.numel
  shapeCasts_S1x23x1_S1x23x1 : S1x23x1.ShapeCasts S1x23x1
  inb_S1x3x16384_S1x3x16384_0_0_0 : ∀ a, (![0, 0, 0] : Fin 3 → Nat) a + S1x3x16384.size a ≤ S1x3x16384.size a
  h_S1x3x16384 : 0 < S1x3x16384.numel
  shapeCasts_S1x3x16384_S1x3x16384 : S1x3x16384.ShapeCasts S1x3x16384
  inb_S1x3x23_S1x3x23_0_0_0 : ∀ a, (![0, 0, 0] : Fin 3 → Nat) a + S1x3x23.size a ≤ S1x3x23.size a
  h_S1x3x23 : 0 < S1x3x23.numel
  transposes_S1x3x23_p0_2_1_S1x23x3 : S1x3x23.Transposes [0, 2, 1] S1x23x3
  reduces_S1x3x16384_S1x16384 : S1x3x16384.Reduces [1] S1x16384
  shapeCasts_S1x16384_S1x1x16384 : S1x16384.ShapeCasts S1x1x16384
  reduces_S1x23x3_S1x23 : S1x23x3.Reduces [2] S1x23
  shapeCasts_S1x23_S1x23x1 : S1x23.ShapeCasts S1x23x1
  slices_S1x23x3_o0_0_0_S1x23x1 : S1x23x3.Slices ![0, 0, 0] S1x23x1
  slices_S1x3x16384_o0_0_0_S1x1x16384 : S1x3x16384.Slices ![0, 0, 0] S1x1x16384
  broadcasts_S1x23x1_S1x23x16384 : S1x23x1.Broadcasts S1x23x16384
  broadcasts_S1x1x16384_S1x23x16384 : S1x1x16384.Broadcasts S1x23x16384
  slices_S1x23x3_o0_0_1_S1x23x1 : S1x23x3.Slices ![0, 0, 1] S1x23x1
  slices_S1x3x16384_o0_1_0_S1x1x16384 : S1x3x16384.Slices ![0, 1, 0] S1x1x16384
  slices_S1x23x3_o0_0_2_S1x23x1 : S1x23x3.Slices ![0, 0, 2] S1x23x1
  slices_S1x3x16384_o0_2_0_S1x1x16384 : S1x3x16384.Slices ![0, 2, 0] S1x1x16384
  reduces_S1x23x16384_S1x23 : S1x23x16384.Reduces [2] S1x23
  inb_S1x1x1_S1x1x1_0_0_0 : ∀ a, (![0, 0, 0] : Fin 3 → Nat) a + S1x1x1.size a ≤ S1x1x1.size a
  h_S1x1x1 : 0 < S1x1x1.numel
  shapeCasts_S1x1x1_S1x1x1 : S1x1x1.ShapeCasts S1x1x1
  inb_S1x23x16384_S1x23x16384_0_0_0 : ∀ a, (![0, 0, 0] : Fin 3 → Nat) a + S1x23x16384.size a ≤ S1x23x16384.size a
  h_S1x23x16384 : 0 < S1x23x16384.numel
  shapeCasts_S1x23x16384_S1x23x16384 : S1x23x16384.ShapeCasts S1x23x16384
  reduces_S1x23x1_S1x1 : S1x23x1.Reduces [1] S1x1
  shapeCasts_S1x1_S1x1x1 : S1x1.ShapeCasts S1x1x1
  reducesTo_S8x1x1_S_d0_1_2 : S8x1x1.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x16384.size a ≤ S8x3x262144.size a
  hwx0_0 : ∀ i : grid0.Coords, EltTy.bits .f32 = 32 ∨ (Rect.block (s := S8x3x262144) S1x3x16384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x23.size a ≤ S8x3x23.size a
  hwx0_1 : ∀ i : grid0.Coords, EltTy.bits .f32 = 32 ∨ (Rect.block (s := S8x3x23) S1x3x23.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x23x1.size a ≤ S8x23x1.size a
  hwx0_2 : ∀ i : grid0.Coords, EltTy.bits .f32 = 32 ∨ (Rect.block (s := S8x23x1) S1x23x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x3x16384.size a ≤ S8x3x262144.size a
  hwx1_0 : ∀ i : grid1.Coords, EltTy.bits .f32 = 32 ∨ (Rect.block (s := S8x3x262144) S1x3x16384.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x3x23.size a ≤ S8x3x23.size a
  hwx1_1 : ∀ i : grid1.Coords, EltTy.bits .f32 = 32 ∨ (Rect.block (s := S8x3x23) S1x3x23.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x23x1.size a ≤ S8x23x1.size a
  hwx1_2 : ∀ i : grid1.Coords, EltTy.bits .f32 = 32 ∨ (Rect.block (s := S8x23x1) S1x23x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x23x16384.size a ≤ S8x23x262144.size a
  hwx1_3 : ∀ i : grid1.Coords, EltTy.bits .f32 = 32 ∨ (Rect.block (s := S8x23x262144) S1x23x16384.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1x1.size a ≤ S8x1x1.size a
  hwx1_4 : ∀ i : grid1.Coords, EltTy.bits .f32 = 32 ∨ (Rect.block (s := S8x1x1) S1x1x1.size (cc1_transform_4 i) (hinb1_4 i)).WholeWords (EltTy.packing .f32)

variable [Facts₀]

abbrev win0_0 : Pipeline.Window sig grid0 :=
  Pipeline.Window.ofSpec (Memref.whole main_v0) S1x3x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x3x23.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x23x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S1x3x16384.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S1x3x23.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x23x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1x23x16384.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v3) S1x1x1.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S8x3x23 : Shape := ⟨3, ![8, 3, 23]⟩
abbrev S8x23x64x64x64 : Shape := ⟨5, ![8, 23, 64, 64, 64]⟩
abbrev S8x262144x3 : Shape := ⟨3, ![8, 262144, 3]⟩
abbrev S_ : Shape := ⟨0, ![]⟩
abbrev S8x262144 : Shape := ⟨2, ![8, 262144]⟩
abbrev S8x23 : Shape := ⟨2, ![8, 23]⟩
abbrev S8x23x262144 : Shape := ⟨3, ![8, 23, 262144]⟩
abbrev S8x1x262144 : Shape := ⟨3, ![8, 1, 262144]⟩
abbrev S8x23x1 : Shape := ⟨3, ![8, 23, 1]⟩

abbrev nBuf : Space → Nat
  | .hbm => 48
  | .vmem => 0
  | .smem => 0
  | _ => 0

abbrev bufTy : (tb : Table) → Fin (tcTables nBuf tb) → BufTy
  | .hbm, ⟨0, _⟩ => ⟨S8x3x23, .f32⟩
  | .hbm, ⟨1, _⟩ => ⟨S8x3x23, .f32⟩
  | .hbm, ⟨2, _⟩ => ⟨S8x23x64x64x64, .f32⟩
  | .hbm, ⟨3, _⟩ => ⟨S8x262144x3, .f32⟩
  | .hbm, ⟨4, _⟩ => ⟨S8x262144x3, .f32⟩
  | .hbm, ⟨5, _⟩ => ⟨S_, .f32⟩
  | .hbm, ⟨6, _⟩ => ⟨S8x262144, .f32⟩
  | .hbm, ⟨7, _⟩ => ⟨S8x3x23, .f32⟩
  | .hbm, ⟨8, _⟩ => ⟨S_, .f32⟩
  | .hbm, ⟨9, _⟩ => ⟨S8x23, .f32⟩
  | .hbm, ⟨10, _⟩ => ⟨S8x23x262144, .f32⟩
  | .hbm, ⟨11, _⟩ => ⟨S8x1x262144, .f32⟩
  | .hbm, ⟨12, _⟩ => ⟨S8x23x1, .f32⟩
  | .hbm, ⟨13, _⟩ => ⟨S8x23x262144, .f32⟩
  | .hbm, ⟨14, _⟩ => ⟨S8x23x262144, .f32⟩
  | .hbm, ⟨15, _⟩ => ⟨S8x23x262144, .f32⟩
  | .hbm, ⟨16, _⟩ => ⟨S_, .f32⟩
  | .hbm, ⟨17, _⟩ => ⟨S8x23x262144, .f32⟩
  | .hbm, ⟨18, _⟩ => ⟨S8x23x262144, .f32⟩
  | .hbm, ⟨19, _⟩ => ⟨S8x23x262144, .f32⟩
  | .hbm, ⟨20, _⟩ => ⟨S8x23x262144, .f32⟩
  | .hbm, ⟨21, _⟩ => ⟨S8x23x262144, .f32⟩
  | .hbm, ⟨22, _⟩ => ⟨S_, .f32⟩
  | .hbm, ⟨23, _⟩ => ⟨S8x23x262144, .f32⟩
  | .hbm, ⟨24, _⟩ => ⟨S8x23x262144, .f32⟩
  | .hbm, ⟨25, _⟩ => ⟨S_, .f32⟩
  | .hbm, ⟨26, _⟩ => ⟨S8x23, .f32⟩
  | .hbm, ⟨27, _⟩ => ⟨S_, .f32⟩
  | .hbm, ⟨28, _⟩ => ⟨S8x23, .f32⟩
  | .hbm, ⟨29, _⟩ => ⟨S8x23, .f32⟩
  | .hbm, ⟨30, _⟩ => ⟨S8x23x1, .f32⟩
  | .hbm, ⟨31, _⟩ => ⟨S8x23x262144, .f32⟩
  | .hbm, ⟨32, _⟩ => ⟨S8x23x262144, .f32⟩
  | .hbm, ⟨33, _⟩ => ⟨S8x23x262144, .f32⟩
  | .hbm, ⟨34, _⟩ => ⟨S_, .f32⟩
  | .hbm, ⟨35, _⟩ => ⟨S8x23, .f32⟩
  | .hbm, ⟨36, _⟩ => ⟨S8x23x1, .f32⟩
  | .hbm, ⟨37, _⟩ => ⟨S8x23x262144, .f32⟩
  | .hbm, ⟨38, _⟩ => ⟨S8x23x262144, .f32⟩
  | .hbm, ⟨39, _⟩ => ⟨S8x23x64x64x64, .f32⟩
  | .hbm, ⟨40, _⟩ => ⟨S8x23x64x64x64, .f32⟩
  | .hbm, ⟨41, _⟩ => ⟨S8x23x64x64x64, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | _, _ => ⟨S8x3x23, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_6 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_cst_8 : Ref sig .tc := ⟨.hbm, 46, rfl⟩
abbrev main_v33 : Ref sig .tc := ⟨.hbm, 47, rfl⟩

abbrev nD : Nat := 1
abbrev τ : Topo := Topo.v7x

variable {F : FTy → Type} [FloatOps F]

class Facts₀ : Prop where
  reducesTo_S8x262144x3_S8x262144_d2 : S8x262144x3.ReducesTo [2] S8x262144
  h_S_ : 0 < S_.numel
  reducesTo_S8x3x23_S8x23_d1 : S8x3x23.ReducesTo [1] S8x23
  bcast_S8x262144_S8x1x262144_0_2 : S8x262144.BroadcastsInDim S8x1x262144 (![0, 2] : Fin 2 → Fin S8x1x262144.rank)
  bcast_S8x23_S8x23x1_0_1 : S8x23.BroadcastsInDim S8x23x1 (![0, 1] : Fin 2 → Fin S8x23x1.rank)
  bcast_S8x1x262144_S8x23x262144_0_1_2 : S8x1x262144.BroadcastsInDim S8x23x262144 (![0, 1, 2] : Fin 3 → Fin S8x23x262144.rank)
  bcast_S8x23x1_S8x23x262144_0_1_2 : S8x23x1.BroadcastsInDim S8x23x262144 (![0, 1, 2] : Fin 3 → Fin S8x23x262144.rank)
  bcast_S_S8x23x262144 : S_.BroadcastsInDim S8x23x262144 (![] : Fin 0 → Fin S8x23x262144.rank)
  reducesTo_S8x23x262144_S8x23_d2 : S8x23x262144.ReducesTo [2] S8x23
  bcast_S_S8x23 : S_.BroadcastsInDim S8x23 (![] : Fin 0 → Fin S8x23.rank)
  shapeCasts_S8x23x262144_S8x23x64x64x64 : S8x23x262144.ShapeCasts S8x23x64x64x64
  reducesTo_S8x23x64x64x64_S_d0_1_2_3_4 : S8x23x64x64x64.ReducesTo [0, 1, 2, 3, 4] S_
  dot_S8x3x23_S8x262144x3_S8x23x262144_1_2_2_1_0_0_wf : DotDims.WF S8x3x23 S8x262144x3 S8x23x262144 [1] [2] [2] [1] [0] [0]

variable [Facts₀]

def dot_S8x3x23_S8x262144x3_S8x23x262144_1_2_2_1_0_0 : DotDims S8x3x23 S8x262144x3 S8x23x262144 where
  lhsContracting := [1]
  rhsContracting := [2]
  lhsNonContracting := [2]
  rhsNonContracting := [1]
  lhsBatch := [0]
  rhsBatch := [0]
  wf := dot_S8x3x23_S8x262144x3_S8x23x262144_1_2_2_1_0_0_wf

class Facts : Prop extends Facts₀ where

variable [Facts]
-- ==== Proof.KBody0.lean ====
/-
  The first kernel's body on whole staging buffers. One grid point adds to the running per-joint sum the
  sum over the point's 16384 grid centres of exp(2 * exp(-d2)): the scratch `s` becomes `step0 x2 x3 s`,
  and the output window's buffer is left at the same value. At the first tile of a batch (second grid
  coordinate zero) the scratch is zeroed first, so the result is `step0 x2 x3 0` whatever it held.
  Stated for any float instance.
-/
import proofs.«107451_j57226144252798_1_alg».proof.Proof.Gen.Kernel.Launch
import proofs.«107451_j57226144252798_1_alg».proof.Proof.Gen.Kernel.Skeleton
import proofs.«107451_j57226144252798_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A load through the whole-shape rectangle of what a LAST store through it left, whatever was stored before. -/
theorem readCov_cons_unit_zero {Val : EltTy → Type} [∀ e, Nonempty (Val e)] {S : Shape} {e : EltTy} {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons_self .., View.mem_set_unit_zero h inb y⟩),
    View.canon_cons_unit_zero h, View.ld_unit_zero h]

/-- The reset test of both kernels: the second grid coordinate is zero. -/
abbrev cond0 (i : grid0.Coords) : Prop := (Scalar.cmpi .ne (Scalar.extui (Scalar.cmpi .eq (BitVec.ofNat 32 (i 1).val) 0#32)) 0#32) = 1#1

/-- One point's update of the running sums: the old sums plus this tile's. -/
def step0 (x2 : Vec F S1x3x16384 .f32) (x3 : Vec F S1x3x23 .f32) (s : Vec F S1x23x1 .f32) : Vec F S1x23x1 .f32 :=
  k0_pay1 (k0_pay3 x2 x3) s

set_option maxHeartbeats 1000000 in
/-- A point that is not the first tile of its batch: the scratch holds the sums so far. -/
theorem sound_kernel0_later (c : Dev nD) (E : Set ℕ) (i : grid0.Coords) (hc : ¬cond0 i)
    (arg2 : Memref sig .tc .vmem S1x3x16384 .f32) (harg2 : arg2.IsWhole) (arg3 : Memref sig .tc .vmem S1x3x23 .f32) (harg3 : arg3.IsWhole)
    (arg4 : Memref sig .tc .vmem S1x23x1 .f32) (harg4 : arg4.IsWhole) (arg5 : Memref sig .tc .vmem S1x23x1 .f32) (harg5 : arg5.IsWhole)
    (x2 : Vec F S1x3x16384 .f32) (x3 : Vec F S1x3x23 .f32) (s : Vec F S1x23x1 .f32) (K : PUnit → sProp 𝕄) :
    iprop(owns (c : Thread nD τ) arg2 fullShare x2 ∗ owns (c : Thread nD τ) arg3 fullShare x3 ∗ (∃ d, owns (c : Thread nD τ) arg4 fullShare d)
        ∗ owns (c : Thread nD τ) arg5 fullShare s
        ∗ (iprop(owns (c : Thread nD τ) arg2 fullShare x2 ∗ owns (c : Thread nD τ) arg3 fullShare x3
            ∗ owns (c : Thread nD τ) arg4 fullShare (step0 x2 x3 s) ∗ owns (c : Thread nD τ) arg5 fullShare (step0 x2 x3 s)) -∗ K ⟨⟩))
      ⊢ wp frame (wpE (defs₀ (F := F)) Variants.none c none) E (cc0_pass1_kernel i arg2 harg2 arg3 harg3 arg4 harg4 arg5 harg5) K := by
  simp only [cc0_pass1_kernel_eq_skeleton]; unfold cc0_pass1_kernel_skel
  unfold owns
  iintro ⟨⟨%f2, %hf2, H2⟩, ⟨%f3, %hf3, H3⟩, ⟨%d4, %f4, -, H4⟩, ⟨%f5, %hf5, H5⟩, Hk⟩
  subst hf2; subst hf3; subst hf5
  sl_exec (disch := exact hc)
  sl_step
  iapply Hk
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_words
    have hz3 : (![0, 0, 0] : Fin 3 → ℕ) = fun _ => 0 := by funext a; fin_cases a <;> rfl
    rw [View.read_writes_eq_canon _ _ _ (fun y => ⟨_, List.mem_cons_self .., View.mem_set_unit_zero hz3 Facts₀.inb_S1x23x1_S1x23x1_0_0_0 y⟩), View.canon_cons_unit_zero hz3]
    simp only [View.readAt_eq_ld, View.ld_unit_zero (S := S1x3x16384) hz3, View.ld_unit_zero (S := S1x3x23) hz3, View.ld_unit_zero (S := S1x23x1) hz3, View.ld_unit_zero (S := S1x23x16384) hz3, View.ld_unit_zero (S := S1x1x1) hz3, readCov_cons_unit_zero (S := S1x23x1) _ hz3]
    rfl
  iexists _; isplitr
  swap; · iexact H5
  ipureintro
  sl_unfold_words
  have hz3 : (![0, 0, 0] : Fin 3 → ℕ) = fun _ => 0 := by funext a; fin_cases a <;> rfl
  rw [View.read_writes_eq_canon _ _ _ (fun y => ⟨_, List.mem_cons_self .., View.mem_set_unit_zero hz3 Facts₀.inb_S1x23x1_S1x23x1_0_0_0 y⟩), View.canon_cons_unit_zero hz3]
  simp only [View.readAt_eq_ld, View.ld_unit_zero (S := S1x3x16384) hz3, View.ld_unit_zero (S := S1x3x23) hz3, View.ld_unit_zero (S := S1x23x1) hz3, View.ld_unit_zero (S := S1x23x16384) hz3, View.ld_unit_zero (S := S1x1x1) hz3, readCov_cons_unit_zero (S := S1x23x1) _ hz3]
  rfl

set_option maxHeartbeats 1000000 in
/-- The first tile of a batch: the scratch is zeroed, then updated. -/
theorem sound_kernel0_first (c : Dev nD) (E : Set ℕ) (i : grid0.Coords) (hc : cond0 i)
    (arg2 : Memref sig .tc .vmem S1x3x16384 .f32) (harg2 : arg2.IsWhole) (arg3 : Memref sig .tc .vmem S1x3x23 .f32) (harg3 : arg3.IsWhole)
    (arg4 : Memref sig .tc .vmem S1x23x1 .f32) (harg4 : arg4.IsWhole) (arg5 : Memref sig .tc .vmem S1x23x1 .f32) (harg5 : arg5.IsWhole)
    (x2 : Vec F S1x3x16384 .f32) (x3 : Vec F S1x3x23 .f32) (K : PUnit → sProp 𝕄) :
    iprop(owns (c : Thread nD τ) arg2 fullShare x2 ∗ owns (c : Thread nD τ) arg3 fullShare x3 ∗ (∃ d, owns (c : Thread nD τ) arg4 fullShare d)
        ∗ (∃ d, owns (c : Thread nD τ) arg5 fullShare d)
        ∗ (iprop(owns (c : Thread nD τ) arg2 fullShare x2 ∗ owns (c : Thread nD τ) arg3 fullShare x3
            ∗ owns (c : Thread nD τ) arg4 fullShare (step0 x2 x3 k0_pay2) ∗ owns (c : Thread nD τ) arg5 fullShare (step0 x2 x3 k0_pay2)) -∗ K ⟨⟩))
      ⊢ wp frame (wpE (defs₀ (F := F)) Variants.none c none) E (cc0_pass1_kernel i arg2 harg2 arg3 harg3 arg4 harg4 arg5 harg5) K := by
  simp only [cc0_pass1_kernel_eq_skeleton]; unfold cc0_pass1_kernel_skel
  unfold owns
  iintro ⟨⟨%f2, %hf2, H2⟩, ⟨%f3, %hf3, H3⟩, ⟨%d4, %f4, -, H4⟩, ⟨%d5, %f5, -, H5⟩, Hk⟩
  subst hf2; subst hf3
  sl_exec (disch := exact hc)
  sl_step
  iapply Hk
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_words
    have hz3 : (![0, 0, 0] : Fin 3 → ℕ) = fun _ => 0 := by funext a; fin_cases a <;> rfl
    rw [View.read_writes_eq_canon _ _ _ (fun y => ⟨_, List.mem_cons_self .., View.mem_set_unit_zero hz3 Facts₀.inb_S1x23x1_S1x23x1_0_0_0 y⟩), View.canon_cons_unit_zero hz3]
    simp only [View.readAt_eq_ld, View.ld_unit_zero (S := S1x3x16384) hz3, View.ld_unit_zero (S := S1x3x23) hz3, View.ld_unit_zero (S := S1x23x1) hz3, View.ld_unit_zero (S := S1x23x16384) hz3, View.ld_unit_zero (S := S1x1x1) hz3, readCov_cons_unit_zero (S := S1x23x1) _ hz3]
    rfl
  iexists _; isplitr
  swap; · iexact H5
  ipureintro
  sl_unfold_words
  have hz3 : (![0, 0, 0] : Fin 3 → ℕ) = fun _ => 0 := by funext a; fin_cases a <;> rfl
  rw [View.read_writes_eq_canon _ _ _ (fun y => ⟨_, List.mem_cons_self .., View.mem_set_unit_zero hz3 Facts₀.inb_S1x23x1_S1x23x1_0_0_0 y⟩), View.canon_cons_unit_zero hz3]
  simp only [View.readAt_eq_ld, View.ld_unit_zero (S := S1x3x16384) hz3, View.ld_unit_zero (S := S1x3x23) hz3, View.ld_unit_zero (S := S1x23x1) hz3, View.ld_unit_zero (S := S1x23x16384) hz3, View.ld_unit_zero (S := S1x1x1) hz3, readCov_cons_unit_zero (S := S1x23x1) _ hz3]
  rfl

end Cert.Kernel.Run

end
-- ==== Proof.KBody1.lean ====
/-
  The second kernel's body on whole staging buffers. One grid point adds to the batch's running loss the sum,
  over the 23 joints and the point's 16384 grid centres, of (e / S - heat)^2, where e = exp(2 * exp(-d2)) as in
  the first kernel and S is the first kernel's per-joint sum: the scratch `s` becomes `step1 x2 x3 x4 x5 s`
  and the output window's buffer is left at the same value. At the first tile of a batch the scratch is zeroed
  first. Stated for any float instance.
-/
import proofs.«107451_j57226144252798_1_alg».proof.Proof.KBody0

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- One point's update of the batch's running loss: the old value plus this tile's. -/
def step1 (x2 : Vec F S1x3x16384 .f32) (x3 : Vec F S1x3x23 .f32) (x4 : Vec F S1x23x1 .f32) (x5 : Vec F S1x23x16384 .f32)
    (s : Vec F S1x1x1 .f32) : Vec F S1x1x1 .f32 :=
  k1_pay1 (k1_pay3 x2 x3) x4 x5 s

set_option maxHeartbeats 1000000 in
/-- A point that is not the first tile of its batch: the scratch holds the loss so far. -/
theorem sound_kernel1_later (c : Dev nD) (E : Set ℕ) (i : grid1.Coords) (hc : ¬cond0 i)
    (arg2 : Memref sig .tc .vmem S1x3x16384 .f32) (harg2 : arg2.IsWhole) (arg3 : Memref sig .tc .vmem S1x3x23 .f32) (harg3 : arg3.IsWhole)
    (arg4 : Memref sig .tc .vmem S1x23x1 .f32) (harg4 : arg4.IsWhole) (arg5 : Memref sig .tc .vmem S1x23x16384 .f32) (harg5 : arg5.IsWhole)
    (arg6 : Memref sig .tc .vmem S1x1x1 .f32) (harg6 : arg6.IsWhole) (arg7 : Memref sig .tc .vmem S1x1x1 .f32) (harg7 : arg7.IsWhole)
    (x2 : Vec F S1x3x16384 .f32) (x3 : Vec F S1x3x23 .f32) (x4 : Vec F S1x23x1 .f32) (x5 : Vec F S1x23x16384 .f32) (s : Vec F S1x1x1 .f32)
    (K : PUnit → sProp 𝕄) :
    iprop(owns (c : Thread nD τ) arg2 fullShare x2 ∗ owns (c : Thread nD τ) arg3 fullShare x3 ∗ owns (c : Thread nD τ) arg4 fullShare x4
        ∗ owns (c : Thread nD τ) arg5 fullShare x5 ∗ (∃ d, owns (c : Thread nD τ) arg6 fullShare d)
        ∗ owns (c : Thread nD τ) arg7 fullShare s
        ∗ (iprop(owns (c : Thread nD τ) arg2 fullShare x2 ∗ owns (c : Thread nD τ) arg3 fullShare x3 ∗ owns (c : Thread nD τ) arg4 fullShare x4
            ∗ owns (c : Thread nD τ) arg5 fullShare x5
            ∗ owns (c : Thread nD τ) arg6 fullShare (step1 x2 x3 x4 x5 s) ∗ owns (c : Thread nD τ) arg7 fullShare (step1 x2 x3 x4 x5 s)) -∗ K ⟨⟩))
      ⊢ wp frame (wpE (defs₀ (F := F)) Variants.none c none) E (cc1_pass2_kernel i arg2 harg2 arg3 harg3 arg4 harg4 arg5 harg5 arg6 harg6 arg7 harg7) K := by
  simp only [cc1_pass2_kernel_eq_skeleton]; unfold cc1_pass2_kernel_skel
  unfold owns
  iintro ⟨⟨%f2, %hf2, H2⟩, ⟨%f3, %hf3, H3⟩, ⟨%f4, %hf4, H4⟩, ⟨%f5, %hf5, H5⟩, ⟨%d6, %f6, -, H6⟩, ⟨%f7, %hf7, H7⟩, Hk⟩
  subst hf2; subst hf3; subst hf4; subst hf5; subst hf7
  sl_exec (disch := exact hc)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_words
    have hz3 : (![0, 0, 0] : Fin 3 → ℕ) = fun _ => 0 := by funext a; fin_cases a <;> rfl
    rw [View.read_writes_eq_canon _ _ _ (fun y => ⟨_, List.mem_cons_self .., View.mem_set_unit_zero hz3 Facts₀.inb_S1x1x1_S1x1x1_0_0_0 y⟩), View.canon_cons_unit_zero hz3]
    simp only [View.readAt_eq_ld, View.ld_unit_zero (S := S1x3x16384) hz3, View.ld_unit_zero (S := S1x3x23) hz3, View.ld_unit_zero (S := S1x23x1) hz3, View.ld_unit_zero (S := S1x23x16384) hz3, View.ld_unit_zero (S := S1x1x1) hz3, readCov_cons_unit_zero (S := S1x1x1) _ hz3]
    rfl
  iexists _; isplitr
  swap; · iexact H7
  ipureintro
  sl_unfold_words
  have hz3 : (![0, 0, 0] : Fin 3 → ℕ) = fun _ => 0 := by funext a; fin_cases a <;> rfl
  rw [View.read_writes_eq_canon _ _ _ (fun y => ⟨_, List.mem_cons_self .., View.mem_set_unit_zero hz3 Facts₀.inb_S1x1x1_S1x1x1_0_0_0 y⟩), View.canon_cons_unit_zero hz3]
  simp only [View.readAt_eq_ld, View.ld_unit_zero (S := S1x3x16384) hz3, View.ld_unit_zero (S := S1x3x23) hz3, View.ld_unit_zero (S := S1x23x1) hz3, View.ld_unit_zero (S := S1x23x16384) hz3, View.ld_unit_zero (S := S1x1x1) hz3, readCov_cons_unit_zero (S := S1x1x1) _ hz3]
  rfl

set_option maxHeartbeats 1000000 in
/-- The first tile of a batch: the scratch is zeroed, then updated. -/
theorem sound_kernel1_first (c : Dev nD) (E : Set ℕ) (i : grid1.Coords) (hc : cond0 i)
    (arg2 : Memref sig .tc .vmem S1x3x16384 .f32) (harg2 : arg2.IsWhole) (arg3 : Memref sig .tc .vmem S1x3x23 .f32) (harg3 : arg3.IsWhole)
    (arg4 : Memref sig .tc .vmem S1x23x1 .f32) (harg4 : arg4.IsWhole) (arg5 : Memref sig .tc .vmem S1x23x16384 .f32) (harg5 : arg5.IsWhole)
    (arg6 : Memref sig .tc .vmem S1x1x1 .f32) (harg6 : arg6.IsWhole) (arg7 : Memref sig .tc .vmem S1x1x1 .f32) (harg7 : arg7.IsWhole)
    (x2 : Vec F S1x3x16384 .f32) (x3 : Vec F S1x3x23 .f32) (x4 : Vec F S1x23x1 .f32) (x5 : Vec F S1x23x16384 .f32)
    (K : PUnit → sProp 𝕄) :
    iprop(owns (c : Thread nD τ) arg2 fullShare x2 ∗ owns (c : Thread nD τ) arg3 fullShare x3 ∗ owns (c : Thread nD τ) arg4 fullShare x4
        ∗ owns (c : Thread nD τ) arg5 fullShare x5 ∗ (∃ d, owns (c : Thread nD τ) arg6 fullShare d)
        ∗ (∃ d, owns (c : Thread nD τ) arg7 fullShare d)
        ∗ (iprop(owns (c : Thread nD τ) arg2 fullShare x2 ∗ owns (c : Thread nD τ) arg3 fullShare x3 ∗ owns (c : Thread nD τ) arg4 fullShare x4
            ∗ owns (c : Thread nD τ) arg5 fullShare x5
            ∗ owns (c : Thread nD τ) arg6 fullShare (step1 x2 x3 x4 x5 k1_pay2) ∗ owns (c : Thread nD τ) arg7 fullShare (step1 x2 x3 x4 x5 k1_pay2)) -∗ K ⟨⟩))
      ⊢ wp frame (wpE (defs₀ (F := F)) Variants.none c none) E (cc1_pass2_kernel i arg2 harg2 arg3 harg3 arg4 harg4 arg5 harg5 arg6 harg6 arg7 harg7) K := by
  simp only [cc1_pass2_kernel_eq_skeleton]; unfold cc1_pass2_kernel_skel
  unfold owns
  iintro ⟨⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf2; subst hf3; subst hf4; subst hf5
  sl_exec (disch := exact hc)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_words
    have hz3 : (![0, 0, 0] : Fin 3 → ℕ) = fun _ => 0 := by funext a; fin_cases a <;> rfl
    rw [View.read_writes_eq_canon _ _ _ (fun y => ⟨_, List.mem_cons_self .., View.mem_set_unit_zero hz3 Facts₀.inb_S1x1x1_S1x1x1_0_0_0 y⟩), View.canon_cons_unit_zero hz3]
    simp only [View.readAt_eq_ld, View.ld_unit_zero (S := S1x3x16384) hz3, View.ld_unit_zero (S := S1x3x23) hz3, View.ld_unit_zero (S := S1x23x1) hz3, View.ld_unit_zero (S := S1x23x16384) hz3, View.ld_unit_zero (S := S1x1x1) hz3, readCov_cons_unit_zero (S := S1x1x1) _ hz3]
    rfl
  iexists _; isplitr
  swap; · iexact H7
  ipureintro
  sl_unfold_words
  have hz3 : (![0, 0, 0] : Fin 3 → ℕ) = fun _ => 0 := by funext a; fin_cases a <;> rfl
  rw [View.read_writes_eq_canon _ _ _ (fun y => ⟨_, List.mem_cons_self .., View.mem_set_unit_zero hz3 Facts₀.inb_S1x1x1_S1x1x1_0_0_0 y⟩), View.canon_cons_unit_zero hz3]
  simp only [View.readAt_eq_ld, View.ld_unit_zero (S := S1x3x16384) hz3, View.ld_unit_zero (S := S1x3x23) hz3, View.ld_unit_zero (S := S1x23x1) hz3, View.ld_unit_zero (S := S1x23x16384) hz3, View.ld_unit_zero (S := S1x1x1) hz3, readCov_cons_unit_zero (S := S1x1x1) _ hz3]
  rfl

end Cert.Kernel.Run

end
-- ==== Proof.KDat0.lean ====
/-
  The first pallas_call as a pipeline, at the buffer contents `V` it is entered from: what each window's staging
  buffer holds after the body at every grid point, and the body obligation. The two inputs keep their blocks;
  the output window's buffer and the scratch both hold `acc0 n`, the per-joint sums over the tiles of the
  current batch up to point `n` (reset at every 16th point, the first tile of a batch). The region invariant
  carries the scratch at `acc0 (n-1)` from point to point. Stated for any float instance.
-/
import proofs.«107451_j57226144252798_1_alg».proof.Proof.KBody0

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Separating conjunction re-associated, as an equation. -/
theorem sep_assoc_eq (A B C : sProp 𝕄) : (iprop((A ∗ B) ∗ C) : sProp 𝕄) = iprop(A ∗ B ∗ C) := by
  have h₁ : (iprop((A ∗ B) ∗ C) : sProp 𝕄) ⊢ iprop(A ∗ B ∗ C) := by
    iintro ⟨⟨HA, HB⟩, HC⟩
    isplitl [HA]; · iexact HA
    isplitl [HB]; · iexact HB
    iexact HC
  have h₂ : (iprop(A ∗ B ∗ C) : sProp 𝕄) ⊢ iprop((A ∗ B) ∗ C) := by
    iintro ⟨HA, HB, HC⟩
    isplitl [HA HB]
    · isplitl [HA]; · iexact HA
      iexact HB
    iexact HC
  exact BI.equiv_iff.mp ⟨h₁, h₂⟩

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The reset test holds exactly at the first tile of each batch. -/
theorem hcond0 : ∀ t : Fin cfg0.N, cond0 (grid0.coords t) ↔ t.val % 16 = 0 :=
  (by decide +kernel : ∀ t : Fin grid0.N, cond0 (grid0.coords t) ↔ t.val % 16 = 0)

/-- The running per-joint sums after the body at position `n`: reset at the first tile of a batch. -/
def acc0 (c : Dev nD) : (n : ℕ) → n < cfg0.N → Vec F S1x23x1 .f32
  | 0, hn => step0 (iblk0 V c 0 ⟨0, hn⟩) (iblk0 V c 1 ⟨0, hn⟩) k0_pay2
  | n + 1, hn =>
    if (n + 1) % 16 = 0 then step0 (iblk0 V c 0 ⟨n + 1, hn⟩) (iblk0 V c 1 ⟨n + 1, hn⟩) k0_pay2
    else step0 (iblk0 V c 0 ⟨n + 1, hn⟩) (iblk0 V c 1 ⟨n + 1, hn⟩) (acc0 c n (Nat.lt_of_succ_lt hn))

theorem acc0_first (c : Dev nD) (t : Fin cfg0.N) (h : t.val % 16 = 0) :
    acc0 V c t.val t.isLt = step0 (iblk0 V c 0 t) (iblk0 V c 1 t) k0_pay2 := by
  obtain ⟨n, hn⟩ := t
  cases n with
  | zero => rfl
  | succ n => exact if_pos h

theorem acc0_later (c : Dev nD) (t : Fin cfg0.N) (h : ¬t.val % 16 = 0) :
    acc0 V c t.val t.isLt = step0 (iblk0 V c 0 t) (iblk0 V c 1 t) (acc0 V c (t.val - 1) (Nat.lt_of_le_of_lt (Nat.sub_le _ _) t.isLt)) := by
  obtain ⟨n, hn⟩ := t
  cases n with
  | zero => exact absurd (Nat.zero_mod _) h
  | succ n => exact if_neg h

/-- The scratch the kernel carries between points. -/
abbrev scM0 : Memref sig .tc .vmem S1x23x1 .f32 := Memref.whole cc0_scratch0

/-- What of the scoped buffers the kernel never touches: every one but its staging buffers and its scratch. -/
abbrev rest0 (c : Dev nD) : sProp 𝕄 :=
  Pipeline.scopedRestBut (Ix := Unit) (Name := ℕ) (U := UR sig nD τ) (Lvl := ℕ) (Val := Elt F) spec0 c [cc0_scratch0]

/-- The class invariant with the scratch split off as a memref owned at some contents. -/
theorem PhiA0_eq (c : Dev nD) :
    (Pipeline.ΦA spec0 c : sProp 𝕄)
      = iprop((∃ d, owns (c : Thread nD τ) scM0 fullShare d) ∗ rest0 (F := F) c ∗ (∃ r, prngReg c r)) := by
  unfold Pipeline.ΦA
  rw [Pipeline.scopedRest_split_of_list spec0 c [cc0_scratch0] (by decide) (by decide)]
  simp only [bigSepL, scM0, owns_whole]
  exact sep_assoc_eq _ _ _

/-- The region invariant before position `n`: before the first point the class's; afterwards the scratch at what the
    point before left in it. -/
def Phi0 (c : Dev nD) : (n : ℕ) → n ≤ cfg0.N → sProp 𝕄
  | 0, _ => Pipeline.ΦA spec0 c
  | n + 1, hn => iprop(owns (c : Thread nD τ) scM0 fullShare (acc0 V c n hn) ∗ rest0 (F := F) c ∗ (∃ r, prngReg c r))

theorem Phi0_zero (c : Dev nD) (n : ℕ) (h : n ≤ cfg0.N) (hz : n = 0) : Phi0 V c n h = Pipeline.ΦA spec0 c := by
  subst hz; rfl
theorem Phi0_succ (c : Dev nD) (n : ℕ) (hn : n < cfg0.N) :
    Phi0 V c (n + 1) hn = iprop(owns (c : Thread nD τ) scM0 fullShare (acc0 V c n hn) ∗ rest0 (F := F) c ∗ (∃ r, prngReg c r)) := rfl
theorem Phi0_pos (c : Dev nD) (n : ℕ) (h : n ≤ cfg0.N) (hz : n ≠ 0) :
    Phi0 V c n h = iprop(owns (c : Thread nD τ) scM0 fullShare (acc0 V c (n - 1) (by omega)) ∗ rest0 (F := F) c ∗ (∃ r, prngReg c r)) := by
  cases n with
  | zero => exact absurd rfl hz
  | succ n => rfl

/-- The proof data of pipeline 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => acc0 V c t.val t.isLt
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem Phi0_castSucc (c : Dev nD) (t : Fin cfg0.N) :
    (dat0 V c).Φ t.castSucc = Phi0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = acc0 V c t.val t.isLt := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

set_option maxHeartbeats 2000000 in
/-- The body at any point: the inputs' buffers hold their blocks; the reset test's closed form says which case the point
    is in; the invariant hands the body the scratch (at anything before the first point, at the sums so far afterwards)
    and takes it back at this point's sums. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl,
    show (dat0 V c).Φ t.succ = Phi0 V c (t.val + 1) t.isLt from rfl, Phi0_succ, after0_0, after0_1, after0_2]
  by_cases h0 : t.val % 16 = 0
  · rw [acc0_first V c t h0]
    by_cases hz : t.val = 0
    · rw [Phi0_castSucc V c t, Phi0_zero V c _ _ hz, PhiA0_eq]
      iintro ⟨⟨HS, Hr, Hg⟩, Ho, ⟨%d0, H0⟩, ⟨%d1, H1⟩, ⟨%d2, H2⟩⟩
      iapply (sound_kernel0_first c Set.univ (grid0.coords t) ((hcond0 t).mpr h0) _ _ _ _ _ _ _ _ (iblk0 V c 0 t) (iblk0 V c 1 t) _)
      isplitl [H0]; · iexact H0
      isplitl [H1]; · iexact H1
      isplitl [H2]; · iexists _; iexact H2
      isplitl [HS]; · iexact HS
      iintro ⟨H0, H1, H2, HS⟩
      isplitl [HS Hr Hg]
      · isplitl [HS]; · iexact HS
        isplitl [Hr]; · iexact Hr
        iexact Hg
      isplitl [Ho]; · iexact Ho
      isplitl [H0]; · iexact H0
      isplitl [H1]; · iexact H1
      iexact H2
    · rw [Phi0_castSucc V c t, Phi0_pos V c _ _ hz]
      iintro ⟨⟨HS, Hr, Hg⟩, Ho, ⟨%d0, H0⟩, ⟨%d1, H1⟩, ⟨%d2, H2⟩⟩
      iapply (sound_kernel0_first c Set.univ (grid0.coords t) ((hcond0 t).mpr h0) _ _ _ _ _ _ _ _ (iblk0 V c 0 t) (iblk0 V c 1 t) _)
      isplitl [H0]; · iexact H0
      isplitl [H1]; · iexact H1
      isplitl [H2]; · iexists _; iexact H2
      isplitl [HS]; · iexists _; iexact HS
      iintro ⟨H0, H1, H2, HS⟩
      isplitl [HS Hr Hg]
      · isplitl [HS]; · iexact HS
        isplitl [Hr]; · iexact Hr
        iexact Hg
      isplitl [Ho]; · iexact Ho
      isplitl [H0]; · iexact H0
      isplitl [H1]; · iexact H1
      iexact H2
  · rw [acc0_later V c t h0]
    have hz : t.val ≠ 0 := fun e => h0 (by rw [e])
    rw [Phi0_castSucc V c t, Phi0_pos V c _ _ hz]
    iintro ⟨⟨HS, Hr, Hg⟩, Ho, ⟨%d0, H0⟩, ⟨%d1, H1⟩, ⟨%d2, H2⟩⟩
    iapply (sound_kernel0_later c Set.univ (grid0.coords t) (fun h => h0 ((hcond0 t).mp h)) _ _ _ _ _ _ _ _ (iblk0 V c 0 t) (iblk0 V c 1 t) _ _)
    isplitl [H0]; · iexact H0
    isplitl [H1]; · iexact H1
    isplitl [H2]; · iexists _; iexact H2
    isplitl [HS]; · iexact HS
    iintro ⟨H0, H1, H2, HS⟩
    isplitl [HS Hr Hg]
    · isplitl [HS]; · iexact HS
      isplitl [Hr]; · iexact Hr
      iexact Hg
    isplitl [Ho]; · iexact Ho
    isplitl [H0]; · iexact H0
    isplitl [H1]; · iexact H1
    iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = Phi0 V c 0 (Nat.zero_le _) from rfl, Phi0_zero V c 0 _ rfl]
  try exact Idealize.SL.BI.Entails.refl _

/-- After the last point the invariant gives the class's back: the scratch's contents are forgotten. -/
theorem hout0 (c : Dev nD) : (dat0 V c).Φ (Fin.last cfg0.N) ⊢ Pipeline.ΦA spec0 c := by
  rw [show (dat0 V c).Φ (Fin.last cfg0.N) = Phi0 V c (Fin.last cfg0.N).val (Nat.le_of_lt_succ (Fin.last cfg0.N).isLt) from rfl,
    Phi0_pos V c _ _ (by rw [Fin.val_last]; have : cfg0.N = 128 := N_0; omega), PhiA0_eq]
  iintro ⟨HS, Hr, Hg⟩
  isplitl [HS]; · iexists _; iexact HS
  isplitl [Hr]; · iexact Hr
  iexact Hg

end Region0

end Cert.Kernel.Run

end
-- ==== Proof.KDat1.lean ====
/-
  The second pallas_call as a pipeline, at the buffer contents `V` it is entered from. The four inputs (grid
  centres, keypoints, the first call's per-joint sums, heatmaps) keep their blocks; the output window's buffer and
  the scratch both hold `acc1 n`, the batch's loss summed over the tiles up to point `n` (reset at every 16th
  point). The region invariant carries the scratch from point to point. Stated for any float instance.
-/
import proofs.«107451_j57226144252798_1_alg».proof.Proof.KBody1
import proofs.«107451_j57226144252798_1_alg».proof.Proof.KDat0

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The reset test holds exactly at the first tile of each batch. -/
theorem hcond1 : ∀ t : Fin cfg1.N, cond0 (grid1.coords t) ↔ t.val % 16 = 0 :=
  (by decide +kernel : ∀ t : Fin grid1.N, cond0 (grid1.coords t) ↔ t.val % 16 = 0)

/-- The batch's running loss after the body at position `n`: reset at the first tile of a batch. -/
def acc1 (c : Dev nD) : (n : ℕ) → n < cfg1.N → Vec F S1x1x1 .f32
  | 0, hn => step1 (iblk1 V c 0 ⟨0, hn⟩) (iblk1 V c 1 ⟨0, hn⟩) (iblk1 V c 2 ⟨0, hn⟩) (iblk1 V c 3 ⟨0, hn⟩) k1_pay2
  | n + 1, hn =>
    if (n + 1) % 16 = 0 then step1 (iblk1 V c 0 ⟨n + 1, hn⟩) (iblk1 V c 1 ⟨n + 1, hn⟩) (iblk1 V c 2 ⟨n + 1, hn⟩) (iblk1 V c 3 ⟨n + 1, hn⟩) k1_pay2
    else step1 (iblk1 V c 0 ⟨n + 1, hn⟩) (iblk1 V c 1 ⟨n + 1, hn⟩) (iblk1 V c 2 ⟨n + 1, hn⟩) (iblk1 V c 3 ⟨n + 1, hn⟩) (acc1 c n (Nat.lt_of_succ_lt hn))

theorem acc1_first (c : Dev nD) (t : Fin cfg1.N) (h : t.val % 16 = 0) :
    acc1 V c t.val t.isLt = step1 (iblk1 V c 0 t) (iblk1 V c 1 t) (iblk1 V c 2 t) (iblk1 V c 3 t) k1_pay2 := by
  obtain ⟨n, hn⟩ := t
  cases n with
  | zero => rfl
  | succ n => exact if_pos h

theorem acc1_later (c : Dev nD) (t : Fin cfg1.N) (h : ¬t.val % 16 = 0) :
    acc1 V c t.val t.isLt = step1 (iblk1 V c 0 t) (iblk1 V c 1 t) (iblk1 V c 2 t) (iblk1 V c 3 t) (acc1 V c (t.val - 1) (Nat.lt_of_le_of_lt (Nat.sub_le _ _) t.isLt)) := by
  obtain ⟨n, hn⟩ := t
  cases n with
  | zero => exact absurd (Nat.zero_mod _) h
  | succ n => exact if_neg h

/-- The scratch the kernel carries between points. -/
abbrev scM1 : Memref sig .tc .vmem S1x1x1 .f32 := Memref.whole cc1_scratch0

/-- What of the scoped buffers the kernel never touches: every one but its staging buffers and its scratch. -/
abbrev rest1 (c : Dev nD) : sProp 𝕄 :=
  Pipeline.scopedRestBut (Ix := Unit) (Name := ℕ) (U := UR sig nD τ) (Lvl := ℕ) (Val := Elt F) spec1 c [cc1_scratch0]

/-- The class invariant with the scratch split off as a memref owned at some contents. -/
theorem PhiA1_eq (c : Dev nD) :
    (Pipeline.ΦA spec1 c : sProp 𝕄)
      = iprop((∃ d, owns (c : Thread nD τ) scM1 fullShare d) ∗ rest1 (F := F) c ∗ (∃ r, prngReg c r)) := by
  unfold Pipeline.ΦA
  rw [Pipeline.scopedRest_split_of_list spec1 c [cc1_scratch0] (by decide) (by decide)]
  simp only [bigSepL, scM1, owns_whole]
  exact sep_assoc_eq _ _ _

/-- The region invariant before position `n`. -/
def Phi1 (c : Dev nD) : (n : ℕ) → n ≤ cfg1.N → sProp 𝕄
  | 0, _ => Pipeline.ΦA spec1 c
  | n + 1, hn => iprop(owns (c : Thread nD τ) scM1 fullShare (acc1 V c n hn) ∗ rest1 (F := F) c ∗ (∃ r, prngReg c r))

theorem Phi1_zero (c : Dev nD) (n : ℕ) (h : n ≤ cfg1.N) (hz : n = 0) : Phi1 V c n h = Pipeline.ΦA spec1 c := by
  subst hz; rfl
theorem Phi1_succ (c : Dev nD) (n : ℕ) (hn : n < cfg1.N) :
    Phi1 V c (n + 1) hn = iprop(owns (c : Thread nD τ) scM1 fullShare (acc1 V c n hn) ∗ rest1 (F := F) c ∗ (∃ r, prngReg c r)) := rfl
theorem Phi1_pos (c : Dev nD) (n : ℕ) (h : n ≤ cfg1.N) (hz : n ≠ 0) :
    Phi1 V c n h = iprop(owns (c : Thread nD τ) scM1 fullShare (acc1 V c (n - 1) (by omega)) ∗ rest1 (F := F) c ∗ (∃ r, prngReg c r)) := by
  cases n with
  | zero => exact absurd rfl hz
  | succ n => rfl

/-- The proof data of pipeline 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => acc1 V c t.val t.isLt
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem Phi1_castSucc (c : Dev nD) (t : Fin cfg1.N) :
    (dat1 V c).Φ t.castSucc = Phi1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = acc1 V c t.val t.isLt := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

set_option maxHeartbeats 2000000 in
/-- The body at any point, by the two cases of the reset test. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl,
    show (dat1 V c).Φ t.succ = Phi1 V c (t.val + 1) t.isLt from rfl, Phi1_succ, after1_0, after1_1, after1_2, after1_3, after1_4]
  by_cases h0 : t.val % 16 = 0
  · rw [acc1_first V c t h0]
    by_cases hz : t.val = 0
    · rw [Phi1_castSucc V c t, Phi1_zero V c _ _ hz, PhiA1_eq]
      iintro ⟨⟨HS, Hr, Hg⟩, Ho, ⟨%d0, H0⟩, ⟨%d1, H1⟩, ⟨%d2, H2⟩, ⟨%d3, H3⟩, ⟨%d4, H4⟩⟩
      iapply (sound_kernel1_first c Set.univ (grid1.coords t) ((hcond1 t).mpr h0) _ _ _ _ _ _ _ _ _ _ _ _ (iblk1 V c 0 t) (iblk1 V c 1 t) (iblk1 V c 2 t) (iblk1 V c 3 t) _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      isplitl [H3]; · iexact H3
      iexact H4
    · rw [Phi1_castSucc V c t, Phi1_pos V c _ _ hz]
      iintro ⟨⟨HS, Hr, Hg⟩, Ho, ⟨%d0, H0⟩, ⟨%d1, H1⟩, ⟨%d2, H2⟩, ⟨%d3, H3⟩, ⟨%d4, H4⟩⟩
      iapply (sound_kernel1_first c Set.univ (grid1.coords t) ((hcond1 t).mpr h0) _ _ _ _ _ _ _ _ _ _ _ _ (iblk1 V c 0 t) (iblk1 V c 1 t) (iblk1 V c 2 t) (iblk1 V c 3 t) _)
      isplitl [H0]; · iexact H0
      isplitl [H1]; · iexact H1
      isplitl [H2]; · iexact H2
      isplitl [H3]; · iexact H3
      isplitl [H4]; · iexists _; iexact H4
      isplitl [HS]; · iexists _; iexact HS
      iintro ⟨H0, H1, H2, H3, H4, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      isplitl [H3]; · iexact H3
      iexact H4
  · rw [acc1_later V c t h0]
    have hz : t.val ≠ 0 := fun e => h0 (by rw [e])
    rw [Phi1_castSucc V c t, Phi1_pos V c _ _ hz]
    iintro ⟨⟨HS, Hr, Hg⟩, Ho, ⟨%d0, H0⟩, ⟨%d1, H1⟩, ⟨%d2, H2⟩, ⟨%d3, H3⟩, ⟨%d4, H4⟩⟩
    iapply (sound_kernel1_later c Set.univ (grid1.coords t) (fun h => h0 ((hcond1 t).mp h)) _ _ _ _ _ _ _ _ _ _ _ _ (iblk1 V c 0 t) (iblk1 V c 1 t) (iblk1 V c 2 t) (iblk1 V c 3 t) _ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS Hr Hg]
    · isplitl [HS]; · iexact HS
      isplitl [Hr]; · iexact Hr
      iexact Hg
    isplitl [Ho]; · iexact Ho
    isplitl [H0]; · iexact H0
    isplitl [H1]; · iexact H1
    isplitl [H2]; · iexact H2
    isplitl [H3]; · iexact H3
    iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = Phi1 V c 0 (Nat.zero_le _) from rfl, Phi1_zero V c 0 _ rfl]
  try exact Idealize.SL.BI.Entails.refl _

/-- After the last point the invariant gives the class's back: the scratch's contents are forgotten. -/
theorem hout1 (c : Dev nD) : (dat1 V c).Φ (Fin.last cfg1.N) ⊢ Pipeline.ΦA spec1 c := by
  rw [show (dat1 V c).Φ (Fin.last cfg1.N) = Phi1 V c (Fin.last cfg1.N).val (Nat.le_of_lt_succ (Fin.last cfg1.N).isLt) from rfl,
    Phi1_pos V c _ _ (by rw [Fin.val_last]; have : cfg1.N = 128 := N_1; omega), PhiA1_eq]
  iintro ⟨HS, Hr, Hg⟩
  isplitl [HS]; · iexists _; iexact HS
  isplitl [Hr]; · iexact Hr
  iexact Hg

end Region1

end Cert.Kernel.Run

end
-- ==== Proof.KRun.lean ====
/-
  The whole program run: @main is a stretch of host operations (a transpose and a reshape), the two pallas_calls
  and a last stretch (the sum of the per-batch partial losses, the division by 8, the product with 1). The buffer
  contents at each boundary are a fold from the launch memory: `W1` after the first stretch, `W2` with the first
  call's arrays at what its write-backs leave, `W3` likewise for the second call, `W4` after the last stretch.
  Every weakly fair execution terminates with every unscoped buffer at `W4`. Stated for any float instance.
-/
import proofs.«107451_j57226144252798_1_alg».proof.Proof.KDat1
import proofs.«107451_j57226144252798_1_alg».proof.Proof.Gen.Kernel.Regions
import Idealize.ShloMosaic.Lib.Pipeline.RegionsLoop
import Idealize.ShloMosaic.Lib.Pipeline.FrameSuffix

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m (c, b)
/-- After the first host stretch (the first call's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the first call's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- At the second call's exit. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)
/-- After the last host stretch: what the program returns with. -/
abbrev W4 : Dev nD → Valuation τ sig (Elt F) := fun c => StableHlo.after hostOps2 (W3 m c)

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- Region 0 over the thread state: entered from every unscoped buffer at `W1`, left at `W2`. Its arrays are split
    out of the unscoped buffers and put back at what the write-backs leave; the generator register and the scoped
    rest go into the kernel's invariant and come back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (dat0 (V1 m) c).Φ 0 from rfl]
    have h : (iprop(Pipeline.scopedRest (Ix := Unit) (Name := ℕ) (U := UR sig nD τ) (Lvl := ℕ) (Val := Elt F) spec0 c ∗ ∃ r, prngReg c r) : sProp 𝕄)
        ⊢ (dat0 (V1 m) c).Φ 0 := by
      have h' := hin0 (V1 m) c; unfold Pipeline.ΦA at h'; exact h'
    iintro ⟨Hp, -, Hr⟩
    iapply h
    isplitl [Hr]; · iexact Hr
    iexact Hp
  hout c := by
    rw [Pipeline.ownSems0_none, show (pdats m 0 c).Φ (Fin.last _) = (dat0 (V1 m) c).Φ (Fin.last cfg0.N) from rfl]
    have h : (dat0 (V1 m) c).Φ (Fin.last cfg0.N)
        ⊢ (iprop(Pipeline.scopedRest (Ix := Unit) (Name := ℕ) (U := UR sig nD τ) (Lvl := ℕ) (Val := Elt F) spec0 c ∗ ∃ r, prngReg c r) : sProp 𝕄) := by
      have h' := hout0 (V1 m) c; unfold Pipeline.ΦA at h'; exact h'
    iintro H
    ihave H' := h $$ H
    icases H' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W2`, left at `W3`. Its arrays are split
    out of the unscoped buffers and put back at what the write-backs leave; the generator register and the scoped
    rest go into the kernel's invariant and come back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (V2 m) c).Φ 0 from rfl]
    have h : (iprop(Pipeline.scopedRest (Ix := Unit) (Name := ℕ) (U := UR sig nD τ) (Lvl := ℕ) (Val := Elt F) spec1 c ∗ ∃ r, prngReg c r) : sProp 𝕄)
        ⊢ (dat1 (V2 m) c).Φ 0 := by
      have h' := hin1 (V2 m) c; unfold Pipeline.ΦA at h'; exact h'
    iintro ⟨Hp, -, Hr⟩
    iapply h
    isplitl [Hr]; · iexact Hr
    iexact Hp
  hout c := by
    rw [Pipeline.ownSems0_none, show (pdats m 1 c).Φ (Fin.last _) = (dat1 (V2 m) c).Φ (Fin.last cfg1.N) from rfl]
    have h : (dat1 (V2 m) c).Φ (Fin.last cfg1.N)
        ⊢ (iprop(Pipeline.scopedRest (Ix := Unit) (Name := ℕ) (U := UR sig nD τ) (Lvl := ℕ) (Val := Elt F) spec1 c ∗ ∃ r, prngReg c r) : sProp 𝕄) := by
      have h' := hout1 (V2 m) c; unfold Pipeline.ΦA at h'; exact h'
    iintro H
    ihave H' := h $$ H
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .region (reg1 m),
    .host (hseg hostOps2 hostOps2_sub hostOps2_fresh (W3 m)) ]
theorem main_run (c : Dev nD) : main (F := F) c = Pipeline.Seg.run (segs m) := (main_chain c).trans (by chain_rfl)

set_option backward.isDefEq.respectTransparency.types false in
/-- THE RUN: from any memory with zero counters every weakly fair execution of @main terminates, nothing faulting, and
    every unscoped buffer of every core ends at `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => by
      show (iprop(StableHlo.held (c : Thread nD τ) (Pipeline.ucRefs τ sig) (W4 m c) ∗ R c) : sProp 𝕄)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

end Cert.Kernel.Run

end
-- ==== Proof.KArgs.lean ====
/-
  No item of @main writes an argument array: the host stretches write only their own results, the two calls
  write only their output arrays (the keypoints are an input window of both and come back as entered), so each
  argument's buffer is read back through the fold of boundary contents to the launch memory. Stated for any
  float instance.
-/
import proofs.«107451_j57226144252798_1_alg».proof.Proof.KRun

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem W4_main_arg0 (c : Dev nD) : W4 m c (Proc.devRef .tc main_arg0) = m ((c : Thread nD τ).loc main_arg0) :=
  (StableHlo.after_of_writes_sub hostOps2 (W3 m c) Gen.hostOps2_writes (by decide : main_arg0 ∉ Gen.hostOps2_W)).trans <|
    (W3_of_ne m c main_arg0 (by decide)).trans <|
    (W2_of_ne m c main_arg0 (by decide)).trans <|
    (StableHlo.after_of_writes_sub hostOps0 (W0 m c) Gen.hostOps0_writes (by decide : main_arg0 ∉ Gen.hostOps0_W)).trans rfl
theorem W4_main_arg1 (c : Dev nD) : W4 m c (Proc.devRef .tc main_arg1) = m ((c : Thread nD τ).loc main_arg1) :=
  (StableHlo.after_of_writes_sub hostOps2 (W3 m c) Gen.hostOps2_writes (by decide : main_arg1 ∉ Gen.hostOps2_W)).trans <|
    ((W3_arr m c 1).trans (((dat1 (V2 m) c).arrAt_in 1 rfl _).trans (A_eq1 (V2 m) c 1))).trans <|
    ((W2_arr m c 1).trans (((dat0 (V1 m) c).arrAt_in 1 rfl _).trans (A_eq0 (V1 m) c 1))).trans <|
    (StableHlo.after_of_writes_sub hostOps0 (W0 m c) Gen.hostOps0_writes (by decide : main_arg1 ∉ Gen.hostOps0_W)).trans rfl
theorem W4_main_arg2 (c : Dev nD) : W4 m c (Proc.devRef .tc main_arg2) = m ((c : Thread nD τ).loc main_arg2) :=
  (StableHlo.after_of_writes_sub hostOps2 (W3 m c) Gen.hostOps2_writes (by decide : main_arg2 ∉ Gen.hostOps2_W)).trans <|
    (W3_of_ne m c main_arg2 (by decide)).trans <|
    (W2_of_ne m c main_arg2 (by decide)).trans <|
    (StableHlo.after_of_writes_sub hostOps0 (W0 m c) Gen.hostOps0_writes (by decide : main_arg2 ∉ Gen.hostOps0_W)).trans rfl
theorem W4_main_arg3 (c : Dev nD) : W4 m c (Proc.devRef .tc main_arg3) = m ((c : Thread nD τ).loc main_arg3) :=
  (StableHlo.after_of_writes_sub hostOps2 (W3 m c) Gen.hostOps2_writes (by decide : main_arg3 ∉ Gen.hostOps2_W)).trans <|
    (W3_of_ne m c main_arg3 (by decide)).trans <|
    (W2_of_ne m c main_arg3 (by decide)).trans <|
    (StableHlo.after_of_writes_sub hostOps0 (W0 m c) Gen.hostOps0_writes (by decide : main_arg3 ∉ Gen.hostOps0_W)).trans rfl

end Cert.Kernel.Run

end
-- ==== Proof.Body0.lean ====
/-
  The first kernel's body on whole staging buffers. One grid point adds to the running per-joint sum the
  sum over the point's 16384 grid centres of exp(2 * exp(-d2)): the scratch `s` becomes `step0 x2 x3 s`,
  and the output window's buffer is left at the same value. At the first tile of a batch (second grid
  coordinate zero) the scratch is zeroed first, so the result is `step0 x2 x3 0` whatever it held.
  Stated for any float instance.
-/
import proofs.«107451_j57226144252798_1_alg».proof.Proof.Gen.KernelIdeal.Launch
import proofs.«107451_j57226144252798_1_alg».proof.Proof.Gen.KernelIdeal.Skeleton
import proofs.«107451_j57226144252798_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A load through the whole-shape rectangle of what a LAST store through it left, whatever was stored before. -/
theorem readCov_cons_unit_zero {Val : EltTy → Type} [∀ e, Nonempty (Val e)] {S : Shape} {e : EltTy} {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons_self .., View.mem_set_unit_zero h inb y⟩),
    View.canon_cons_unit_zero h, View.ld_unit_zero h]

/-- The reset test of both kernels: the second grid coordinate is zero. -/
abbrev cond0 (i : grid0.Coords) : Prop := (Scalar.cmpi .ne (Scalar.extui (Scalar.cmpi .eq (BitVec.ofNat 32 (i 1).val) 0#32)) 0#32) = 1#1

/-- One point's update of the running sums: the old sums plus this tile's. -/
def step0 (x2 : Vec F S1x3x16384 .f32) (x3 : Vec F S1x3x23 .f32) (s : Vec F S1x23x1 .f32) : Vec F S1x23x1 .f32 :=
  k0_pay1 (k0_pay3 x2 x3) s

set_option maxHeartbeats 1000000 in
/-- A point that is not the first tile of its batch: the scratch holds the sums so far. -/
theorem sound_kernel0_later (c : Dev nD) (E : Set ℕ) (i : grid0.Coords) (hc : ¬cond0 i)
    (arg2 : Memref sig .tc .vmem S1x3x16384 .f32) (harg2 : arg2.IsWhole) (arg3 : Memref sig .tc .vmem S1x3x23 .f32) (harg3 : arg3.IsWhole)
    (arg4 : Memref sig .tc .vmem S1x23x1 .f32) (harg4 : arg4.IsWhole) (arg5 : Memref sig .tc .vmem S1x23x1 .f32) (harg5 : arg5.IsWhole)
    (x2 : Vec F S1x3x16384 .f32) (x3 : Vec F S1x3x23 .f32) (s : Vec F S1x23x1 .f32) (K : PUnit → sProp 𝕄) :
    iprop(owns (c : Thread nD τ) arg2 fullShare x2 ∗ owns (c : Thread nD τ) arg3 fullShare x3 ∗ (∃ d, owns (c : Thread nD τ) arg4 fullShare d)
        ∗ owns (c : Thread nD τ) arg5 fullShare s
        ∗ (iprop(owns (c : Thread nD τ) arg2 fullShare x2 ∗ owns (c : Thread nD τ) arg3 fullShare x3
            ∗ owns (c : Thread nD τ) arg4 fullShare (step0 x2 x3 s) ∗ owns (c : Thread nD τ) arg5 fullShare (step0 x2 x3 s)) -∗ K ⟨⟩))
      ⊢ wp frame (wpE (defs₀ (F := F)) Variants.none c none) E (cc0_pass1_kernel i arg2 harg2 arg3 harg3 arg4 harg4 arg5 harg5) K := by
  simp only [cc0_pass1_kernel_eq_skeleton]; unfold cc0_pass1_kernel_skel
  unfold owns
  iintro ⟨⟨%f2, %hf2, H2⟩, ⟨%f3, %hf3, H3⟩, ⟨%d4, %f4, -, H4⟩, ⟨%f5, %hf5, H5⟩, Hk⟩
  subst hf2; subst hf3; subst hf5
  sl_exec (disch := exact hc)
  sl_step
  iapply Hk
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_words
    have hz3 : (![0, 0, 0] : Fin 3 → ℕ) = fun _ => 0 := by funext a; fin_cases a <;> rfl
    rw [View.read_writes_eq_canon _ _ _ (fun y => ⟨_, List.mem_cons_self .., View.mem_set_unit_zero hz3 Facts₀.inb_S1x23x1_S1x23x1_0_0_0 y⟩), View.canon_cons_unit_zero hz3]
    simp only [View.readAt_eq_ld, View.ld_unit_zero (S := S1x3x16384) hz3, View.ld_unit_zero (S := S1x3x23) hz3, View.ld_unit_zero (S := S1x23x1) hz3, View.ld_unit_zero (S := S1x23x16384) hz3, View.ld_unit_zero (S := S1x1x1) hz3, readCov_cons_unit_zero (S := S1x23x1) _ hz3]
    rfl
  iexists _; isplitr
  swap; · iexact H5
  ipureintro
  sl_unfold_words
  have hz3 : (![0, 0, 0] : Fin 3 → ℕ) = fun _ => 0 := by funext a; fin_cases a <;> rfl
  rw [View.read_writes_eq_canon _ _ _ (fun y => ⟨_, List.mem_cons_self .., View.mem_set_unit_zero hz3 Facts₀.inb_S1x23x1_S1x23x1_0_0_0 y⟩), View.canon_cons_unit_zero hz3]
  simp only [View.readAt_eq_ld, View.ld_unit_zero (S := S1x3x16384) hz3, View.ld_unit_zero (S := S1x3x23) hz3, View.ld_unit_zero (S := S1x23x1) hz3, View.ld_unit_zero (S := S1x23x16384) hz3, View.ld_unit_zero (S := S1x1x1) hz3, readCov_cons_unit_zero (S := S1x23x1) _ hz3]
  rfl

set_option maxHeartbeats 1000000 in
/-- The first tile of a batch: the scratch is zeroed, then updated. -/
theorem sound_kernel0_first (c : Dev nD) (E : Set ℕ) (i : grid0.Coords) (hc : cond0 i)
    (arg2 : Memref sig .tc .vmem S1x3x16384 .f32) (harg2 : arg2.IsWhole) (arg3 : Memref sig .tc .vmem S1x3x23 .f32) (harg3 : arg3.IsWhole)
    (arg4 : Memref sig .tc .vmem S1x23x1 .f32) (harg4 : arg4.IsWhole) (arg5 : Memref sig .tc .vmem S1x23x1 .f32) (harg5 : arg5.IsWhole)
    (x2 : Vec F S1x3x16384 .f32) (x3 : Vec F S1x3x23 .f32) (K : PUnit → sProp 𝕄) :
    iprop(owns (c : Thread nD τ) arg2 fullShare x2 ∗ owns (c : Thread nD τ) arg3 fullShare x3 ∗ (∃ d, owns (c : Thread nD τ) arg4 fullShare d)
        ∗ (∃ d, owns (c : Thread nD τ) arg5 fullShare d)
        ∗ (iprop(owns (c : Thread nD τ) arg2 fullShare x2 ∗ owns (c : Thread nD τ) arg3 fullShare x3
            ∗ owns (c : Thread nD τ) arg4 fullShare (step0 x2 x3 k0_pay2) ∗ owns (c : Thread nD τ) arg5 fullShare (step0 x2 x3 k0_pay2)) -∗ K ⟨⟩))
      ⊢ wp frame (wpE (defs₀ (F := F)) Variants.none c none) E (cc0_pass1_kernel i arg2 harg2 arg3 harg3 arg4 harg4 arg5 harg5) K := by
  simp only [cc0_pass1_kernel_eq_skeleton]; unfold cc0_pass1_kernel_skel
  unfold owns
  iintro ⟨⟨%f2, %hf2, H2⟩, ⟨%f3, %hf3, H3⟩, ⟨%d4, %f4, -, H4⟩, ⟨%d5, %f5, -, H5⟩, Hk⟩
  subst hf2; subst hf3
  sl_exec (disch := exact hc)
  sl_step
  iapply Hk
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_words
    have hz3 : (![0, 0, 0] : Fin 3 → ℕ) = fun _ => 0 := by funext a; fin_cases a <;> rfl
    rw [View.read_writes_eq_canon _ _ _ (fun y => ⟨_, List.mem_cons_self .., View.mem_set_unit_zero hz3 Facts₀.inb_S1x23x1_S1x23x1_0_0_0 y⟩), View.canon_cons_unit_zero hz3]
    simp only [View.readAt_eq_ld, View.ld_unit_zero (S := S1x3x16384) hz3, View.ld_unit_zero (S := S1x3x23) hz3, View.ld_unit_zero (S := S1x23x1) hz3, View.ld_unit_zero (S := S1x23x16384) hz3, View.ld_unit_zero (S := S1x1x1) hz3, readCov_cons_unit_zero (S := S1x23x1) _ hz3]
    rfl
  iexists _; isplitr
  swap; · iexact H5
  ipureintro
  sl_unfold_words
  have hz3 : (![0, 0, 0] : Fin 3 → ℕ) = fun _ => 0 := by funext a; fin_cases a <;> rfl
  rw [View.read_writes_eq_canon _ _ _ (fun y => ⟨_, List.mem_cons_self .., View.mem_set_unit_zero hz3 Facts₀.inb_S1x23x1_S1x23x1_0_0_0 y⟩), View.canon_cons_unit_zero hz3]
  simp only [View.readAt_eq_ld, View.ld_unit_zero (S := S1x3x16384) hz3, View.ld_unit_zero (S := S1x3x23) hz3, View.ld_unit_zero (S := S1x23x1) hz3, View.ld_unit_zero (S := S1x23x16384) hz3, View.ld_unit_zero (S := S1x1x1) hz3, readCov_cons_unit_zero (S := S1x23x1) _ hz3]
  rfl

end Cert.KernelIdeal.Run

end
-- ==== Proof.Body1.lean ====
/-
  The second kernel's body on whole staging buffers. One grid point adds to the batch's running loss the sum,
  over the 23 joints and the point's 16384 grid centres, of (e / S - heat)^2, where e = exp(2 * exp(-d2)) as in
  the first kernel and S is the first kernel's per-joint sum: the scratch `s` becomes `step1 x2 x3 x4 x5 s`
  and the output window's buffer is left at the same value. At the first tile of a batch the scratch is zeroed
  first. Stated for any float instance.
-/
import proofs.«107451_j57226144252798_1_alg».proof.Proof.Body0

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- One point's update of the batch's running loss: the old value plus this tile's. -/
def step1 (x2 : Vec F S1x3x16384 .f32) (x3 : Vec F S1x3x23 .f32) (x4 : Vec F S1x23x1 .f32) (x5 : Vec F S1x23x16384 .f32)
    (s : Vec F S1x1x1 .f32) : Vec F S1x1x1 .f32 :=
  k1_pay1 (k1_pay3 x2 x3) x4 x5 s

set_option maxHeartbeats 1000000 in
/-- A point that is not the first tile of its batch: the scratch holds the loss so far. -/
theorem sound_kernel1_later (c : Dev nD) (E : Set ℕ) (i : grid1.Coords) (hc : ¬cond0 i)
    (arg2 : Memref sig .tc .vmem S1x3x16384 .f32) (harg2 : arg2.IsWhole) (arg3 : Memref sig .tc .vmem S1x3x23 .f32) (harg3 : arg3.IsWhole)
    (arg4 : Memref sig .tc .vmem S1x23x1 .f32) (harg4 : arg4.IsWhole) (arg5 : Memref sig .tc .vmem S1x23x16384 .f32) (harg5 : arg5.IsWhole)
    (arg6 : Memref sig .tc .vmem S1x1x1 .f32) (harg6 : arg6.IsWhole) (arg7 : Memref sig .tc .vmem S1x1x1 .f32) (harg7 : arg7.IsWhole)
    (x2 : Vec F S1x3x16384 .f32) (x3 : Vec F S1x3x23 .f32) (x4 : Vec F S1x23x1 .f32) (x5 : Vec F S1x23x16384 .f32) (s : Vec F S1x1x1 .f32)
    (K : PUnit → sProp 𝕄) :
    iprop(owns (c : Thread nD τ) arg2 fullShare x2 ∗ owns (c : Thread nD τ) arg3 fullShare x3 ∗ owns (c : Thread nD τ) arg4 fullShare x4
        ∗ owns (c : Thread nD τ) arg5 fullShare x5 ∗ (∃ d, owns (c : Thread nD τ) arg6 fullShare d)
        ∗ owns (c : Thread nD τ) arg7 fullShare s
        ∗ (iprop(owns (c : Thread nD τ) arg2 fullShare x2 ∗ owns (c : Thread nD τ) arg3 fullShare x3 ∗ owns (c : Thread nD τ) arg4 fullShare x4
            ∗ owns (c : Thread nD τ) arg5 fullShare x5
            ∗ owns (c : Thread nD τ) arg6 fullShare (step1 x2 x3 x4 x5 s) ∗ owns (c : Thread nD τ) arg7 fullShare (step1 x2 x3 x4 x5 s)) -∗ K ⟨⟩))
      ⊢ wp frame (wpE (defs₀ (F := F)) Variants.none c none) E (cc1_pass2_kernel i arg2 harg2 arg3 harg3 arg4 harg4 arg5 harg5 arg6 harg6 arg7 harg7) K := by
  simp only [cc1_pass2_kernel_eq_skeleton]; unfold cc1_pass2_kernel_skel
  unfold owns
  iintro ⟨⟨%f2, %hf2, H2⟩, ⟨%f3, %hf3, H3⟩, ⟨%f4, %hf4, H4⟩, ⟨%f5, %hf5, H5⟩, ⟨%d6, %f6, -, H6⟩, ⟨%f7, %hf7, H7⟩, Hk⟩
  subst hf2; subst hf3; subst hf4; subst hf5; subst hf7
  sl_exec (disch := exact hc)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_words
    have hz3 : (![0, 0, 0] : Fin 3 → ℕ) = fun _ => 0 := by funext a; fin_cases a <;> rfl
    rw [View.read_writes_eq_canon _ _ _ (fun y => ⟨_, List.mem_cons_self .., View.mem_set_unit_zero hz3 Facts₀.inb_S1x1x1_S1x1x1_0_0_0 y⟩), View.canon_cons_unit_zero hz3]
    simp only [View.readAt_eq_ld, View.ld_unit_zero (S := S1x3x16384) hz3, View.ld_unit_zero (S := S1x3x23) hz3, View.ld_unit_zero (S := S1x23x1) hz3, View.ld_unit_zero (S := S1x23x16384) hz3, View.ld_unit_zero (S := S1x1x1) hz3, readCov_cons_unit_zero (S := S1x1x1) _ hz3]
    rfl
  iexists _; isplitr
  swap; · iexact H7
  ipureintro
  sl_unfold_words
  have hz3 : (![0, 0, 0] : Fin 3 → ℕ) = fun _ => 0 := by funext a; fin_cases a <;> rfl
  rw [View.read_writes_eq_canon _ _ _ (fun y => ⟨_, List.mem_cons_self .., View.mem_set_unit_zero hz3 Facts₀.inb_S1x1x1_S1x1x1_0_0_0 y⟩), View.canon_cons_unit_zero hz3]
  simp only [View.readAt_eq_ld, View.ld_unit_zero (S := S1x3x16384) hz3, View.ld_unit_zero (S := S1x3x23) hz3, View.ld_unit_zero (S := S1x23x1) hz3, View.ld_unit_zero (S := S1x23x16384) hz3, View.ld_unit_zero (S := S1x1x1) hz3, readCov_cons_unit_zero (S := S1x1x1) _ hz3]
  rfl

set_option maxHeartbeats 1000000 in
/-- The first tile of a batch: the scratch is zeroed, then updated. -/
theorem sound_kernel1_first (c : Dev nD) (E : Set ℕ) (i : grid1.Coords) (hc : cond0 i)
    (arg2 : Memref sig .tc .vmem S1x3x16384 .f32) (harg2 : arg2.IsWhole) (arg3 : Memref sig .tc .vmem S1x3x23 .f32) (harg3 : arg3.IsWhole)
    (arg4 : Memref sig .tc .vmem S1x23x1 .f32) (harg4 : arg4.IsWhole) (arg5 : Memref sig .tc .vmem S1x23x16384 .f32) (harg5 : arg5.IsWhole)
    (arg6 : Memref sig .tc .vmem S1x1x1 .f32) (harg6 : arg6.IsWhole) (arg7 : Memref sig .tc .vmem S1x1x1 .f32) (harg7 : arg7.IsWhole)
    (x2 : Vec F S1x3x16384 .f32) (x3 : Vec F S1x3x23 .f32) (x4 : Vec F S1x23x1 .f32) (x5 : Vec F S1x23x16384 .f32)
    (K : PUnit → sProp 𝕄) :
    iprop(owns (c : Thread nD τ) arg2 fullShare x2 ∗ owns (c : Thread nD τ) arg3 fullShare x3 ∗ owns (c : Thread nD τ) arg4 fullShare x4
        ∗ owns (c : Thread nD τ) arg5 fullShare x5 ∗ (∃ d, owns (c : Thread nD τ) arg6 fullShare d)
        ∗ (∃ d, owns (c : Thread nD τ) arg7 fullShare d)
        ∗ (iprop(owns (c : Thread nD τ) arg2 fullShare x2 ∗ owns (c : Thread nD τ) arg3 fullShare x3 ∗ owns (c : Thread nD τ) arg4 fullShare x4
            ∗ owns (c : Thread nD τ) arg5 fullShare x5
            ∗ owns (c : Thread nD τ) arg6 fullShare (step1 x2 x3 x4 x5 k1_pay2) ∗ owns (c : Thread nD τ) arg7 fullShare (step1 x2 x3 x4 x5 k1_pay2)) -∗ K ⟨⟩))
      ⊢ wp frame (wpE (defs₀ (F := F)) Variants.none c none) E (cc1_pass2_kernel i arg2 harg2 arg3 harg3 arg4 harg4 arg5 harg5 arg6 harg6 arg7 harg7) K := by
  simp only [cc1_pass2_kernel_eq_skeleton]; unfold cc1_pass2_kernel_skel
  unfold owns
  iintro ⟨⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf2; subst hf3; subst hf4; subst hf5
  sl_exec (disch := exact hc)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_words
    have hz3 : (![0, 0, 0] : Fin 3 → ℕ) = fun _ => 0 := by funext a; fin_cases a <;> rfl
    rw [View.read_writes_eq_canon _ _ _ (fun y => ⟨_, List.mem_cons_self .., View.mem_set_unit_zero hz3 Facts₀.inb_S1x1x1_S1x1x1_0_0_0 y⟩), View.canon_cons_unit_zero hz3]
    simp only [View.readAt_eq_ld, View.ld_unit_zero (S := S1x3x16384) hz3, View.ld_unit_zero (S := S1x3x23) hz3, View.ld_unit_zero (S := S1x23x1) hz3, View.ld_unit_zero (S := S1x23x16384) hz3, View.ld_unit_zero (S := S1x1x1) hz3, readCov_cons_unit_zero (S := S1x1x1) _ hz3]
    rfl
  iexists _; isplitr
  swap; · iexact H7
  ipureintro
  sl_unfold_words
  have hz3 : (![0, 0, 0] : Fin 3 → ℕ) = fun _ => 0 := by funext a; fin_cases a <;> rfl
  rw [View.read_writes_eq_canon _ _ _ (fun y => ⟨_, List.mem_cons_self .., View.mem_set_unit_zero hz3 Facts₀.inb_S1x1x1_S1x1x1_0_0_0 y⟩), View.canon_cons_unit_zero hz3]
  simp only [View.readAt_eq_ld, View.ld_unit_zero (S := S1x3x16384) hz3, View.ld_unit_zero (S := S1x3x23) hz3, View.ld_unit_zero (S := S1x23x1) hz3, View.ld_unit_zero (S := S1x23x16384) hz3, View.ld_unit_zero (S := S1x1x1) hz3, readCov_cons_unit_zero (S := S1x1x1) _ hz3]
  rfl

end Cert.KernelIdeal.Run

end
-- ==== Proof.Dat0.lean ====
/-
  The first pallas_call as a pipeline, at the buffer contents `V` it is entered from: what each window's staging
  buffer holds after the body at every grid point, and the body obligation. The two inputs keep their blocks;
  the output window's buffer and the scratch both hold `acc0 n`, the per-joint sums over the tiles of the
  current batch up to point `n` (reset at every 16th point, the first tile of a batch). The region invariant
  carries the scratch at `acc0 (n-1)` from point to point. Stated for any float instance.
-/
import proofs.«107451_j57226144252798_1_alg».proof.Proof.Body0

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Separating conjunction re-associated, as an equation. -/
theorem sep_assoc_eq (A B C : sProp 𝕄) : (iprop((A ∗ B) ∗ C) : sProp 𝕄) = iprop(A ∗ B ∗ C) := by
  have h₁ : (iprop((A ∗ B) ∗ C) : sProp 𝕄) ⊢ iprop(A ∗ B ∗ C) := by
    iintro ⟨⟨HA, HB⟩, HC⟩
    isplitl [HA]; · iexact HA
    isplitl [HB]; · iexact HB
    iexact HC
  have h₂ : (iprop(A ∗ B ∗ C) : sProp 𝕄) ⊢ iprop((A ∗ B) ∗ C) := by
    iintro ⟨HA, HB, HC⟩
    isplitl [HA HB]
    · isplitl [HA]; · iexact HA
      iexact HB
    iexact HC
  exact BI.equiv_iff.mp ⟨h₁, h₂⟩

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The reset test holds exactly at the first tile of each batch. -/
theorem hcond0 : ∀ t : Fin cfg0.N, cond0 (grid0.coords t) ↔ t.val % 16 = 0 :=
  (by decide +kernel : ∀ t : Fin grid0.N, cond0 (grid0.coords t) ↔ t.val % 16 = 0)

/-- The running per-joint sums after the body at position `n`: reset at the first tile of a batch. -/
def acc0 (c : Dev nD) : (n : ℕ) → n < cfg0.N → Vec F S1x23x1 .f32
  | 0, hn => step0 (iblk0 V c 0 ⟨0, hn⟩) (iblk0 V c 1 ⟨0, hn⟩) k0_pay2
  | n + 1, hn =>
    if (n + 1) % 16 = 0 then step0 (iblk0 V c 0 ⟨n + 1, hn⟩) (iblk0 V c 1 ⟨n + 1, hn⟩) k0_pay2
    else step0 (iblk0 V c 0 ⟨n + 1, hn⟩) (iblk0 V c 1 ⟨n + 1, hn⟩) (acc0 c n (Nat.lt_of_succ_lt hn))

theorem acc0_first (c : Dev nD) (t : Fin cfg0.N) (h : t.val % 16 = 0) :
    acc0 V c t.val t.isLt = step0 (iblk0 V c 0 t) (iblk0 V c 1 t) k0_pay2 := by
  obtain ⟨n, hn⟩ := t
  cases n with
  | zero => rfl
  | succ n => exact if_pos h

theorem acc0_later (c : Dev nD) (t : Fin cfg0.N) (h : ¬t.val % 16 = 0) :
    acc0 V c t.val t.isLt = step0 (iblk0 V c 0 t) (iblk0 V c 1 t) (acc0 V c (t.val - 1) (Nat.lt_of_le_of_lt (Nat.sub_le _ _) t.isLt)) := by
  obtain ⟨n, hn⟩ := t
  cases n with
  | zero => exact absurd (Nat.zero_mod _) h
  | succ n => exact if_neg h

/-- The scratch the kernel carries between points. -/
abbrev scM0 : Memref sig .tc .vmem S1x23x1 .f32 := Memref.whole cc0_scratch0

/-- What of the scoped buffers the kernel never touches: every one but its staging buffers and its scratch. -/
abbrev rest0 (c : Dev nD) : sProp 𝕄 :=
  Pipeline.scopedRestBut (Ix := Unit) (Name := ℕ) (U := UR sig nD τ) (Lvl := ℕ) (Val := Elt F) spec0 c [cc0_scratch0]

/-- The class invariant with the scratch split off as a memref owned at some contents. -/
theorem PhiA0_eq (c : Dev nD) :
    (Pipeline.ΦA spec0 c : sProp 𝕄)
      = iprop((∃ d, owns (c : Thread nD τ) scM0 fullShare d) ∗ rest0 (F := F) c ∗ (∃ r, prngReg c r)) := by
  unfold Pipeline.ΦA
  rw [Pipeline.scopedRest_split_of_list spec0 c [cc0_scratch0] (by decide) (by decide)]
  simp only [bigSepL, scM0, owns_whole]
  exact sep_assoc_eq _ _ _

/-- The region invariant before position `n`: before the first point the class's; afterwards the scratch at what the
    point before left in it. -/
def Phi0 (c : Dev nD) : (n : ℕ) → n ≤ cfg0.N → sProp 𝕄
  | 0, _ => Pipeline.ΦA spec0 c
  | n + 1, hn => iprop(owns (c : Thread nD τ) scM0 fullShare (acc0 V c n hn) ∗ rest0 (F := F) c ∗ (∃ r, prngReg c r))

theorem Phi0_zero (c : Dev nD) (n : ℕ) (h : n ≤ cfg0.N) (hz : n = 0) : Phi0 V c n h = Pipeline.ΦA spec0 c := by
  subst hz; rfl
theorem Phi0_succ (c : Dev nD) (n : ℕ) (hn : n < cfg0.N) :
    Phi0 V c (n + 1) hn = iprop(owns (c : Thread nD τ) scM0 fullShare (acc0 V c n hn) ∗ rest0 (F := F) c ∗ (∃ r, prngReg c r)) := rfl
theorem Phi0_pos (c : Dev nD) (n : ℕ) (h : n ≤ cfg0.N) (hz : n ≠ 0) :
    Phi0 V c n h = iprop(owns (c : Thread nD τ) scM0 fullShare (acc0 V c (n - 1) (by omega)) ∗ rest0 (F := F) c ∗ (∃ r, prngReg c r)) := by
  cases n with
  | zero => exact absurd rfl hz
  | succ n => rfl

/-- The proof data of pipeline 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => acc0 V c t.val t.isLt
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem Phi0_castSucc (c : Dev nD) (t : Fin cfg0.N) :
    (dat0 V c).Φ t.castSucc = Phi0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = acc0 V c t.val t.isLt := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

set_option maxHeartbeats 2000000 in
/-- The body at any point: the inputs' buffers hold their blocks; the reset test's closed form says which case the point
    is in; the invariant hands the body the scratch (at anything before the first point, at the sums so far afterwards)
    and takes it back at this point's sums. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl,
    show (dat0 V c).Φ t.succ = Phi0 V c (t.val + 1) t.isLt from rfl, Phi0_succ, after0_0, after0_1, after0_2]
  by_cases h0 : t.val % 16 = 0
  · rw [acc0_first V c t h0]
    by_cases hz : t.val = 0
    · rw [Phi0_castSucc V c t, Phi0_zero V c _ _ hz, PhiA0_eq]
      iintro ⟨⟨HS, Hr, Hg⟩, Ho, ⟨%d0, H0⟩, ⟨%d1, H1⟩, ⟨%d2, H2⟩⟩
      iapply (sound_kernel0_first c Set.univ (grid0.coords t) ((hcond0 t).mpr h0) _ _ _ _ _ _ _ _ (iblk0 V c 0 t) (iblk0 V c 1 t) _)
      isplitl [H0]; · iexact H0
      isplitl [H1]; · iexact H1
      isplitl [H2]; · iexists _; iexact H2
      isplitl [HS]; · iexact HS
      iintro ⟨H0, H1, H2, HS⟩
      isplitl [HS Hr Hg]
      · isplitl [HS]; · iexact HS
        isplitl [Hr]; · iexact Hr
        iexact Hg
      isplitl [Ho]; · iexact Ho
      isplitl [H0]; · iexact H0
      isplitl [H1]; · iexact H1
      iexact H2
    · rw [Phi0_castSucc V c t, Phi0_pos V c _ _ hz]
      iintro ⟨⟨HS, Hr, Hg⟩, Ho, ⟨%d0, H0⟩, ⟨%d1, H1⟩, ⟨%d2, H2⟩⟩
      iapply (sound_kernel0_first c Set.univ (grid0.coords t) ((hcond0 t).mpr h0) _ _ _ _ _ _ _ _ (iblk0 V c 0 t) (iblk0 V c 1 t) _)
      isplitl [H0]; · iexact H0
      isplitl [H1]; · iexact H1
      isplitl [H2]; · iexists _; iexact H2
      isplitl [HS]; · iexists _; iexact HS
      iintro ⟨H0, H1, H2, HS⟩
      isplitl [HS Hr Hg]
      · isplitl [HS]; · iexact HS
        isplitl [Hr]; · iexact Hr
        iexact Hg
      isplitl [Ho]; · iexact Ho
      isplitl [H0]; · iexact H0
      isplitl [H1]; · iexact H1
      iexact H2
  · rw [acc0_later V c t h0]
    have hz : t.val ≠ 0 := fun e => h0 (by rw [e])
    rw [Phi0_castSucc V c t, Phi0_pos V c _ _ hz]
    iintro ⟨⟨HS, Hr, Hg⟩, Ho, ⟨%d0, H0⟩, ⟨%d1, H1⟩, ⟨%d2, H2⟩⟩
    iapply (sound_kernel0_later c Set.univ (grid0.coords t) (fun h => h0 ((hcond0 t).mp h)) _ _ _ _ _ _ _ _ (iblk0 V c 0 t) (iblk0 V c 1 t) _ _)
    isplitl [H0]; · iexact H0
    isplitl [H1]; · iexact H1
    isplitl [H2]; · iexists _; iexact H2
    isplitl [HS]; · iexact HS
    iintro ⟨H0, H1, H2, HS⟩
    isplitl [HS Hr Hg]
    · isplitl [HS]; · iexact HS
      isplitl [Hr]; · iexact Hr
      iexact Hg
    isplitl [Ho]; · iexact Ho
    isplitl [H0]; · iexact H0
    isplitl [H1]; · iexact H1
    iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = Phi0 V c 0 (Nat.zero_le _) from rfl, Phi0_zero V c 0 _ rfl]
  try exact Idealize.SL.BI.Entails.refl _

/-- After the last point the invariant gives the class's back: the scratch's contents are forgotten. -/
theorem hout0 (c : Dev nD) : (dat0 V c).Φ (Fin.last cfg0.N) ⊢ Pipeline.ΦA spec0 c := by
  rw [show (dat0 V c).Φ (Fin.last cfg0.N) = Phi0 V c (Fin.last cfg0.N).val (Nat.le_of_lt_succ (Fin.last cfg0.N).isLt) from rfl,
    Phi0_pos V c _ _ (by rw [Fin.val_last]; have : cfg0.N = 128 := N_0; omega), PhiA0_eq]
  iintro ⟨HS, Hr, Hg⟩
  isplitl [HS]; · iexists _; iexact HS
  isplitl [Hr]; · iexact Hr
  iexact Hg

end Region0

end Cert.KernelIdeal.Run

end
-- ==== Proof.Dat1.lean ====
/-
  The second pallas_call as a pipeline, at the buffer contents `V` it is entered from. The four inputs (grid
  centres, keypoints, the first call's per-joint sums, heatmaps) keep their blocks; the output window's buffer and
  the scratch both hold `acc1 n`, the batch's loss summed over the tiles up to point `n` (reset at every 16th
  point). The region invariant carries the scratch from point to point. Stated for any float instance.
-/
import proofs.«107451_j57226144252798_1_alg».proof.Proof.Body1
import proofs.«107451_j57226144252798_1_alg».proof.Proof.Dat0

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The reset test holds exactly at the first tile of each batch. -/
theorem hcond1 : ∀ t : Fin cfg1.N, cond0 (grid1.coords t) ↔ t.val % 16 = 0 :=
  (by decide +kernel : ∀ t : Fin grid1.N, cond0 (grid1.coords t) ↔ t.val % 16 = 0)

/-- The batch's running loss after the body at position `n`: reset at the first tile of a batch. -/
def acc1 (c : Dev nD) : (n : ℕ) → n < cfg1.N → Vec F S1x1x1 .f32
  | 0, hn => step1 (iblk1 V c 0 ⟨0, hn⟩) (iblk1 V c 1 ⟨0, hn⟩) (iblk1 V c 2 ⟨0, hn⟩) (iblk1 V c 3 ⟨0, hn⟩) k1_pay2
  | n + 1, hn =>
    if (n + 1) % 16 = 0 then step1 (iblk1 V c 0 ⟨n + 1, hn⟩) (iblk1 V c 1 ⟨n + 1, hn⟩) (iblk1 V c 2 ⟨n + 1, hn⟩) (iblk1 V c 3 ⟨n + 1, hn⟩) k1_pay2
    else step1 (iblk1 V c 0 ⟨n + 1, hn⟩) (iblk1 V c 1 ⟨n + 1, hn⟩) (iblk1 V c 2 ⟨n + 1, hn⟩) (iblk1 V c 3 ⟨n + 1, hn⟩) (acc1 c n (Nat.lt_of_succ_lt hn))

theorem acc1_first (c : Dev nD) (t : Fin cfg1.N) (h : t.val % 16 = 0) :
    acc1 V c t.val t.isLt = step1 (iblk1 V c 0 t) (iblk1 V c 1 t) (iblk1 V c 2 t) (iblk1 V c 3 t) k1_pay2 := by
  obtain ⟨n, hn⟩ := t
  cases n with
  | zero => rfl
  | succ n => exact if_pos h

theorem acc1_later (c : Dev nD) (t : Fin cfg1.N) (h : ¬t.val % 16 = 0) :
    acc1 V c t.val t.isLt = step1 (iblk1 V c 0 t) (iblk1 V c 1 t) (iblk1 V c 2 t) (iblk1 V c 3 t) (acc1 V c (t.val - 1) (Nat.lt_of_le_of_lt (Nat.sub_le _ _) t.isLt)) := by
  obtain ⟨n, hn⟩ := t
  cases n with
  | zero => exact absurd (Nat.zero_mod _) h
  | succ n => exact if_neg h

/-- The scratch the kernel carries between points. -/
abbrev scM1 : Memref sig .tc .vmem S1x1x1 .f32 := Memref.whole cc1_scratch0

/-- What of the scoped buffers the kernel never touches: every one but its staging buffers and its scratch. -/
abbrev rest1 (c : Dev nD) : sProp 𝕄 :=
  Pipeline.scopedRestBut (Ix := Unit) (Name := ℕ) (U := UR sig nD τ) (Lvl := ℕ) (Val := Elt F) spec1 c [cc1_scratch0]

/-- The class invariant with the scratch split off as a memref owned at some contents. -/
theorem PhiA1_eq (c : Dev nD) :
    (Pipeline.ΦA spec1 c : sProp 𝕄)
      = iprop((∃ d, owns (c : Thread nD τ) scM1 fullShare d) ∗ rest1 (F := F) c ∗ (∃ r, prngReg c r)) := by
  unfold Pipeline.ΦA
  rw [Pipeline.scopedRest_split_of_list spec1 c [cc1_scratch0] (by decide) (by decide)]
  simp only [bigSepL, scM1, owns_whole]
  exact sep_assoc_eq _ _ _

/-- The region invariant before position `n`. -/
def Phi1 (c : Dev nD) : (n : ℕ) → n ≤ cfg1.N → sProp 𝕄
  | 0, _ => Pipeline.ΦA spec1 c
  | n + 1, hn => iprop(owns (c : Thread nD τ) scM1 fullShare (acc1 V c n hn) ∗ rest1 (F := F) c ∗ (∃ r, prngReg c r))

theorem Phi1_zero (c : Dev nD) (n : ℕ) (h : n ≤ cfg1.N) (hz : n = 0) : Phi1 V c n h = Pipeline.ΦA spec1 c := by
  subst hz; rfl
theorem Phi1_succ (c : Dev nD) (n : ℕ) (hn : n < cfg1.N) :
    Phi1 V c (n + 1) hn = iprop(owns (c : Thread nD τ) scM1 fullShare (acc1 V c n hn) ∗ rest1 (F := F) c ∗ (∃ r, prngReg c r)) := rfl
theorem Phi1_pos (c : Dev nD) (n : ℕ) (h : n ≤ cfg1.N) (hz : n ≠ 0) :
    Phi1 V c n h = iprop(owns (c : Thread nD τ) scM1 fullShare (acc1 V c (n - 1) (by omega)) ∗ rest1 (F := F) c ∗ (∃ r, prngReg c r)) := by
  cases n with
  | zero => exact absurd rfl hz
  | succ n => rfl

/-- The proof data of pipeline 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => acc1 V c t.val t.isLt
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem Phi1_castSucc (c : Dev nD) (t : Fin cfg1.N) :
    (dat1 V c).Φ t.castSucc = Phi1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = acc1 V c t.val t.isLt := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

set_option maxHeartbeats 2000000 in
/-- The body at any point, by the two cases of the reset test. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl,
    show (dat1 V c).Φ t.succ = Phi1 V c (t.val + 1) t.isLt from rfl, Phi1_succ, after1_0, after1_1, after1_2, after1_3, after1_4]
  by_cases h0 : t.val % 16 = 0
  · rw [acc1_first V c t h0]
    by_cases hz : t.val = 0
    · rw [Phi1_castSucc V c t, Phi1_zero V c _ _ hz, PhiA1_eq]
      iintro ⟨⟨HS, Hr, Hg⟩, Ho, ⟨%d0, H0⟩, ⟨%d1, H1⟩, ⟨%d2, H2⟩, ⟨%d3, H3⟩, ⟨%d4, H4⟩⟩
      iapply (sound_kernel1_first c Set.univ (grid1.coords t) ((hcond1 t).mpr h0) _ _ _ _ _ _ _ _ _ _ _ _ (iblk1 V c 0 t) (iblk1 V c 1 t) (iblk1 V c 2 t) (iblk1 V c 3 t) _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      isplitl [H3]; · iexact H3
      iexact H4
    · rw [Phi1_castSucc V c t, Phi1_pos V c _ _ hz]
      iintro ⟨⟨HS, Hr, Hg⟩, Ho, ⟨%d0, H0⟩, ⟨%d1, H1⟩, ⟨%d2, H2⟩, ⟨%d3, H3⟩, ⟨%d4, H4⟩⟩
      iapply (sound_kernel1_first c Set.univ (grid1.coords t) ((hcond1 t).mpr h0) _ _ _ _ _ _ _ _ _ _ _ _ (iblk1 V c 0 t) (iblk1 V c 1 t) (iblk1 V c 2 t) (iblk1 V c 3 t) _)
      isplitl [H0]; · iexact H0
      isplitl [H1]; · iexact H1
      isplitl [H2]; · iexact H2
      isplitl [H3]; · iexact H3
      isplitl [H4]; · iexists _; iexact H4
      isplitl [HS]; · iexists _; iexact HS
      iintro ⟨H0, H1, H2, H3, H4, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      isplitl [H3]; · iexact H3
      iexact H4
  · rw [acc1_later V c t h0]
    have hz : t.val ≠ 0 := fun e => h0 (by rw [e])
    rw [Phi1_castSucc V c t, Phi1_pos V c _ _ hz]
    iintro ⟨⟨HS, Hr, Hg⟩, Ho, ⟨%d0, H0⟩, ⟨%d1, H1⟩, ⟨%d2, H2⟩, ⟨%d3, H3⟩, ⟨%d4, H4⟩⟩
    iapply (sound_kernel1_later c Set.univ (grid1.coords t) (fun h => h0 ((hcond1 t).mp h)) _ _ _ _ _ _ _ _ _ _ _ _ (iblk1 V c 0 t) (iblk1 V c 1 t) (iblk1 V c 2 t) (iblk1 V c 3 t) _ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS Hr Hg]
    · isplitl [HS]; · iexact HS
      isplitl [Hr]; · iexact Hr
      iexact Hg
    isplitl [Ho]; · iexact Ho
    isplitl [H0]; · iexact H0
    isplitl [H1]; · iexact H1
    isplitl [H2]; · iexact H2
    isplitl [H3]; · iexact H3
    iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = Phi1 V c 0 (Nat.zero_le _) from rfl, Phi1_zero V c 0 _ rfl]
  try exact Idealize.SL.BI.Entails.refl _

/-- After the last point the invariant gives the class's back: the scratch's contents are forgotten. -/
theorem hout1 (c : Dev nD) : (dat1 V c).Φ (Fin.last cfg1.N) ⊢ Pipeline.ΦA spec1 c := by
  rw [show (dat1 V c).Φ (Fin.last cfg1.N) = Phi1 V c (Fin.last cfg1.N).val (Nat.le_of_lt_succ (Fin.last cfg1.N).isLt) from rfl,
    Phi1_pos V c _ _ (by rw [Fin.val_last]; have : cfg1.N = 128 := N_1; omega), PhiA1_eq]
  iintro ⟨HS, Hr, Hg⟩
  isplitl [HS]; · iexists _; iexact HS
  isplitl [Hr]; · iexact Hr
  iexact Hg

end Region1

end Cert.KernelIdeal.Run

end
-- ==== Proof.Run.lean ====
/-
  The whole program run: @main is a stretch of host operations (a transpose and a reshape), the two pallas_calls
  and a last stretch (the sum of the per-batch partial losses, the division by 8, the product with 1). The buffer
  contents at each boundary are a fold from the launch memory: `W1` after the first stretch, `W2` with the first
  call's arrays at what its write-backs leave, `W3` likewise for the second call, `W4` after the last stretch.
  Every weakly fair execution terminates with every unscoped buffer at `W4`. Stated for any float instance.
-/
import proofs.«107451_j57226144252798_1_alg».proof.Proof.Dat1
import proofs.«107451_j57226144252798_1_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m (c, b)
/-- After the first host stretch (the first call's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the first call's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- At the second call's exit. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)
/-- After the last host stretch: what the program returns with. -/
abbrev W4 : Dev nD → Valuation τ sig (Elt F) := fun c => StableHlo.after hostOps2 (W3 m c)

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- Region 0 over the thread state: entered from every unscoped buffer at `W1`, left at `W2`. Its arrays are split
    out of the unscoped buffers and put back at what the write-backs leave; the generator register and the scoped
    rest go into the kernel's invariant and come back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (dat0 (V1 m) c).Φ 0 from rfl]
    have h : (iprop(Pipeline.scopedRest (Ix := Unit) (Name := ℕ) (U := UR sig nD τ) (Lvl := ℕ) (Val := Elt F) spec0 c ∗ ∃ r, prngReg c r) : sProp 𝕄)
        ⊢ (dat0 (V1 m) c).Φ 0 := by
      have h' := hin0 (V1 m) c; unfold Pipeline.ΦA at h'; exact h'
    iintro ⟨Hp, -, Hr⟩
    iapply h
    isplitl [Hr]; · iexact Hr
    iexact Hp
  hout c := by
    rw [Pipeline.ownSems0_none, show (pdats m 0 c).Φ (Fin.last _) = (dat0 (V1 m) c).Φ (Fin.last cfg0.N) from rfl]
    have h : (dat0 (V1 m) c).Φ (Fin.last cfg0.N)
        ⊢ (iprop(Pipeline.scopedRest (Ix := Unit) (Name := ℕ) (U := UR sig nD τ) (Lvl := ℕ) (Val := Elt F) spec0 c ∗ ∃ r, prngReg c r) : sProp 𝕄) := by
      have h' := hout0 (V1 m) c; unfold Pipeline.ΦA at h'; exact h'
    iintro H
    ihave H' := h $$ H
    icases H' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W2`, left at `W3`. Its arrays are split
    out of the unscoped buffers and put back at what the write-backs leave; the generator register and the scoped
    rest go into the kernel's invariant and come back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (V2 m) c).Φ 0 from rfl]
    have h : (iprop(Pipeline.scopedRest (Ix := Unit) (Name := ℕ) (U := UR sig nD τ) (Lvl := ℕ) (Val := Elt F) spec1 c ∗ ∃ r, prngReg c r) : sProp 𝕄)
        ⊢ (dat1 (V2 m) c).Φ 0 := by
      have h' := hin1 (V2 m) c; unfold Pipeline.ΦA at h'; exact h'
    iintro ⟨Hp, -, Hr⟩
    iapply h
    isplitl [Hr]; · iexact Hr
    iexact Hp
  hout c := by
    rw [Pipeline.ownSems0_none, show (pdats m 1 c).Φ (Fin.last _) = (dat1 (V2 m) c).Φ (Fin.last cfg1.N) from rfl]
    have h : (dat1 (V2 m) c).Φ (Fin.last cfg1.N)
        ⊢ (iprop(Pipeline.scopedRest (Ix := Unit) (Name := ℕ) (U := UR sig nD τ) (Lvl := ℕ) (Val := Elt F) spec1 c ∗ ∃ r, prngReg c r) : sProp 𝕄) := by
      have h' := hout1 (V2 m) c; unfold Pipeline.ΦA at h'; exact h'
    iintro H
    ihave H' := h $$ H
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .region (reg1 m),
    .host (hseg hostOps2 hostOps2_sub hostOps2_fresh (W3 m)) ]
theorem main_run (c : Dev nD) : main (F := F) c = Pipeline.Seg.run (segs m) := (main_chain c).trans (by chain_rfl)

set_option backward.isDefEq.respectTransparency.types false in
/-- THE RUN: from any memory with zero counters every weakly fair execution of @main terminates, nothing faulting, and
    every unscoped buffer of every core ends at `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => by
      show (iprop(StableHlo.held (c : Thread nD τ) (Pipeline.ucRefs τ sig) (W4 m c) ∗ R c) : sProp 𝕄)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

end Cert.KernelIdeal.Run

end
-- ==== Proof.Args.lean ====
/-
  No item of @main writes an argument array: the host stretches write only their own results, the two calls
  write only their output arrays (the keypoints are an input window of both and come back as entered), so each
  argument's buffer is read back through the fold of boundary contents to the launch memory. Stated for any
  float instance.
-/
import proofs.«107451_j57226144252798_1_alg».proof.Proof.Run

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem W4_main_arg0 (c : Dev nD) : W4 m c (Proc.devRef .tc main_arg0) = m ((c : Thread nD τ).loc main_arg0) :=
  (StableHlo.after_of_writes_sub hostOps2 (W3 m c) Gen.hostOps2_writes (by decide : main_arg0 ∉ Gen.hostOps2_W)).trans <|
    (W3_of_ne m c main_arg0 (by decide)).trans <|
    (W2_of_ne m c main_arg0 (by decide)).trans <|
    (StableHlo.after_of_writes_sub hostOps0 (W0 m c) Gen.hostOps0_writes (by decide : main_arg0 ∉ Gen.hostOps0_W)).trans rfl
theorem W4_main_arg1 (c : Dev nD) : W4 m c (Proc.devRef .tc main_arg1) = m ((c : Thread nD τ).loc main_arg1) :=
  (StableHlo.after_of_writes_sub hostOps2 (W3 m c) Gen.hostOps2_writes (by decide : main_arg1 ∉ Gen.hostOps2_W)).trans <|
    ((W3_arr m c 1).trans (((dat1 (V2 m) c).arrAt_in 1 rfl _).trans (A_eq1 (V2 m) c 1))).trans <|
    ((W2_arr m c 1).trans (((dat0 (V1 m) c).arrAt_in 1 rfl _).trans (A_eq0 (V1 m) c 1))).trans <|
    (StableHlo.after_of_writes_sub hostOps0 (W0 m c) Gen.hostOps0_writes (by decide : main_arg1 ∉ Gen.hostOps0_W)).trans rfl
theorem W4_main_arg2 (c : Dev nD) : W4 m c (Proc.devRef .tc main_arg2) = m ((c : Thread nD τ).loc main_arg2) :=
  (StableHlo.after_of_writes_sub hostOps2 (W3 m c) Gen.hostOps2_writes (by decide : main_arg2 ∉ Gen.hostOps2_W)).trans <|
    (W3_of_ne m c main_arg2 (by decide)).trans <|
    (W2_of_ne m c main_arg2 (by decide)).trans <|
    (StableHlo.after_of_writes_sub hostOps0 (W0 m c) Gen.hostOps0_writes (by decide : main_arg2 ∉ Gen.hostOps0_W)).trans rfl
theorem W4_main_arg3 (c : Dev nD) : W4 m c (Proc.devRef .tc main_arg3) = m ((c : Thread nD τ).loc main_arg3) :=
  (StableHlo.after_of_writes_sub hostOps2 (W3 m c) Gen.hostOps2_writes (by decide : main_arg3 ∉ Gen.hostOps2_W)).trans <|
    (W3_of_ne m c main_arg3 (by decide)).trans <|
    (W2_of_ne m c main_arg3 (by decide)).trans <|
    (StableHlo.after_of_writes_sub hostOps0 (W0 m c) Gen.hostOps0_writes (by decide : main_arg3 ∉ Gen.hostOps0_W)).trans rfl

end Cert.KernelIdeal.Run

end
-- ==== Proof.Spec.lean ====
/-
  The mathematics of the Gaussian-heatmap regression loss, stated once over the extended reals, index by index.
  For a batch b, a joint j and a grid centre n, with g = grid_centers[b, n, :] and p = kpts_pred[b, :, j]:
  d2 = |g|^2 + |p|^2 - 2 g.p, y = exp(-d2) / 0.5, the target is softmax_n(y) and the loss is the sum over
  everything of (target - heatmap)^2, divided by 8.
  `eK` is exp(y) as the kernel computes it (2 * exp(0 - d2), the cross term three products added in order);
  `yR` is y as the reference computes it (a division by 0.5, the cross term a sum over the coordinate).
  `lossK` is the kernel's result: exp(y) normalised by its plain sum over n, no maximum subtracted.
  `lossR` is the reference's: exp(y - m) normalised by its sum, m the maximum of y over n.
  The float literals are kept as the words both programs print.
-/
import Idealize.ShloMosaic.PureOps.Ideal
import Idealize.ShloMosaic.Lib.ValueIdx

noncomputable section

open scoped BigOperators

namespace Cert.Loss

open Idealize.ShloMosaic Idealize.ShloMosaic.ValueIdx

/-- The literals of the two programs: 0, 2, 1/2, 8, 1 and minus infinity. -/
abbrev k0 : EReal := Ideal.ofBits .f32 0x00000000#32
abbrev k2 : EReal := Ideal.ofBits .f32 0x40000000#32
abbrev kh : EReal := Ideal.ofBits .f32 0x3F000000#32
abbrev k8 : EReal := Ideal.ofBits .f32 0x41000000#32
abbrev k1 : EReal := Ideal.ofBits .f32 0x3F800000#32
abbrev kninf : EReal := Ideal.ofBits .f32 0xFF800000#32

/-- The input arrays: predicted keypoints [8, 3, 23], heatmaps [8, 23, 64, 64, 64], grid centres [8, 262144, 3]. -/
abbrev PArr : Type := (⟨3, ![8, 3, 23]⟩ : Shape).Idx → EReal
abbrev HArr : Type := (⟨5, ![8, 23, 64, 64, 64]⟩ : Shape).Idx → EReal
abbrev GArr : Type := (⟨3, ![8, 262144, 3]⟩ : Shape).Idx → EReal

/-- A joint's coordinates and a grid centre's. -/
abbrev pOf (P : PArr) (b : Fin 8) (j : Fin 23) : Fin 3 → EReal := fun c => P (ix3 b c j)
abbrev gOf (G : GArr) (b : Fin 8) (n : Fin 262144) : Fin 3 → EReal := fun c => G (ix3 b n c)

/-- The flat position of a voxel (h, w, d) of the 64^3 grid. -/
def flat (h w d : Fin 64) : Fin 262144 := ⟨(h.val * 64 + w.val) * 64 + d.val, by have := h.isLt; have := w.isLt; have := d.isLt; omega⟩

/-- The squared distance as the kernel adds it up. -/
def d2K (g p : Fin 3 → EReal) : EReal :=
  ((∑ c, g c * g c) + (∑ c, p c * p c)) - k2 * ((p 0 * g 0 + p 1 * g 1) + p 2 * g 2)

/-- exp(y) in the kernel. -/
def eK (g p : Fin 3 → EReal) : EReal := Ideal.exp (k2 * Ideal.exp (k0 - d2K g p))

/-- The squared distance as the reference adds it up. -/
def d2R (g p : Fin 3 → EReal) : EReal :=
  ((k0 + ∑ c, g c * g c) + (k0 + ∑ c, p c * p c)) - k2 * (∑ c, p c * g c)

/-- y in the reference. -/
def yR (g p : Fin 3 → EReal) : EReal := Ideal.div (Ideal.exp (-(d2R g p))) kh

/-- The kernel's normaliser: the plain sum of exp(y) over the grid. -/
def SK (P : PArr) (G : GArr) (b : Fin 8) (j : Fin 23) : EReal := ∑ n : Fin 262144, eK (gOf G b n) (pOf P b j)

/-- The kernel's squared error at (b, j, n), the heatmap read at the flat position. -/
def sqK (P : PArr) (H : (⟨3, ![8, 23, 262144]⟩ : Shape).Idx → EReal) (G : GArr) (b : Fin 8) (j : Fin 23) (n : Fin 262144) : EReal :=
  (Ideal.div (eK (gOf G b n) (pOf P b j)) (SK P G b j) - H (ix3 b j n)) * (Ideal.div (eK (gOf G b n) (pOf P b j)) (SK P G b j) - H (ix3 b j n))

/-- The kernel's per-batch partial loss. -/
def partK (P : PArr) (H : (⟨3, ![8, 23, 262144]⟩ : Shape).Idx → EReal) (G : GArr) (b : Fin 8) : EReal :=
  ∑ j : Fin 23, ∑ n : Fin 262144, sqK P H G b j n

/-- The kernel's result from the flattened heatmaps. -/
def lossK (P : PArr) (H : (⟨3, ![8, 23, 262144]⟩ : Shape).Idx → EReal) (G : GArr) : EReal :=
  k1 * Ideal.div (k0 + ∑ b : Fin 8, partK P H G b) k8

/-- The reference's maximum of y over the grid (taken from minus infinity, then once more against it). -/
def mR (P : PArr) (G : GArr) (b : Fin 8) (j : Fin 23) : EReal :=
  max kninf ((Finset.univ : Finset (Fin 262144)).fold max kninf fun n => yR (gOf G b n) (pOf P b j))

/-- The reference's shifted exponential and its sum. -/
def uR (P : PArr) (G : GArr) (b : Fin 8) (j : Fin 23) (n : Fin 262144) : EReal := Ideal.exp (yR (gOf G b n) (pOf P b j) - mR P G b j)
def ZR (P : PArr) (G : GArr) (b : Fin 8) (j : Fin 23) : EReal := k0 + ∑ n : Fin 262144, uR P G b j n

/-- The reference's squared error at a voxel. -/
def sqR (P : PArr) (H : HArr) (G : GArr) (i : (⟨5, ![8, 23, 64, 64, 64]⟩ : Shape).Idx) : EReal :=
  (Ideal.div (uR P G (i 0) (i 1) (flat (i 2) (i 3) (i 4))) (ZR P G (i 0) (i 1)) - H i)
    * (Ideal.div (uR P G (i 0) (i 1) (flat (i 2) (i 3) (i 4))) (ZR P G (i 0) (i 1)) - H i)

/-- The reference's result. -/
def lossR (P : PArr) (H : HArr) (G : GArr) : EReal :=
  k1 * Ideal.div (k0 + ∑ i : (⟨5, ![8, 23, 64, 64, 64]⟩ : Shape).Idx, sqR P H G i) k8

/-- The heatmaps flattened as the kernel's reshape does it. -/
def flatH (H : HArr) : (⟨3, ![8, 23, 262144]⟩ : Shape).Idx → EReal :=
  fun i => H (ix5 (i 0) (i 1) ⟨(i 2).val / 4096, by have h : (i 2).val < 262144 := (i 2).isLt; omega⟩ ⟨(i 2).val / 64 % 64, Nat.mod_lt _ (by decide)⟩ ⟨(i 2).val % 64, Nat.mod_lt _ (by decide)⟩)

end Cert.Loss

end
-- ==== Proof.PayIdx.lean ====
/-
  The two kernels' arithmetic read at one index, over the extended reals. A tile of the first kernel adds to each
  joint's running sum the sum over the tile's 16384 grid centres of exp(2 * exp(-d2)); a tile of the second adds to
  the batch's running loss the sum over the 23 joints and the tile's grid centres of (e / S - heat)^2.
-/
import proofs.«107451_j57226144252798_1_alg».proof.Proof.Body1
import proofs.«107451_j57226144252798_1_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

open scoped BigOperators

namespace Cert.KernelIdeal.Run

open Cert.KernelIdeal Cert.KernelIdeal.Gen
open Idealize.ShloMosaic Idealize.ShloMosaic.ValueIdx
open Cert.Loss

/-! ## Layout operations and lane sums of rank-3 blocks with a leading unit axis, read at an index -/

section Aux
variable {α : Type}

/-- A sum over the last axis of a [1, a, b] vector, read at (u, j): the sum over that axis's coordinates. -/
theorem sum_axis2_apply {a b : ℕ} (src : FVec Ideal ⟨3, ![1, a, b]⟩ .f32) (acc : BitVec 32)
    (h : (⟨3, ![1, a, b]⟩ : Shape).Reduces [2] ⟨2, ![1, a]⟩) (hφ : FKind.Formats .f32) (hacc : acc = FKind.add.neutral .f32 hφ)
    (u : Fin 1) (j : Fin a) :
    multiReduction (F := Ideal) .add [2] ⟨2, ![1, a]⟩ src acc h hφ hacc (ix2 u j) = ∑ n : Fin b, src (ix3 u j n) := by
  refine (Ideal.multiReduction_add_single src acc h hφ hacc (ix2 u j)).trans ?_
  refine Finset.sum_congr rfl fun n _ => congrArg src ?_
  funext c
  match c with
  | ⟨0, _⟩ => exact Fin.ext rfl
  | ⟨1, _⟩ => exact Fin.ext rfl
  | ⟨2, _⟩ => exact Fin.ext rfl

/-- A sum over the middle axis of a [1, a, b] vector, read at (u, n): the sum over that axis's coordinates. -/
theorem sum_axis1_apply {a b : ℕ} (src : FVec Ideal ⟨3, ![1, a, b]⟩ .f32) (acc : BitVec 32)
    (h : (⟨3, ![1, a, b]⟩ : Shape).Reduces [1] ⟨2, ![1, b]⟩) (hφ : FKind.Formats .f32) (hacc : acc = FKind.add.neutral .f32 hφ)
    (u : Fin 1) (n : Fin b) :
    multiReduction (F := Ideal) .add [1] ⟨2, ![1, b]⟩ src acc h hφ hacc (ix2 u n) = ∑ c : Fin a, src (ix3 u c n) := by
  refine (Ideal.multiReduction_add_single src acc h hφ hacc (ix2 u n)).trans ?_
  refine Finset.sum_congr rfl fun k _ => congrArg src ?_
  funext c
  match c with
  | ⟨0, _⟩ => exact Fin.ext rfl
  | ⟨1, _⟩ => exact Fin.ext rfl
  | ⟨2, _⟩ => exact Fin.ext rfl

/-- A [1, a, b] array cut to width one along its last axis at `o` reads, at (u, j, z), the source at (u, j, o). -/
theorem slice3_axis2_one_apply {a b : ℕ} (o : ℕ) (X : (⟨3, ![1, a, b]⟩ : Shape).Idx → α)
    (h : (⟨3, ![1, a, b]⟩ : Shape).Slices ![0, 0, o] ⟨3, ![1, a, 1]⟩) (u : Fin 1) (j : Fin a) (z : Fin 1) (k : Fin b)
    (hk : k.val = o) : extractStridedSlice ⟨3, ![1, a, 1]⟩ ![0, 0, o] X h (ix3 u j z) = X (ix3 u j k) :=
  extractStridedSlice_apply _ _ _ _ _ (fun ax => by
    match ax with
    | ⟨0, _⟩ => exact (Nat.zero_add _).symm
    | ⟨1, _⟩ => exact (Nat.zero_add _).symm
    | ⟨2, _⟩ =>
      show k.val = o + z.val
      have := z.isLt
      omega)

/-- A [1, a, 1] column broadcast along the last axis reads, at (u, j, n), the column at (0, j, 0). -/
theorem broadcastTo_col_apply {a b : ℕ} (v : (⟨3, ![1, a, 1]⟩ : Shape).Idx → α)
    (h : (⟨3, ![1, a, 1]⟩ : Shape).Broadcasts ⟨3, ![1, a, b]⟩) (u : Fin 1) (j : Fin a) (n : Fin b) :
    broadcastTo ⟨3, ![1, a, b]⟩ v h (ix3 u j n) = v (ix3 (0 : Fin 1) j (0 : Fin 1)) := by
  refine broadcastTo_apply v h (ix3 u j n) (ix3 (0 : Fin 1) j (0 : Fin 1)) fun ax => ?_
  match ax with
  | ⟨0, _⟩ => rfl
  | ⟨1, _⟩ =>
    show j.val = if a = 1 then 0 else j.val
    split
    · have := j.isLt; omega
    · rfl
  | ⟨2, _⟩ => rfl

/-- A [1, 1, b] row broadcast along the middle axis reads, at (u, j, n), the row at (0, 0, n). -/
theorem broadcastTo_row_apply {a b : ℕ} (v : (⟨3, ![1, 1, b]⟩ : Shape).Idx → α)
    (h : (⟨3, ![1, 1, b]⟩ : Shape).Broadcasts ⟨3, ![1, a, b]⟩) (u : Fin 1) (j : Fin a) (n : Fin b) :
    broadcastTo ⟨3, ![1, a, b]⟩ v h (ix3 u j n) = v (ix3 (0 : Fin 1) (0 : Fin 1) n) := by
  refine broadcastTo_apply v h (ix3 u j n) (ix3 (0 : Fin 1) (0 : Fin 1) n) fun ax => ?_
  match ax with
  | ⟨0, _⟩ => rfl
  | ⟨1, _⟩ => rfl
  | ⟨2, _⟩ =>
    show n.val = if b = 1 then 0 else n.val
    split
    · have := n.isLt; omega
    · rfl

/-- A [1, a] array cast to [1, a, 1] reads, at (u, j, z), the operand at (u, j). -/
theorem shapeCast_1a_1a1_apply {a : ℕ} (x : (⟨2, ![1, a]⟩ : Shape).Idx → α)
    (h : (⟨2, ![1, a]⟩ : Shape).ShapeCasts ⟨3, ![1, a, 1]⟩) (u : Fin 1) (j : Fin a) (z : Fin 1) :
    shapeCast ⟨3, ![1, a, 1]⟩ x h (ix3 u j z) = x (ix2 u j) :=
  shapeCast_apply x h _ _ (by
    have hz : z.val = 0 := by omega
    rw [Shape.rowMajor_val_three, Shape.rowMajor_val_two]
    show u.val * a + j.val = (u.val * a + j.val) * 1 + z.val
    rw [hz, Nat.mul_one, Nat.add_zero])

end Aux

/-! ## The pieces of the squared distance -/

/-- The grid centre's squared norm, broadcast over the joints: the sum over the three coordinates of the squares. -/
theorem gsq_apply (x2 : Vec Ideal S1x3x16384 .f32) (hφ : FKind.Formats .f32)
    (hacc : (0x00000000#32 : BitVec 32) = FKind.add.neutral .f32 hφ) (j : Fin 23) (n : Fin 16384) :
    broadcastTo S1x23x16384
        (shapeCast S1x1x16384
          (multiReduction (F := Ideal) .add [1] S1x16384 (mulf x2 x2) 0x00000000#32 reduces_S1x3x16384_S1x16384 hφ hacc)
          shapeCasts_S1x16384_S1x1x16384)
        broadcasts_S1x1x16384_S1x23x16384 (ix3 0 j n)
      = ∑ c : Fin 3, x2 (ix3 0 c n) * x2 (ix3 0 c n) := by
  refine (broadcastTo_row_apply _ _ 0 j n).trans ?_
  refine (shapeCast_ab_1ab_apply _ _ 0 0 n).trans ?_
  exact sum_axis1_apply (mulf x2 x2) _ _ hφ hacc 0 n

/-- The joint's squared norm, broadcast over the grid centres: the sum over the three coordinates of the squares. -/
theorem psq_apply (x3 : Vec Ideal S1x3x23 .f32) (hφ : FKind.Formats .f32)
    (hacc : (0x00000000#32 : BitVec 32) = FKind.add.neutral .f32 hφ) (j : Fin 23) (n : Fin 16384) :
    broadcastTo S1x23x16384
        (shapeCast S1x23x1
          (multiReduction (F := Ideal) .add [2] S1x23
            (mulf (transpose S1x23x3 [0, 2, 1] x3 transposes_S1x3x23_p0_2_1_S1x23x3)
              (transpose S1x23x3 [0, 2, 1] x3 transposes_S1x3x23_p0_2_1_S1x23x3))
            0x00000000#32 reduces_S1x23x3_S1x23 hφ hacc)
          shapeCasts_S1x23_S1x23x1)
        broadcasts_S1x23x1_S1x23x16384 (ix3 0 j n)
      = ∑ c : Fin 3, x3 (ix3 0 c j) * x3 (ix3 0 c j) := by
  refine (broadcastTo_col_apply _ _ 0 j n).trans ?_
  refine (shapeCast_1a_1a1_apply _ _ 0 j 0).trans ?_
  refine (sum_axis2_apply _ _ _ hφ hacc 0 j).trans ?_
  refine Finset.sum_congr rfl fun c _ => ?_
  show transpose S1x23x3 [0, 2, 1] x3 transposes_S1x3x23_p0_2_1_S1x23x3 (ix3 0 j c)
      * transpose S1x23x3 [0, 2, 1] x3 transposes_S1x3x23_p0_2_1_S1x23x3 (ix3 0 j c) = _
  rw [transpose_ix3_021_apply]

/-- Coordinate `c` of the joint, broadcast over the grid centres. -/
theorem pco_apply (x3 : Vec Ideal S1x3x23 .f32) (o : ℕ) (h : S1x23x3.Slices ![0, 0, o] S1x23x1) (c : Fin 3) (hc : c.val = o)
    (j : Fin 23) (n : Fin 16384) :
    broadcastTo S1x23x16384
        (extractStridedSlice S1x23x1 ![0, 0, o] (transpose S1x23x3 [0, 2, 1] x3 transposes_S1x3x23_p0_2_1_S1x23x3) h)
        broadcasts_S1x23x1_S1x23x16384 (ix3 0 j n)
      = x3 (ix3 0 c j) := by
  refine (broadcastTo_col_apply _ _ 0 j n).trans ?_
  refine (slice3_axis2_one_apply o _ h 0 j 0 c hc).trans ?_
  exact transpose_ix3_021_apply x3 _ 0 j c

/-- Coordinate `c` of the grid centre, broadcast over the joints. -/
theorem gco_apply (x2 : Vec Ideal S1x3x16384 .f32) (o : ℕ) (h : S1x3x16384.Slices ![0, o, 0] S1x1x16384) (c : Fin 3) (hc : c.val = o)
    (j : Fin 23) (n : Fin 16384) :
    broadcastTo S1x23x16384 (extractStridedSlice S1x1x16384 ![0, o, 0] x2 h) broadcasts_S1x1x16384_S1x23x16384 (ix3 0 j n)
      = x2 (ix3 0 c n) := by
  refine (broadcastTo_row_apply _ _ 0 j n).trans ?_
  exact slice3_axis1_apply o x2 h 0 0 n c (by rw [hc]; rfl)

/-- The zero the scratch of the first kernel is reset to. -/
theorem k0_pay2_apply (i : S1x23x1.Idx) : (k0_pay2 (F := Ideal)) i = k0 := by
  unfold k0_pay2
  simp only [shapeCast_self]
  rfl

/-- The zero the scratch of the second kernel is reset to. -/
theorem k1_pay2_apply (i : S1x1x1.Idx) : (k1_pay2 (F := Ideal)) i = k0 := by
  unfold k1_pay2
  simp only [shapeCast_self]
  rfl

/-- The exponential of a vector reads through at an index. -/
theorem exp_apply {s : Shape} {φ : FTy} (a : FVec Ideal s φ) (i : s.Idx) : exp a i = Ideal.exp (a i) := rfl

/-- exp(y) for joint `j` and the tile's grid centre `n`, from the tile's blocks. -/
theorem k1_pay3_apply (x2 : Vec Ideal S1x3x16384 .f32) (x3 : Vec Ideal S1x3x23 .f32) (j : Fin 23) (n : Fin 16384) :
    k1_pay3 x2 x3 (ix3 0 j n) = eK (fun c => x2 (ix3 0 c n)) (fun c => x3 (ix3 0 c j)) := by
  unfold k1_pay3
  simp only [shapeCast_self]
  simp only [exp_apply, mulf_apply, subf_apply, addf_apply, broadcast_apply, Ideal.ofBits_def]
  unfold eK d2K
  refine congrArg Ideal.exp (congrArg (k2 * ·) (congrArg Ideal.exp (congrArg (k0 - ·) ?_)))
  refine congrArg₂ (· - ·) (congrArg₂ (· + ·) ?_ ?_) (congrArg (k2 * ·) (congrArg₂ (· + ·) (congrArg₂ (· + ·)
    (congrArg₂ (· * ·) ?_ ?_) (congrArg₂ (· * ·) ?_ ?_)) (congrArg₂ (· * ·) ?_ ?_)))
  · exact gsq_apply x2 _ _ j n
  · exact psq_apply x3 _ _ j n
  · exact pco_apply x3 0 _ 0 rfl j n
  · exact gco_apply x2 0 _ 0 rfl j n
  · exact pco_apply x3 1 _ 1 rfl j n
  · exact gco_apply x2 1 _ 1 rfl j n
  · exact pco_apply x3 2 _ 2 rfl j n
  · exact gco_apply x2 2 _ 2 rfl j n

/-- The first kernel's lane sum is the sum over the tile's grid centres of the second kernel's exp(y) block. -/
theorem k0_pay3_eq (x2 : Vec Ideal S1x3x16384 .f32) (x3 : Vec Ideal S1x3x23 .f32) :
    k0_pay3 x2 x3
      = multiReduction (F := Ideal) .add [2] S1x23 (k1_pay3 x2 x3) 0x00000000#32 reduces_S1x23x16384_S1x23 (.inl rfl) rfl := rfl

/-- The tile's sum of exp(y) for joint `j`. -/
theorem k0_pay3_apply (x2 : Vec Ideal S1x3x16384 .f32) (x3 : Vec Ideal S1x3x23 .f32) (j : Fin 23) :
    k0_pay3 x2 x3 (ix2 0 j) = ∑ n : Fin 16384, eK (fun c => x2 (ix3 0 c n)) (fun c => x3 (ix3 0 c j)) := by
  refine (congrFun (k0_pay3_eq x2 x3) (ix2 0 j)).trans ?_
  refine (sum_axis2_apply (k1_pay3 x2 x3) _ _ _ _ 0 j).trans ?_
  exact Finset.sum_congr rfl fun n _ => k1_pay3_apply x2 x3 j n

/-- One point of the first kernel: joint `j`'s running sum grows by the tile's sum of exp(y). -/
theorem step0_apply (x2 : Vec Ideal S1x3x16384 .f32) (x3 : Vec Ideal S1x3x23 .f32) (s : Vec Ideal S1x23x1 .f32) (j : Fin 23) :
    step0 x2 x3 s (ix3 0 j 0) = s (ix3 0 j 0) + ∑ n : Fin 16384, eK (fun c => x2 (ix3 0 c n)) (fun c => x3 (ix3 0 c j)) := by
  unfold step0 k0_pay1
  simp only [shapeCast_self]
  rw [addf_apply]
  refine congrArg (s (ix3 0 j 0) + ·) ?_
  refine (shapeCast_1a_1a1_apply _ _ 0 j 0).trans ?_
  exact k0_pay3_apply x2 x3 j

/-- One point of the second kernel: the batch's running loss grows by the tile's sum of squared errors. -/
theorem step1_apply (x2 : Vec Ideal S1x3x16384 .f32) (x3 : Vec Ideal S1x3x23 .f32) (x4 : Vec Ideal S1x23x1 .f32)
    (x5 : Vec Ideal S1x23x16384 .f32) (s : Vec Ideal S1x1x1 .f32) :
    step1 x2 x3 x4 x5 s (ix3 0 0 0) = s (ix3 0 0 0) + ∑ j : Fin 23, ∑ n : Fin 16384,
      (Ideal.div (eK (fun c => x2 (ix3 0 c n)) (fun c => x3 (ix3 0 c j))) (x4 (ix3 0 j 0)) - x5 (ix3 0 j n))
        * (Ideal.div (eK (fun c => x2 (ix3 0 c n)) (fun c => x3 (ix3 0 c j))) (x4 (ix3 0 j 0)) - x5 (ix3 0 j n)) := by
  unfold step1 k1_pay1
  simp only [shapeCast_self]
  rw [addf_apply]
  refine congrArg (s (ix3 0 0 0) + ·) ?_
  refine (shapeCast_ab_1ab_apply _ _ (0 : Fin 1) (0 : Fin 1) (0 : Fin 1)).trans ?_
  refine (sum_axis1_apply _ _ _ _ _ (0 : Fin 1) (0 : Fin 1)).trans ?_
  refine Finset.sum_congr rfl fun j _ => ?_
  refine (shapeCast_1a_1a1_apply _ _ (0 : Fin 1) j (0 : Fin 1)).trans ?_
  refine (sum_axis2_apply _ _ _ _ _ (0 : Fin 1) j).trans ?_
  refine Finset.sum_congr rfl fun n _ => ?_
  simp only [mulf_apply, subf_apply, divf_apply]
  rw [k1_pay3_apply, broadcastTo_col_apply]

end Cert.KernelIdeal.Run

end
-- ==== Proof.ValS.lean ====
/-
  What the first pallas_call leaves in its output array, over the extended reals: entry (b, j, 0) is the sum over
  all 262144 grid centres n of exp(y) for batch b, joint j and centre n. The grid point t = 16 b + k handles tile k
  of batch b (centres 16384 k … 16384 k + 16383); the running sums are reset at k = 0, grow by one tile's sum per
  point, and are written back after k = 15, so the 16 tiles' sums add up to the sum over the whole grid.
-/
import proofs.«107451_j57226144252798_1_alg».proof.Proof.Dat0
import proofs.«107451_j57226144252798_1_alg».proof.Proof.PayIdx
import Idealize.ShloMosaic.PureOps.Ideal.Laws
import Idealize.ShloMosaic.Lib.ValueIdx
import Idealize.ShloMosaic.Lib.Pipeline.Value
import Mathlib.Algebra.BigOperators.Fin
import Mathlib.Algebra.BigOperators.Group.Finset.Basic

set_option maxRecDepth 16384

noncomputable section

open scoped BigOperators

namespace Cert.KernelIdeal.Run

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.Loss

/-- The first call's result from the transposed grid centres [8, 3, 262144] and the keypoints [8, 3, 23]. -/
def SArr (gt : (⟨3, ![8, 3, 262144]⟩ : Shape).Idx → EReal) (p : (⟨3, ![8, 3, 23]⟩ : Shape).Idx → EReal) :
    (⟨3, ![8, 23, 1]⟩ : Shape).Idx → EReal :=
  fun i => ∑ n : Fin 262144, eK (fun k => gt (ix3 (i 0) k n)) (fun k => p (ix3 (i 0) k (i 1)))

/-! ## The block indices over the grid, and the blocks read at explicit coordinates -/

/-- Point t = 16 b + k: the grid centres' window is at block (b, 0, k), -/
theorem idx0_0 : ∀ t : Fin cfg0.N, win0_0.index t (0 : Fin 3) = t.val / 16 ∧ win0_0.index t (1 : Fin 3) = 0 ∧ win0_0.index t (2 : Fin 3) = t.val % 16 :=
  (by decide +kernel : ∀ t : Fin grid0.N, win0_0.index t (0 : Fin 3) = t.val / 16 ∧ win0_0.index t (1 : Fin 3) = 0 ∧ win0_0.index t (2 : Fin 3) = t.val % 16)
/-- the keypoints' window at block (b, 0, 0), -/
theorem idx0_1 : ∀ t : Fin cfg0.N, win0_1.index t (0 : Fin 3) = t.val / 16 ∧ win0_1.index t (1 : Fin 3) = 0 ∧ win0_1.index t (2 : Fin 3) = 0 :=
  (by decide +kernel : ∀ t : Fin grid0.N, win0_1.index t (0 : Fin 3) = t.val / 16 ∧ win0_1.index t (1 : Fin 3) = 0 ∧ win0_1.index t (2 : Fin 3) = 0)
/-- and the output's window at block (b, 0, 0). -/
theorem idx0_2 : ∀ t : Fin cfg0.N, win0_2.index t (0 : Fin 3) = t.val / 16 ∧ win0_2.index t (1 : Fin 3) = 0 ∧ win0_2.index t (2 : Fin 3) = 0 :=
  (by decide +kernel : ∀ t : Fin grid0.N, win0_2.index t (0 : Fin 3) = t.val / 16 ∧ win0_2.index t (1 : Fin 3) = 0 ∧ win0_2.index t (2 : Fin 3) = 0)

section
variable (V : (c : Dev nD) → (b : Ref sig .tc) → Buf (Elt Ideal) ((c : Thread nD τ).loc b)) (c : Dev nD)

/-- A point's batch is below 8. -/
theorem tdiv_lt (t : Fin cfg0.N) : t.val / 16 < 8 := by
  have h : t.val < 128 := lt_of_lt_of_eq t.isLt N_0; omega

/-- The grid centres' block at point t: element (0, q, n) is the array's (t / 16, q, 16384 (t % 16) + n). -/
theorem iblk0_0_apply (t : Fin cfg0.N) (q : Fin 3) (n : Fin 16384) :
    iblk0 (F := Ideal) V c 0 t (ix3 0 q n)
      = V c main_v0 (ix3 ⟨t.val / 16, tdiv_lt t⟩ q ⟨16384 * (t.val % 16) + n.val, by have := n.isLt; omega⟩) := by
  show V c main_v0 (((cfg0.win 0).blk t).view.emb (ix3 0 q n)) = V c main_v0 _
  obtain ⟨e0, e1, e2⟩ := idx0_0 t
  refine congrArg (V c main_v0) (funext fun a => Fin.ext ?_)
  match a with
  | ⟨0, _⟩ => show win0_0.index t (0 : Fin 3) * 1 + 1 * 0 = t.val / 16; omega
  | ⟨1, _⟩ => show win0_0.index t (1 : Fin 3) * 3 + 1 * q.val = q.val; omega
  | ⟨2, _⟩ => show win0_0.index t (2 : Fin 3) * 16384 + 1 * n.val = 16384 * (t.val % 16) + n.val; omega

/-- The keypoints' block at point t: element (0, q, j) is the array's (t / 16, q, j). -/
theorem iblk0_1_apply (t : Fin cfg0.N) (q : Fin 3) (j : Fin 23) :
    iblk0 (F := Ideal) V c 1 t (ix3 0 q j) = V c main_arg1 (ix3 ⟨t.val / 16, tdiv_lt t⟩ q j) := by
  show V c main_arg1 (((cfg0.win 1).blk t).view.emb (ix3 0 q j)) = V c main_arg1 _
  obtain ⟨e0, e1, e2⟩ := idx0_1 t
  refine congrArg (V c main_arg1) (funext fun a => Fin.ext ?_)
  match a with
  | ⟨0, _⟩ => show win0_1.index t (0 : Fin 3) * 1 + 1 * 0 = t.val / 16; omega
  | ⟨1, _⟩ => show win0_1.index t (1 : Fin 3) * 3 + 1 * q.val = q.val; omega
  | ⟨2, _⟩ => show win0_1.index t (2 : Fin 3) * 23 + 1 * j.val = j.val; omega

/-- exp(y) for batch `b`, joint `j` and grid centre `n`, off the two arrays the call is entered with. -/
def gS (b : Fin 8) (j : Fin 23) (n : Fin 262144) : EReal :=
  eK (fun q => V c main_v0 (ix3 b q n)) (fun q => V c main_arg1 (ix3 b q j))

/-- The same summand over the naturals, zero past the last grid centre. -/
def gN (b : Fin 8) (j : Fin 23) (n : ℕ) : EReal := if h : n < 262144 then gS V c b j ⟨n, h⟩ else 0

/-- One tile's sum as the body adds it up, off the two blocks at point `t`. -/
def tileS (t : Fin cfg0.N) (j : Fin 23) : EReal :=
  ∑ n : Fin 16384, eK (fun q => iblk0 (F := Ideal) V c 0 t (ix3 0 q n)) (fun q => iblk0 (F := Ideal) V c 1 t (ix3 0 q j))

/-- At the first tile of a batch the running sum is the tile's own sum (it starts from zero). -/
theorem acc0_first_apply (t : Fin cfg0.N) (h : t.val % 16 = 0) (j : Fin 23) :
    acc0 (F := Ideal) V c t.val t.isLt (ix3 0 j 0) = tileS V c t j := by
  refine (congrFun (acc0_first (F := Ideal) V c t h) (ix3 0 j 0)).trans ?_
  refine (step0_apply (iblk0 (F := Ideal) V c 0 t) (iblk0 (F := Ideal) V c 1 t) (k0_pay2 (F := Ideal)) j).trans ?_
  rw [k0_pay2_apply, show (k0 : EReal) = 0 from Ideal.ofBits_zero_f32, zero_add]
  rfl

/-- At a later tile it is what the tile before left plus the tile's own sum. -/
theorem acc0_later_apply (t : Fin cfg0.N) (h : ¬t.val % 16 = 0) (j : Fin 23) :
    acc0 (F := Ideal) V c t.val t.isLt (ix3 0 j 0)
      = acc0 (F := Ideal) V c (t.val - 1) (Nat.lt_of_le_of_lt (Nat.sub_le _ _) t.isLt) (ix3 0 j 0) + tileS V c t j := by
  refine (congrFun (acc0_later (F := Ideal) V c t h) (ix3 0 j 0)).trans ?_
  exact step0_apply (iblk0 (F := Ideal) V c 0 t) (iblk0 (F := Ideal) V c 1 t) (acc0 (F := Ideal) V c (t.val - 1) (Nat.lt_of_le_of_lt (Nat.sub_le _ _) t.isLt)) j

/-- One tile's sum: tile `k` of batch `b` holds the grid centres 16384 k … 16384 k + 16383. -/
theorem tile_sum (t : Fin cfg0.N) (b : Fin 8) (k : ℕ) (ht : t.val = 16 * b.val + k) (hk : k < 16) (j : Fin 23) :
    tileS V c t j = ∑ x ∈ Finset.range 16384, gN V c b j (16384 * k + x) := by
  unfold tileS
  rw [Finset.sum_range]
  refine Finset.sum_congr rfl fun n _ => ?_
  have hn := n.isLt
  have hb : (⟨t.val / 16, tdiv_lt t⟩ : Fin 8) = b := Fin.ext (by show t.val / 16 = b.val; omega)
  have hm : t.val % 16 = k := by omega
  unfold gN
  rw [dif_pos (by omega)]
  unfold gS
  refine congrArg₂ eK (funext fun q => ?_) (funext fun q => ?_)
  · refine (iblk0_0_apply V c t q n).trans ?_
    rw [hb]
    refine congrArg (V c main_v0) (congrArg (ix3 b q) (Fin.ext ?_))
    show 16384 * (t.val % 16) + n.val = 16384 * k + n.val
    rw [hm]
  · refine (iblk0_1_apply V c t q j).trans ?_
    rw [hb]

/-- The running sums do not depend on how the point's position is written. -/
theorem acc0_congr (u v : ℕ) (hu : u < cfg0.N) (hv : v < cfg0.N) (e : u = v) : acc0 (F := Ideal) V c u hu = acc0 (F := Ideal) V c v hv := by
  subst e; rfl

/-- Tile k of batch b is a point of the grid. -/
theorem pt_lt (b : Fin 8) (k : ℕ) (hk : k < 16) : 16 * b.val + k < cfg0.N := by
  have h := b.isLt; rw [show cfg0.N = 128 from N_0]; omega

/-- THE RUNNING SUMS: after tile `k` of batch `b` joint `j`'s entry is the sum over the batch's first 16384 (k + 1) grid
    centres. The first tile starts from zero; each later one adds its own 16384 centres to what the tile before left. -/
theorem acc0_sum (b : Fin 8) : ∀ (k : ℕ) (hk : k < 16) (j : Fin 23),
    acc0 (F := Ideal) V c (16 * b.val + k) (pt_lt b k hk) (ix3 0 j 0) = ∑ x ∈ Finset.range (16384 * (k + 1)), gN V c b j x
  | 0, hk, j => by
    refine (acc0_first_apply V c ⟨16 * b.val + 0, pt_lt b 0 hk⟩ (by show (16 * b.val + 0) % 16 = 0; omega) j).trans ?_
    rw [tile_sum V c ⟨16 * b.val + 0, pt_lt b 0 hk⟩ b 0 rfl hk j]
    refine Finset.sum_congr rfl fun x _ => ?_
    rw [Nat.mul_zero, Nat.zero_add]
  | k + 1, hk, j => by
    refine (acc0_later_apply V c ⟨16 * b.val + (k + 1), pt_lt b (k + 1) hk⟩ (by show ¬(16 * b.val + (k + 1)) % 16 = 0; omega) j).trans ?_
    rw [tile_sum V c ⟨16 * b.val + (k + 1), pt_lt b (k + 1) hk⟩ b (k + 1) rfl hk j,
      show 16384 * (k + 1 + 1) = 16384 * (k + 1) + 16384 from by omega, Finset.sum_range_add]
    refine congrArg (· + _) ?_
    refine (congrFun (acc0_congr V c _ (16 * b.val + k) _ (pt_lt b k (Nat.lt_of_succ_lt hk)) (by show 16 * b.val + (k + 1) - 1 = 16 * b.val + k; omega)) (ix3 0 j 0)).trans ?_
    exact acc0_sum b k (Nat.lt_of_succ_lt hk) j

/-- The whole grid's sum: after the last tile of a batch the running sum is the target array's entry. -/
theorem sum_all (b : Fin 8) (j : Fin 23) :
    ∑ x ∈ Finset.range (16384 * (15 + 1)), gN V c b j x = SArr (V c main_v0) (V c main_arg1) (ix3 b j 0) := by
  rw [show 16384 * (15 + 1) = 262144 from rfl, Finset.sum_range]
  show _ = ∑ n : Fin 262144, gS V c b j n
  refine Finset.sum_congr rfl fun n _ => ?_
  unfold gN
  rw [dif_pos n.isLt]

/-- Where an element of the output's block at point `t` sits in the output array: row `t / 16`, the same joint. -/
theorem emb0_2 (t : Fin cfg0.N) (y : S1x23x1.Idx) :
    ((cfg0.win 2).blk t).view.emb y = ix3 ⟨t.val / 16, tdiv_lt t⟩ (y 1) 0 := by
  obtain ⟨e0, e1, e2⟩ := idx0_2 t
  have h0 : (y 0).val < 1 := (y 0).isLt
  have h1 : (y 1).val < 23 := (y 1).isLt
  have h2 : (y 2).val < 1 := (y 2).isLt
  refine funext fun a => Fin.ext ?_
  match a with
  | ⟨0, _⟩ => show win0_2.index t (0 : Fin 3) * 1 + 1 * (y 0).val = t.val / 16; omega
  | ⟨1, _⟩ => show win0_2.index t (1 : Fin 3) * 23 + 1 * (y 1).val = (y 1).val; omega
  | ⟨2, _⟩ => show win0_2.index t (2 : Fin 3) * 1 + 1 * (y 2).val = 0; omega

/-- An index of the output's block is (0, j, 0). -/
theorem idx1x23x1 (y : S1x23x1.Idx) : y = ix3 (0 : Fin 1) (y 1 : Fin 23) (0 : Fin 1) := by
  have h0 : (y 0).val < 1 := (y 0).isLt
  have h2 : (y 2).val < 1 := (y 2).isLt
  refine funext fun a => Fin.ext ?_
  match a with
  | ⟨0, _⟩ => show (y 0).val = 0; omega
  | ⟨1, _⟩ => rfl
  | ⟨2, _⟩ => show (y 2).val = 0; omega

/-- After the last tile of a batch the running sums are the batch's row of the target array. -/
theorem acc0_last (t : Fin cfg0.N) (h15 : t.val % 16 = 15) (j : Fin 23) :
    acc0 (F := Ideal) V c t.val t.isLt (ix3 0 j 0) = SArr (V c main_v0) (V c main_arg1) (ix3 ⟨t.val / 16, tdiv_lt t⟩ j 0) := by
  refine (congrFun (acc0_congr V c t.val (16 * (t.val / 16) + 15) t.isLt (pt_lt ⟨t.val / 16, tdiv_lt t⟩ 15 (by omega)) (by omega)) (ix3 0 j 0)).trans ?_
  refine (acc0_sum V c ⟨t.val / 16, tdiv_lt t⟩ 15 (by omega) j).trans ?_
  exact sum_all V c ⟨t.val / 16, tdiv_lt t⟩ j

/-- Reading the output array through point `t`'s block: the block's element (0, j, 0) is the array's (t / 16, j, 0). -/
theorem read0_2 (G : Buf (Elt Ideal) ((c : Thread nD τ).loc main_v2)) (t : Fin cfg0.N) (y : S1x23x1.Idx) :
    ((cfg0.win 2).blk t).view.read (Elt Ideal) G y = G (ix3 ⟨t.val / 16, tdiv_lt t⟩ (y 1) 0) := by
  show G (((cfg0.win 2).blk t).view.emb y) = G _
  exact congrArg G (emb0_2 t y)

/-- WHAT A FLUSHING POINT WRITES BACK is its block of the target array. -/
theorem flushed0_2 (t : Fin cfg0.N) (hf : (cfg0.win 2).flush t = true) :
    (dat0 (F := Ideal) V c).flushed 2 t = ((cfg0.win 2).blk t).view.read (Elt Ideal) (SArr (V c main_v0) (V c main_arg1)) := by
  have h15 : t.val % 16 = 15 := (flush0_2 t).mp hf
  show (cfg0.win 2).cut (grid0.coords t) ((dat0 (F := Ideal) V c).after 2 t) = _
  rw [after0_2]
  funext y
  show acc0 (F := Ideal) V c t.val t.isLt y = _
  refine Eq.trans ?_ (read0_2 c (SArr (V c main_v0) (V c main_arg1)) t y).symm
  refine (congrArg (acc0 (F := Ideal) V c t.val t.isLt) (idx1x23x1 y)).trans ?_
  exact acc0_last V c t h15 (y 1)

/-- An index of the output array is in point `t`'s block iff each coordinate is in the block's range on its axis. -/
theorem mem_blk0_2 (t : Fin cfg0.N) (i : S8x23x1.Idx) :
    i ∈ ((cfg0.win 2).blk t).view.set ↔ ∀ a : Fin 3, win0_2.index t a * S1x23x1.size a ≤ (i a).val ∧ (i a).val < win0_2.index t a * S1x23x1.size a + S1x23x1.size a := by
  show i ∈ ((View.whole main_v2).slice (win0_2.rect t)).set ↔ _
  rw [View.set_slice_whole, Rect.mem_set_unit]
  exact Iff.rfl

/-- Every index (b, j, 0) of the output array lies in the block written back after the last tile of batch `b`. -/
theorem cover0_2 (i : S8x23x1.Idx) : ∃ t : Fin cfg0.N, (cfg0.win 2).flush t = true ∧ i ∈ ((cfg0.win 2).blk t).view.set := by
  have h0 : (i 0).val < 8 := (i 0).isLt
  have h1 : (i 1).val < 23 := (i 1).isLt
  have h2 : (i 2).val < 1 := (i 2).isLt
  refine ⟨⟨16 * (i 0).val + 15, pt_lt (i 0) 15 (by omega)⟩, (flush0_2 _).mpr (by show (16 * (i 0).val + 15) % 16 = 15; omega), ?_⟩
  rw [mem_blk0_2]
  obtain ⟨e0, e1, e2⟩ := idx0_2 ⟨16 * (i 0).val + 15, pt_lt (i 0) 15 (by omega)⟩
  have e0' : win0_2.index ⟨16 * (i 0).val + 15, pt_lt (i 0) 15 (by omega)⟩ (0 : Fin 3) = (16 * (i 0).val + 15) / 16 := e0
  intro a
  match a with
  | ⟨0, _⟩ => show win0_2.index _ (0 : Fin 3) * 1 ≤ (i 0).val ∧ (i 0).val < win0_2.index _ (0 : Fin 3) * 1 + 1; omega
  | ⟨1, _⟩ => show win0_2.index _ (1 : Fin 3) * 23 ≤ (i 1).val ∧ (i 1).val < win0_2.index _ (1 : Fin 3) * 23 + 23; omega
  | ⟨2, _⟩ => show win0_2.index _ (2 : Fin 3) * 1 ≤ (i 2).val ∧ (i 2).val < win0_2.index _ (2 : Fin 3) * 1 + 1; omega

end

/-- THE FIRST CALL'S OUTPUT ARRAY after the run, whatever buffer contents `V` the call is entered from. -/
theorem arrAt0_2 (V : (c : Dev nD) → (b : Ref sig .tc) → Buf (Elt Ideal) ((c : Thread nD τ).loc b)) (c : Dev nD) :
    (dat0 (F := Ideal) V c).arrAt 2 cfg0.N = SArr (V c main_v0) (V c main_arg1) := by
  exact (dat0 (F := Ideal) V c).arrAt_eq_of_cover 2 (SArr (V c main_v0) (V c main_arg1)) (fun t hf => flushed0_2 V c t hf) cover0_2

end Cert.KernelIdeal.Run

end
-- ==== Proof.ValP.lean ====
/-
  What the second pallas_call leaves in its output array, over the extended reals: entry (b, 0, 0) is the sum over
  the 23 joints j and all 262144 grid centres n of (e / S - heat)^2, with e = exp(y) for (b, j, n), S the first
  call's sum for (b, j) and heat the flattened heatmap at (b, j, n). The grid point t = 16 b + k handles tile k of
  batch b; the running loss is reset at k = 0, grows by one tile's sum per point, and is written back after k = 15.
-/
import proofs.«107451_j57226144252798_1_alg».proof.Proof.Dat1
import proofs.«107451_j57226144252798_1_alg».proof.Proof.PayIdx
import Idealize.ShloMosaic.PureOps.Ideal.Laws
import Idealize.ShloMosaic.Lib.ValueIdx
import Idealize.ShloMosaic.Lib.Pipeline.Value
import Mathlib.Algebra.BigOperators.Fin
import Mathlib.Logic.Equiv.Fin.Basic

set_option maxRecDepth 16384

noncomputable section

open scoped BigOperators

namespace Cert.KernelIdeal.Run

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.Loss

/-- The second call's result from the transposed grid centres [8, 3, 262144], the keypoints [8, 3, 23], the first call's
    sums [8, 23, 1] and the flattened heatmaps [8, 23, 262144]. -/
def PArrK (gt : (⟨3, ![8, 3, 262144]⟩ : Shape).Idx → EReal) (p : (⟨3, ![8, 3, 23]⟩ : Shape).Idx → EReal)
    (S : (⟨3, ![8, 23, 1]⟩ : Shape).Idx → EReal) (h : (⟨3, ![8, 23, 262144]⟩ : Shape).Idx → EReal) :
    (⟨3, ![8, 1, 1]⟩ : Shape).Idx → EReal :=
  fun i => ∑ j : Fin 23, ∑ n : Fin 262144,
    (Ideal.div (eK (fun k => gt (ix3 (i 0) k n)) (fun k => p (ix3 (i 0) k j))) (S (ix3 (i 0) j 0)) - h (ix3 (i 0) j n))
      * (Ideal.div (eK (fun k => gt (ix3 (i 0) k n)) (fun k => p (ix3 (i 0) k j))) (S (ix3 (i 0) j 0)) - h (ix3 (i 0) j n))

/-- The block index of each window at the grid point t = 16 b + k, decided over the 128 points: the batch b on the
    first axis, the tile k on the last axis of the two tiled arrays, zero elsewhere. -/
theorem idx1_0 : ∀ t : Fin cfg1.N, win1_0.index t (0 : Fin 3) = t.val / 16 ∧ win1_0.index t (1 : Fin 3) = 0 ∧ win1_0.index t (2 : Fin 3) = t.val % 16 :=
  (by decide +kernel : ∀ t : Fin grid1.N, win1_0.index t (0 : Fin 3) = t.val / 16 ∧ win1_0.index t (1 : Fin 3) = 0 ∧ win1_0.index t (2 : Fin 3) = t.val % 16)
theorem idx1_1 : ∀ t : Fin cfg1.N, win1_1.index t (0 : Fin 3) = t.val / 16 ∧ win1_1.index t (1 : Fin 3) = 0 ∧ win1_1.index t (2 : Fin 3) = 0 :=
  (by decide +kernel : ∀ t : Fin grid1.N, win1_1.index t (0 : Fin 3) = t.val / 16 ∧ win1_1.index t (1 : Fin 3) = 0 ∧ win1_1.index t (2 : Fin 3) = 0)
theorem idx1_2 : ∀ t : Fin cfg1.N, win1_2.index t (0 : Fin 3) = t.val / 16 ∧ win1_2.index t (1 : Fin 3) = 0 ∧ win1_2.index t (2 : Fin 3) = 0 :=
  (by decide +kernel : ∀ t : Fin grid1.N, win1_2.index t (0 : Fin 3) = t.val / 16 ∧ win1_2.index t (1 : Fin 3) = 0 ∧ win1_2.index t (2 : Fin 3) = 0)
theorem idx1_3 : ∀ t : Fin cfg1.N, win1_3.index t (0 : Fin 3) = t.val / 16 ∧ win1_3.index t (1 : Fin 3) = 0 ∧ win1_3.index t (2 : Fin 3) = t.val % 16 :=
  (by decide +kernel : ∀ t : Fin grid1.N, win1_3.index t (0 : Fin 3) = t.val / 16 ∧ win1_3.index t (1 : Fin 3) = 0 ∧ win1_3.index t (2 : Fin 3) = t.val % 16)
theorem idx1_4 : ∀ t : Fin cfg1.N, win1_4.index t (0 : Fin 3) = t.val / 16 ∧ win1_4.index t (1 : Fin 3) = 0 ∧ win1_4.index t (2 : Fin 3) = 0 :=
  (by decide +kernel : ∀ t : Fin grid1.N, win1_4.index t (0 : Fin 3) = t.val / 16 ∧ win1_4.index t (1 : Fin 3) = 0 ∧ win1_4.index t (2 : Fin 3) = 0)

/-- The squared error at batch b, joint j, grid centre n: (e / S - heat)^2. -/
def sqP (gt : (⟨3, ![8, 3, 262144]⟩ : Shape).Idx → EReal) (p : (⟨3, ![8, 3, 23]⟩ : Shape).Idx → EReal)
    (S : (⟨3, ![8, 23, 1]⟩ : Shape).Idx → EReal) (h : (⟨3, ![8, 23, 262144]⟩ : Shape).Idx → EReal)
    (b : Fin 8) (j : Fin 23) (n : Fin 262144) : EReal :=
  (Ideal.div (eK (fun k => gt (ix3 b k n)) (fun k => p (ix3 b k j))) (S (ix3 b j 0)) - h (ix3 b j n))
    * (Ideal.div (eK (fun k => gt (ix3 b k n)) (fun k => p (ix3 b k j))) (S (ix3 b j 0)) - h (ix3 b j n))

/-- Tile s of batch b: the squared errors summed over the 23 joints and the tile's 16384 grid centres. -/
def tileP (gt : (⟨3, ![8, 3, 262144]⟩ : Shape).Idx → EReal) (p : (⟨3, ![8, 3, 23]⟩ : Shape).Idx → EReal)
    (S : (⟨3, ![8, 23, 1]⟩ : Shape).Idx → EReal) (h : (⟨3, ![8, 23, 262144]⟩ : Shape).Idx → EReal)
    (b : Fin 8) (s : Fin 16) : EReal :=
  ∑ j : Fin 23, ∑ n : Fin 16384, sqP gt p S h b j ⟨16384 * s.val + n.val, by have := s.isLt; have := n.isLt; omega⟩

/-- The result at an index of batch b is the sum of batch b's squared errors. -/
theorem PArrK_apply (gt : (⟨3, ![8, 3, 262144]⟩ : Shape).Idx → EReal) (p : (⟨3, ![8, 3, 23]⟩ : Shape).Idx → EReal)
    (S : (⟨3, ![8, 23, 1]⟩ : Shape).Idx → EReal) (h : (⟨3, ![8, 23, 262144]⟩ : Shape).Idx → EReal)
    (i : (⟨3, ![8, 1, 1]⟩ : Shape).Idx) (b : Fin 8) (hb : i 0 = b) :
    PArrK gt p S h i = ∑ j : Fin 23, ∑ n : Fin 262144, sqP gt p S h b j n := by
  subst hb; rfl

/-- The 262144 grid centres are the 16 tiles of 16384: a sum over them is the sum over the tiles of the tile's sum. -/
theorem sum_tiles {M : Type*} [AddCommMonoid M] (f : Fin 262144 → M) :
    ∑ s : Fin 16, ∑ n : Fin 16384, f ⟨16384 * s.val + n.val, by have := s.isLt; have := n.isLt; omega⟩ = ∑ n : Fin 262144, f n := by
  have h := (finProdFinEquiv (m := 16) (n := 16384)).sum_comp (fun x : Fin (16 * 16384) => f ⟨x.val, x.isLt⟩)
  rw [Fintype.sum_prod_type] at h
  refine Eq.trans ?_ (h.trans ?_)
  · refine Finset.sum_congr rfl fun s _ => Finset.sum_congr rfl fun n _ => congrArg f (Fin.ext ?_)
    show 16384 * s.val + n.val = n.val + 16384 * s.val
    omega
  · rfl

section
variable (V : (c : Dev nD) → (b : Ref sig .tc) → Buf (Elt Ideal) ((c : Thread nD τ).loc b))

/-- The grid-centre block at the point t = 16 b + s: coordinate q of centre n of tile s of batch b. -/
theorem blk1_0 (c : Dev nD) (b : Fin 8) (s : Fin 16) (t : Fin cfg1.N) (ht : t.val = 16 * b.val + s.val) (q : Fin 3) (n : Fin 16384) :
    iblk1 V c 0 t (ix3 0 q n) = V c main_v0 (ix3 b q ⟨16384 * s.val + n.val, by have := s.isLt; have := n.isLt; omega⟩) := by
  obtain ⟨e0, e1, e2⟩ := idx1_0 t
  show V c main_v0 (((cfg1.win 0).blk t).view.emb (ix3 0 q n)) = V c main_v0 _
  congr 1
  funext a
  apply Fin.ext
  match a with
  | ⟨0, _⟩ => show win1_0.index t (0 : Fin 3) * 1 + 1 * (0 : Fin 1).val = b.val; rw [e0]; have := s.isLt; simp only [Fin.val_zero]; omega
  | ⟨1, _⟩ => show win1_0.index t (1 : Fin 3) * 3 + 1 * q.val = q.val; rw [e1]; omega
  | ⟨2, _⟩ => show win1_0.index t (2 : Fin 3) * 16384 + 1 * n.val = 16384 * s.val + n.val; rw [e2]; have := s.isLt; omega

/-- The keypoint block: coordinate q of joint j of batch b. -/
theorem blk1_1 (c : Dev nD) (b : Fin 8) (s : Fin 16) (t : Fin cfg1.N) (ht : t.val = 16 * b.val + s.val) (q : Fin 3) (j : Fin 23) :
    iblk1 V c 1 t (ix3 0 q j) = V c main_arg1 (ix3 b q j) := by
  obtain ⟨e0, e1, e2⟩ := idx1_1 t
  show V c main_arg1 (((cfg1.win 1).blk t).view.emb (ix3 0 q j)) = V c main_arg1 _
  congr 1
  funext a
  apply Fin.ext
  match a with
  | ⟨0, _⟩ => show win1_1.index t (0 : Fin 3) * 1 + 1 * (0 : Fin 1).val = b.val; rw [e0]; have := s.isLt; simp only [Fin.val_zero]; omega
  | ⟨1, _⟩ => show win1_1.index t (1 : Fin 3) * 3 + 1 * q.val = q.val; rw [e1]; omega
  | ⟨2, _⟩ => show win1_1.index t (2 : Fin 3) * 23 + 1 * j.val = j.val; rw [e2]; omega

/-- The block of the first call's sums: joint j of batch b. -/
theorem blk1_2 (c : Dev nD) (b : Fin 8) (s : Fin 16) (t : Fin cfg1.N) (ht : t.val = 16 * b.val + s.val) (j : Fin 23) :
    iblk1 V c 2 t (ix3 0 j 0) = V c main_v2 (ix3 b j 0) := by
  obtain ⟨e0, e1, e2⟩ := idx1_2 t
  show V c main_v2 (((cfg1.win 2).blk t).view.emb (ix3 0 j 0)) = V c main_v2 _
  congr 1
  funext a
  apply Fin.ext
  match a with
  | ⟨0, _⟩ => show win1_2.index t (0 : Fin 3) * 1 + 1 * (0 : Fin 1).val = b.val; rw [e0]; have := s.isLt; simp only [Fin.val_zero]; omega
  | ⟨1, _⟩ => show win1_2.index t (1 : Fin 3) * 23 + 1 * j.val = j.val; rw [e1]; omega
  | ⟨2, _⟩ => show win1_2.index t (2 : Fin 3) * 1 + 1 * (0 : Fin 1).val = (0 : Fin 1).val; rw [e2]; omega

/-- The heatmap block: joint j, centre n of tile s of batch b. -/
theorem blk1_3 (c : Dev nD) (b : Fin 8) (s : Fin 16) (t : Fin cfg1.N) (ht : t.val = 16 * b.val + s.val) (j : Fin 23) (n : Fin 16384) :
    iblk1 V c 3 t (ix3 0 j n) = V c main_v1 (ix3 b j ⟨16384 * s.val + n.val, by have := s.isLt; have := n.isLt; omega⟩) := by
  obtain ⟨e0, e1, e2⟩ := idx1_3 t
  show V c main_v1 (((cfg1.win 3).blk t).view.emb (ix3 0 j n)) = V c main_v1 _
  congr 1
  funext a
  apply Fin.ext
  match a with
  | ⟨0, _⟩ => show win1_3.index t (0 : Fin 3) * 1 + 1 * (0 : Fin 1).val = b.val; rw [e0]; have := s.isLt; simp only [Fin.val_zero]; omega
  | ⟨1, _⟩ => show win1_3.index t (1 : Fin 3) * 23 + 1 * j.val = j.val; rw [e1]; omega
  | ⟨2, _⟩ => show win1_3.index t (2 : Fin 3) * 16384 + 1 * n.val = 16384 * s.val + n.val; rw [e2]; have := s.isLt; omega

/-- One point of the second call at t = 16 b + s: the running loss grows by tile s of batch b. -/
theorem step1_tile (c : Dev nD) (b : Fin 8) (s : Fin 16) (t : Fin cfg1.N) (ht : t.val = 16 * b.val + s.val) (acc : Vec Ideal S1x1x1 .f32) :
    step1 (iblk1 V c 0 t) (iblk1 V c 1 t) (iblk1 V c 2 t) (iblk1 V c 3 t) acc (ix3 0 0 0)
      = acc (ix3 0 0 0) + tileP (V c main_v0) (V c main_arg1) (V c main_v2) (V c main_v1) b s := by
  refine (step1_apply (iblk1 V c 0 t) (iblk1 V c 1 t) (iblk1 V c 2 t) (iblk1 V c 3 t) acc).trans ?_
  refine congrArg (fun x => acc (ix3 0 0 0) + x) ?_
  unfold tileP sqP
  refine Finset.sum_congr rfl fun j _ => Finset.sum_congr rfl fun n _ => ?_
  have e0 : (fun q : Fin 3 => iblk1 V c 0 t (ix3 0 q n)) = fun q => V c main_v0 (ix3 b q ⟨16384 * s.val + n.val, by have := s.isLt; have := n.isLt; omega⟩) :=
    funext fun q => blk1_0 V c b s t ht q n
  have e1 : (fun q : Fin 3 => iblk1 V c 1 t (ix3 0 q j)) = fun q => V c main_arg1 (ix3 b q j) :=
    funext fun q => blk1_1 V c b s t ht q j
  have e2 := blk1_2 V c b s t ht j
  have e3 := blk1_3 V c b s t ht j n
  rw [e0, e1, e2, e3]

/-- The running loss at two equal positions is the same. -/
theorem acc1_congr (c : Dev nD) {n n' : ℕ} (e : n = n') (h : n < cfg1.N) (h' : n' < cfg1.N) :
    acc1 V c n h = acc1 V c n' h' := by
  subst e; rfl

/-- At the first tile of batch b the running loss is that tile's sum: the reset value is zero. -/
theorem acc1_reset (c : Dev nD) (b : Fin 8) (t : Fin cfg1.N) (ht : t.val = 16 * b.val + (0 : Fin 16).val) :
    acc1 V c t.val t.isLt (ix3 0 0 0) = tileP (V c main_v0) (V c main_arg1) (V c main_v2) (V c main_v1) b 0 := by
  have h0 : t.val % 16 = 0 := by rw [ht]; simp only [Fin.val_zero]; omega
  refine (congrFun (acc1_first V c t h0) (ix3 0 0 0)).trans ?_
  refine (step1_tile V c b 0 t ht (k1_pay2 (F := Ideal))).trans ?_
  rw [k1_pay2_apply, show (k0 : EReal) = 0 from Ideal.ofBits_zero_f32, zero_add]

/-- After tile k of batch b the running loss is the sum of the tiles 0 .. k of that batch: by induction on k, each later
    point adding its tile to what the point before left. -/
theorem acc1_sum (c : Dev nD) (b : Fin 8) : ∀ (k : ℕ) (hk : k < 16) (h : 16 * b.val + k < cfg1.N),
    acc1 V c (16 * b.val + k) h (ix3 0 0 0)
      = ∑ s : Fin (k + 1), tileP (V c main_v0) (V c main_arg1) (V c main_v2) (V c main_v1) b ⟨s.val, by have := s.isLt; omega⟩
  | 0, hk, h => by
    rw [Fin.sum_univ_one]
    exact acc1_reset V c b ⟨16 * b.val + 0, h⟩ rfl
  | k + 1, hk, h => by
    have hlt : 16 * b.val + k < cfg1.N := Nat.lt_of_succ_lt h
    have hne : ¬(⟨16 * b.val + (k + 1), h⟩ : Fin cfg1.N).val % 16 = 0 := by
      show ¬(16 * b.val + (k + 1)) % 16 = 0
      omega
    refine (congrFun (acc1_later V c ⟨16 * b.val + (k + 1), h⟩ hne) (ix3 0 0 0)).trans ?_
    refine (step1_tile V c b ⟨k + 1, hk⟩ ⟨16 * b.val + (k + 1), h⟩ rfl _).trans ?_
    rw [Fin.sum_univ_castSucc]
    refine congrArg₂ (fun x y => x + y) ?_ rfl
    refine (congrFun (acc1_congr V c (show (⟨16 * b.val + (k + 1), h⟩ : Fin cfg1.N).val - 1 = 16 * b.val + k from by
      show 16 * b.val + (k + 1) - 1 = 16 * b.val + k; omega) _ hlt) (ix3 0 0 0)).trans ?_
    exact acc1_sum c b k (Nat.lt_of_succ_lt hk) hlt

/-- After the last tile of batch b the running loss is the batch's whole sum over the joints and all grid centres. -/
theorem acc1_full (c : Dev nD) (b : Fin 8) (t : Fin cfg1.N) (ht : t.val = 16 * b.val + 15) :
    acc1 V c t.val t.isLt (ix3 0 0 0)
      = ∑ j : Fin 23, ∑ n : Fin 262144, sqP (V c main_v0) (V c main_arg1) (V c main_v2) (V c main_v1) b j n := by
  have h : 16 * b.val + 15 < cfg1.N := ht ▸ t.isLt
  refine (congrFun (acc1_congr V c ht t.isLt h) (ix3 0 0 0)).trans ?_
  refine (acc1_sum V c b 15 (by omega) h).trans ?_
  unfold tileP
  rw [Finset.sum_comm]
  refine Finset.sum_congr rfl fun j _ => ?_
  exact sum_tiles fun n => sqP (V c main_v0) (V c main_arg1) (V c main_v2) (V c main_v1) b j n

/-- What a point that writes back (the last tile of its batch) writes is its block of the result array. -/
theorem flushed1_4_eq (c : Dev nD) (t : Fin cfg1.N) (hf : (cfg1.win 4).flush t = true) :
    (dat1 (F := Ideal) V c).flushed 4 t
      = ((cfg1.win 4).blk t).view.read (Elt Ideal) (PArrK (V c main_v0) (V c main_arg1) (V c main_v2) (V c main_v1)) := by
  have h15 : t.val % 16 = 15 := (flush1_4 t).mp hf
  have hN : cfg1.N = 128 := N_1
  have hb : t.val / 16 < 8 := by have := t.isLt; omega
  obtain ⟨e0, e1, e2⟩ := idx1_4 t
  show (cfg1.win 4).cut (grid1.coords t) ((dat1 V c).after 4 t) = _
  rw [after1_4]
  funext y
  have y0 : (y 0).val < 1 := (y 0).isLt
  have y1 : (y 1).val < 1 := (y 1).isLt
  have y2 : (y 2).val < 1 := (y 2).isLt
  show acc1 V c t.val t.isLt ((cfg1.win 4).xinj (grid1.coords t) y)
    = PArrK (V c main_v0) (V c main_arg1) (V c main_v2) (V c main_v1) (((cfg1.win 4).blk t).view.emb y)
  have hy : (cfg1.win 4).xinj (grid1.coords t) y = (ix3 0 0 0 : S1x1x1.Idx) := by
    funext a
    apply Fin.ext
    match a with
    | ⟨0, _⟩ => show (y 0).val = 0; omega
    | ⟨1, _⟩ => show (y 1).val = 0; omega
    | ⟨2, _⟩ => show (y 2).val = 0; omega
  have hi0 : (((cfg1.win 4).blk t).view.emb y) 0 = (⟨t.val / 16, hb⟩ : Fin 8) := by
    apply Fin.ext
    show win1_4.index t (0 : Fin 3) * 1 + 1 * (y 0).val = t.val / 16
    rw [e0]; omega
  refine Eq.trans ?_ (PArrK_apply _ _ _ _ _ ⟨t.val / 16, hb⟩ hi0).symm
  refine Eq.trans (congrArg (acc1 V c t.val t.isLt) hy) ?_
  exact acc1_full V c ⟨t.val / 16, hb⟩ t (by show t.val = 16 * (t.val / 16) + 15; omega)

/-- An index of the result array is in the block of point t iff each coordinate is in the block's range on its axis. -/
theorem mem_blk1_4 (t : Fin cfg1.N) (i : S8x1x1.Idx) :
    i ∈ ((cfg1.win 4).blk t).view.set ↔ ∀ a : Fin 3, win1_4.index t a * S1x1x1.size a ≤ (i a).val ∧ (i a).val < win1_4.index t a * S1x1x1.size a + S1x1x1.size a := by
  show i ∈ ((View.whole main_v3).slice (win1_4.rect t)).set ↔ _
  rw [View.set_slice_whole, Rect.mem_set_unit]
  exact Iff.rfl

/-- Every index (b, 0, 0) of the result array lies in the block of the point 16 b + 15, which writes back. -/
theorem cover1_4 (i : S8x1x1.Idx) : ∃ t : Fin cfg1.N, (cfg1.win 4).flush t = true ∧ i ∈ ((cfg1.win 4).blk t).view.set := by
  have hN : cfg1.N = 128 := N_1
  have i0 : (i 0).val < 8 := (i 0).isLt
  have i1 : (i 1).val < 1 := (i 1).isLt
  have i2 : (i 2).val < 1 := (i 2).isLt
  refine ⟨⟨16 * (i 0).val + 15, by omega⟩, (flush1_4 _).mpr (by show (16 * (i 0).val + 15) % 16 = 15; omega), ?_⟩
  obtain ⟨e0, e1, e2⟩ := idx1_4 ⟨16 * (i 0).val + 15, by omega⟩
  rw [mem_blk1_4]
  intro a
  match a with
  | ⟨0, _⟩ =>
    show win1_4.index _ (0 : Fin 3) * 1 ≤ (i 0).val ∧ (i 0).val < win1_4.index _ (0 : Fin 3) * 1 + 1
    rw [e0]; show (16 * (i 0).val + 15) / 16 * 1 ≤ (i 0).val ∧ (i 0).val < (16 * (i 0).val + 15) / 16 * 1 + 1; omega
  | ⟨1, _⟩ =>
    show win1_4.index _ (1 : Fin 3) * 1 ≤ (i 1).val ∧ (i 1).val < win1_4.index _ (1 : Fin 3) * 1 + 1
    rw [e1]; omega
  | ⟨2, _⟩ =>
    show win1_4.index _ (2 : Fin 3) * 1 ≤ (i 2).val ∧ (i 2).val < win1_4.index _ (2 : Fin 3) * 1 + 1
    rw [e2]; omega

end

/-- THE SECOND CALL'S OUTPUT ARRAY after the run, whatever buffer contents `V` the call is entered from. -/
theorem arrAt1_4 (V : (c : Dev nD) → (b : Ref sig .tc) → Buf (Elt Ideal) ((c : Thread nD τ).loc b)) (c : Dev nD) :
    (dat1 (F := Ideal) V c).arrAt 4 cfg1.N = PArrK (V c main_v0) (V c main_arg1) (V c main_v2) (V c main_v1) :=
  (dat1 (F := Ideal) V c).arrAt_eq_of_cover 4 (PArrK (V c main_v0) (V c main_arg1) (V c main_v2) (V c main_v1))
    (fun t hf => flushed1_4_eq V c t hf) cover1_4

end Cert.KernelIdeal.Run

end
-- ==== Proof.KVal.lean ====
/-
  The idealized kernel's result as a function of the launch memory, over the extended reals. The first host stretch
  transposes the grid centres to [8, 3, 262144] and flattens the heatmaps to [8, 23, 262144]; the first call leaves
  the per-joint sums of exp(y) over the grid; the second call, reading those, leaves the per-batch sums of squared
  errors; the last host stretch adds the 8 partial sums to zero, divides by 8 and multiplies by 1. Index by index
  this is `lossK` of the keypoints, the flattened heatmaps and the grid centres.
-/
import proofs.«107451_j57226144252798_1_alg».proof.Proof.Run
import proofs.«107451_j57226144252798_1_alg».proof.Proof.ValS
import proofs.«107451_j57226144252798_1_alg».proof.Proof.ValP
import Idealize.ShloMosaic.Lib.ValueLayout
import Idealize.ShloMosaic.Lib.StableHlo.Run

set_option maxRecDepth 16384

noncomputable section

open scoped BigOperators

namespace Cert.KernelIdeal.Run

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.Loss

variable (m : (ℓ : Loc nD τ sig) → Buf (Elt Ideal) ℓ)

/-! ## What each call is entered from -/

/-- The transposed grid centres. -/
theorem V1_main_v0 (c : Dev nD) :
    (V1 m c main_v0 : S8x3x262144.Idx → EReal)
      = transpose S8x3x262144 [0, 2, 1] (m ((c : Thread nD τ).loc main_arg3)) Facts₀.transposes_S8x262144x3_S8x3x262144_0_2_1 := by
  show StableHlo.after hostOps0 (fun b => m (c, b)) (Proc.devRef .tc main_v0) = _
  after_results; all_goals rfl

/-- The flattened heatmaps. -/
theorem V1_main_v1 (c : Dev nD) :
    (V1 m c main_v1 : S8x23x262144.Idx → EReal)
      = shapeCast S8x23x262144 (m ((c : Thread nD τ).loc main_arg2)) Facts₀.shapeCasts_S8x23x64x64x64_S8x23x262144 := by
  show StableHlo.after hostOps0 (fun b => m (c, b)) (Proc.devRef .tc main_v1) = _
  after_results; all_goals rfl

/-- The keypoints are untouched by the first stretch. -/
theorem V1_main_arg1 (c : Dev nD) : V1 m c main_arg1 = m ((c : Thread nD τ).loc main_arg1) :=
  Gen.V1_of m c main_arg1 (by decide)

theorem V2_main_v0 (c : Dev nD) : V2 m c main_v0 = V1 m c main_v0 :=
  (W2_arr m c 0).trans (((dat0 (V1 m) c).arrAt_in 0 rfl _).trans (A_eq0 (V1 m) c 0))
theorem V2_main_arg1 (c : Dev nD) : V2 m c main_arg1 = V1 m c main_arg1 :=
  (W2_arr m c 1).trans (((dat0 (V1 m) c).arrAt_in 1 rfl _).trans (A_eq0 (V1 m) c 1))
theorem V2_main_v1 (c : Dev nD) : V2 m c main_v1 = V1 m c main_v1 :=
  W2_of_ne m c main_v1 (by decide)
/-- The first call's output: the per-joint sums. -/
theorem V2_main_v2 (c : Dev nD) : V2 m c main_v2 = SArr (V1 m c main_v0) (V1 m c main_arg1) :=
  (W2_arr m c 2).trans (arrAt0_2 (V1 m) c)
/-- The second call's output: the per-batch partial losses. -/
theorem V3_main_v3 (c : Dev nD) :
    V3 m c main_v3 = PArrK (V1 m c main_v0) (V1 m c main_arg1) (SArr (V1 m c main_v0) (V1 m c main_arg1)) (V1 m c main_v1) := by
  refine ((W3_arr m c 4).trans (arrAt1_4 (V2 m) c)).trans ?_
  rw [V2_main_v0, V2_main_arg1, V2_main_v2, V2_main_v1]

/-! ## The last host stretch -/

/-- The result buffer after the last stretch, as the three operations' term of the partial losses. -/
theorem W4_main_v6 (c : Dev nD) :
    (W4 m c (Proc.devRef .tc main_v6) : S_.Idx → EReal)
      = mulf (constant (F := Ideal) S_ .f32 0x3F800000#32)
          (Host.divf (Host.reduceAdd (V3 m c main_v3) (constant (F := Ideal) S_ .f32 0x00000000#32) Facts₀.reducesTo_S8x1x1_S_d0_1_2 Facts₀.h_S_)
            (constant (F := Ideal) S_ .f32 0x41000000#32)) := by
  show StableHlo.after hostOps2 (W3 m c) (Proc.devRef .tc main_v6) = _
  after_results; all_goals rfl

/-! ## Index by index -/

/-- The transposed grid centre's coordinate. -/
theorem gt_apply (c : Dev nD) (b : Fin 8) (k : Fin 3) (n : Fin 262144) :
    V1 m c main_v0 (ix3 b k n) = m ((c : Thread nD τ).loc main_arg3) (ix3 b n k) := by
  have h := congrFun (V1_main_v0 m c) (ix3 b k n)
  exact h.trans (transpose_ix3_021_apply _ _ b k n)

/-- The flattened heatmap's entry: row-major position (h*64 + w)*64 + d of the voxel. -/
theorem hflat_apply (c : Dev nD) (i : S8x23x262144.Idx) :
    V1 m c main_v1 i = flatH (m ((c : Thread nD τ).loc main_arg2)) i := by
  refine (congrFun (V1_main_v1 m c) i).trans ?_
  unfold flatH
  refine shapeCast_apply _ _ _ _ ?_
  show ((⟨5, ![8, 23, 64, 64, 64]⟩ : Shape).rowMajor _).val = ((⟨3, ![8, 23, 262144]⟩ : Shape).rowMajor i).val
  rw [Shape.rowMajor_val_five, Shape.rowMajor_val_three]
  have h2 : (i 2).val < 262144 := (i 2).isLt
  show ((((i 0).val * 23 + (i 1).val) * 64 + (i 2).val / 4096) * 64 + (i 2).val / 64 % 64) * 64 + (i 2).val % 64
    = ((i 0).val * 23 + (i 1).val) * 262144 + (i 2).val
  omega

/-- A sum over the rank-3 indices of extents (8, 1, 1) is the sum over the first coordinate. -/
theorem sum_S8x1x1 (f : (⟨3, ![8, 1, 1]⟩ : Shape).Idx → EReal) : ∑ i, f i = ∑ b : Fin 8, f (ix3 b 0 0) := by
  refine (Fintype.sum_equiv (⟨fun i => i 0, fun b => ix3 b 0 0, fun i => ?_, fun b => rfl⟩ : (⟨3, ![8, 1, 1]⟩ : Shape).Idx ≃ Fin 8) _ _ fun i => ?_)
  · funext a; match a with
    | ⟨0, _⟩ => rfl
    | ⟨1, _⟩ => exact (Subsingleton.elim (α := Fin 1) _ _)
    | ⟨2, _⟩ => exact (Subsingleton.elim (α := Fin 1) _ _)
  · show f i = f (ix3 (i 0) 0 0)
    congr 1; funext a; match a with
    | ⟨0, _⟩ => rfl
    | ⟨1, _⟩ => exact (Subsingleton.elim (α := Fin 1) _ _)
    | ⟨2, _⟩ => exact (Subsingleton.elim (α := Fin 1) _ _)

/-- THE KERNEL'S VALUE: the result buffer ends at `lossK` of the launch memory's keypoints, flattened heatmaps and grid centres. -/
theorem kernel_value (c : Dev nD) :
    (W4 m c (Proc.devRef .tc main_v6) : S_.Idx → EReal)
      = fun _ => lossK (m ((c : Thread nD τ).loc main_arg1)) (flatH (m ((c : Thread nD τ).loc main_arg2))) (m ((c : Thread nD τ).loc main_arg3)) := by
  rw [W4_main_v6, V3_main_v3]
  funext i
  show Ideal.ofBits .f32 0x3F800000#32 * Ideal.div (Ideal.hostReduceAdd Facts₀.reducesTo_S8x1x1_S_d0_1_2 _ (Ideal.ofBits .f32 0x00000000#32) i) (Ideal.ofBits .f32 0x41000000#32) = _
  rw [Ideal.hostReduceAdd_total Facts₀.reducesTo_S8x1x1_S_d0_1_2 (fun b => b.elim0), sum_S8x1x1]
  unfold lossK partK sqK SK PArrK SArr
  refine congrArg (fun s => k1 * Ideal.div (k0 + s) k8) (Finset.sum_congr rfl fun b _ => Finset.sum_congr rfl fun j _ => Finset.sum_congr rfl fun n _ => ?_)
  have hp : (fun k : Fin 3 => V1 m c main_arg1 (ix3 b k j)) = pOf (m ((c : Thread nD τ).loc main_arg1)) b j :=
    funext fun k => congrFun (V1_main_arg1 m c) (ix3 b k j)
  have hg : ∀ n' : Fin 262144, (fun k : Fin 3 => V1 m c main_v0 (ix3 b k n')) = gOf (m ((c : Thread nD τ).loc main_arg3)) b n' :=
    fun n' => funext fun k => gt_apply m c b k n'
  have he : ∀ n' : Fin 262144, eK (fun k : Fin 3 => V1 m c main_v0 (ix3 b k n')) (fun k : Fin 3 => V1 m c main_arg1 (ix3 b k j))
      = eK (gOf (m ((c : Thread nD τ).loc main_arg3)) b n') (pOf (m ((c : Thread nD τ).loc main_arg1)) b j) :=
    fun n' => congrArg₂ eK (hg n') hp
  have hS : (∑ n' : Fin 262144, eK (fun k : Fin 3 => V1 m c main_v0 (ix3 b k n')) (fun k : Fin 3 => V1 m c main_arg1 (ix3 b k j)))
      = ∑ n' : Fin 262144, eK (gOf (m ((c : Thread nD τ).loc main_arg3)) b n') (pOf (m ((c : Thread nD τ).loc main_arg1)) b j) :=
    Finset.sum_congr rfl fun n' _ => he n'
  have hh : V1 m c main_v1 (ix3 b j n) = flatH (m ((c : Thread nD τ).loc main_arg2)) (ix3 b j n) := hflat_apply m c (ix3 b j n)
  have hX := congrArg₂ (fun x y : EReal => x - y) (congrArg₂ Ideal.div (he n) hS) hh
  exact congrArg₂ (fun x y : EReal => x * y) hX hX

end Cert.KernelIdeal.Run

end
-- ==== Proof.RefRead.lean ====
/-
  The reference's run read back, over the extended reals: its one result is `lossR` of the predicted keypoints,
  the heatmaps and the grid centres — the squared distances by a sum over the coordinate, y = exp(-d2) / 0.5, the
  softmax over the grid with the maximum subtracted, the squared error summed over every voxel, divided by 8.
-/
import proofs.«107451_j57226144252798_1_alg».proof.Proof.Gen.ReferenceIdeal.Run
import proofs.«107451_j57226144252798_1_alg».proof.Proof.Gen.ReferenceIdeal.Read
import proofs.«107451_j57226144252798_1_alg».proof.Proof.Spec
import Idealize.ShloMosaic.PureOps.Ideal.Laws
import Idealize.ShloMosaic.Lib.ValueIdx
import Idealize.ShloMosaic.Lib.Pipeline.Value

set_option maxRecDepth 16384

noncomputable section

open scoped BigOperators

namespace Cert.ReferenceIdeal.RefValue

open Cert.ReferenceIdeal Cert.ReferenceIdeal.Gen Cert.ReferenceIdeal.Read
open Idealize.ShloMosaic Idealize.ShloMosaic.TcCoe Idealize.ShloMosaic.ValueIdx Idealize.SL.Sem
open Cert.Loss

/-- The squared distance at (b, j, n): the grid centre's squared norm and the joint's, each a sum over the coordinate
    started from the zero word, minus twice the contraction over the coordinate. -/
theorem d2_at (x1 : (⟨S8x3x23, .f32⟩ : BufTy).Contents (Elt Ideal)) (x3 : (⟨S8x262144x3, .f32⟩ : BufTy).Contents (Elt Ideal))
    (b : Fin 8) (j : Fin 23) (n : Fin 262144) :
    val_main_v12 (F := Ideal) x1 x3 (ix3 b j n) = d2R (gOf x3 b n) (pOf x1 b j) := by
  have eg : ∀ k : Fin 3, idx_main_v1 (idx_main_v5 (idx_main_v7 (ix3 b j n))) k = ix3 b n k := fun k =>
    funext fun a => Fin.ext (by match a with | ⟨0, _⟩ => rfl | ⟨1, _⟩ => rfl | ⟨2, _⟩ => rfl)
  have ep : ∀ k : Fin 3, idx_main_v3 (idx_main_v6 (idx_main_v8 (ix3 b j n))) k = ix3 b k j := fun k =>
    funext fun a => Fin.ext (by match a with | ⟨0, _⟩ => rfl | ⟨1, _⟩ => rfl | ⟨2, _⟩ => rfl)
  have el : ∀ k : Fin 3, lidx_main_v4 (ix3 b j n) k = ix3 b k j := fun k =>
    funext fun a => Fin.ext (by match a with | ⟨0, _⟩ => rfl | ⟨1, _⟩ => rfl | ⟨2, _⟩ => rfl)
  have er : ∀ k : Fin 3, ridx_main_v4 (ix3 b j n) k = ix3 b n k := fun k =>
    funext fun a => Fin.ext (by match a with | ⟨0, _⟩ => rfl | ⟨1, _⟩ => rfl | ⟨2, _⟩ => rfl)
  rw [val_main_v12_apply, val_main_v9_apply, val_main_v7_apply, val_main_v5_apply, val_main_v1_apply, val_main_v8_apply,
    val_main_v6_apply, val_main_v3_apply, val_main_v11_apply, val_main_v10_apply, val_main_v4_apply]
  simp only [val_main_v0_apply, val_main_v2_apply, val_main_cst_apply, val_main_cst_0_apply, val_main_cst_1_apply, eg, ep, el, er,
    Ideal.mulf_def, Ideal.subf_def, Ideal.addf_def, Ideal.ofBits_def]
  rfl

/-- y at (b, j, n): the negated squared distance, exponentiated, divided by the one-half word. -/
theorem y_at (x1 : (⟨S8x3x23, .f32⟩ : BufTy).Contents (Elt Ideal)) (x3 : (⟨S8x262144x3, .f32⟩ : BufTy).Contents (Elt Ideal))
    (b : Fin 8) (j : Fin 23) (n : Fin 262144) :
    val_main_v16 (F := Ideal) x1 x3 (ix3 b j n) = yR (gOf x3 b n) (pOf x1 b j) := by
  rw [val_main_v16_apply, val_main_v14_apply, val_main_v13_apply, d2_at, val_main_v15_apply, val_main_cst_2_apply]
  rfl

/-- The reduced index (b, j) with the grid position n put back on the last axis is (b, j, n). -/
theorem lift_bj (h : S8x23x262144.Reduces [2] S8x23) (b : Fin 8) (j : Fin 23) (n : Fin 262144) :
    h.lift (ix2 b j) n = ix3 b j n :=
  funext fun a => Fin.ext (by match a with | ⟨0, _⟩ => rfl | ⟨1, _⟩ => rfl | ⟨2, _⟩ => rfl)

/-- The maximum of y over the grid at (b, j): the fold of max over n from the minus-infinity word, then once more
    max against that word. -/
theorem m_at (x1 : (⟨S8x3x23, .f32⟩ : BufTy).Contents (Elt Ideal)) (x3 : (⟨S8x262144x3, .f32⟩ : BufTy).Contents (Elt Ideal))
    (b : Fin 8) (j : Fin 23) :
    val_main_v19 (F := Ideal) x1 x3 (ix2 b j) = mR x1 x3 b j := by
  have h : S8x23x262144.Reduces [2] S8x23 := by decide
  have hf : (val_main_v16 (F := Ideal) x1 x3 ∘ h.lift (ix2 b j)) = fun n : Fin 262144 => yR (gOf x3 b n) (pOf x1 b j) :=
    funext fun n => (congrArg (val_main_v16 (F := Ideal) x1 x3) (lift_bj h b j n)).trans (y_at x1 x3 b j n)
  rw [val_main_v19_apply, val_main_v18_apply, val_main_cst_4_apply]
  unfold val_main_v17
  rw [Host.reduce_eq_fold_single FloatOps.maximumf _ _ reducesTo_S8x23x262144_S8x23_d2 h h_S_, hf]
  rfl

/-- The shifted exponential at (b, j, n): y minus the maximum over the grid, exponentiated. -/
theorem u_at (x1 : (⟨S8x3x23, .f32⟩ : BufTy).Contents (Elt Ideal)) (x3 : (⟨S8x262144x3, .f32⟩ : BufTy).Contents (Elt Ideal))
    (b : Fin 8) (j : Fin 23) (n : Fin 262144) :
    val_main_v23 (F := Ideal) x1 x3 (ix3 b j n) = uR x1 x3 b j n := by
  have em : idx_main_v20 (idx_main_v21 (ix3 b j n)) = ix2 b j :=
    funext fun a => Fin.ext (by match a with | ⟨0, _⟩ => rfl | ⟨1, _⟩ => rfl)
  rw [val_main_v23_apply, val_main_v22_apply, y_at, val_main_v21_apply, val_main_v20_apply, em, m_at]
  rfl

/-- The normaliser at (b, j): the zero word plus the sum over the grid of the shifted exponentials. -/
theorem Z_at (x1 : (⟨S8x3x23, .f32⟩ : BufTy).Contents (Elt Ideal)) (x3 : (⟨S8x262144x3, .f32⟩ : BufTy).Contents (Elt Ideal))
    (b : Fin 8) (j : Fin 23) :
    val_main_v24 (F := Ideal) x1 x3 (ix2 b j) = ZR x1 x3 b j := by
  have en : ∀ n : Fin 262144, idx_main_v24 (ix2 b j) n = ix3 b j n := fun n =>
    funext fun a => Fin.ext (by match a with | ⟨0, _⟩ => rfl | ⟨1, _⟩ => rfl | ⟨2, _⟩ => rfl)
  rw [val_main_v24_apply, val_main_cst_5_apply]
  refine congrArg (_ + ·) (Finset.sum_congr rfl fun n _ => ?_)
  rw [en, u_at]

/-- The softmax at (b, j, n): the shifted exponential divided by the normaliser. -/
theorem t_at (x1 : (⟨S8x3x23, .f32⟩ : BufTy).Contents (Elt Ideal)) (x3 : (⟨S8x262144x3, .f32⟩ : BufTy).Contents (Elt Ideal))
    (b : Fin 8) (j : Fin 23) (n : Fin 262144) :
    val_main_v27 (F := Ideal) x1 x3 (ix3 b j n) = Ideal.div (uR x1 x3 b j n) (ZR x1 x3 b j) := by
  have ez : idx_main_v25 (idx_main_v26 (ix3 b j n)) = ix2 b j :=
    funext fun a => Fin.ext (by match a with | ⟨0, _⟩ => rfl | ⟨1, _⟩ => rfl)
  rw [val_main_v27_apply, u_at, val_main_v26_apply, val_main_v25_apply, ez, Z_at]
  rfl

/-- The reshape reads voxel (h, w, d) of heatmap (b, j) at the flat grid position (h * 64 + w) * 64 + d. -/
theorem reshape_idx (b : Fin 8) (j : Fin 23) (h w d : Fin 64) :
    idx_main_v28 (ix5 b j h w d) = ix3 b j (flat h w d) := by
  have hb : b.val < 8 := b.isLt
  have hj : j.val < 23 := j.isLt
  have hh : h.val < 64 := h.isLt
  have hw : w.val < 64 := w.isLt
  have hd : d.val < 64 := d.isLt
  refine funext fun a => Fin.ext ?_
  match a with
  | ⟨0, _⟩ =>
    show ((((b.val * 23 + j.val) * 64 + h.val) * 64 + w.val) * 64 + d.val) / 6029312 = b.val
    omega
  | ⟨1, _⟩ =>
    show ((((b.val * 23 + j.val) * 64 + h.val) * 64 + w.val) * 64 + d.val) / 262144 % 23 = j.val
    omega
  | ⟨2, _⟩ =>
    show ((((b.val * 23 + j.val) * 64 + h.val) * 64 + w.val) * 64 + d.val) % 262144 = (h.val * 64 + w.val) * 64 + d.val
    omega

/-- The squared error at a voxel: the softmax at its flat position minus the heatmap, squared. -/
theorem sq_at (x1 : (⟨S8x3x23, .f32⟩ : BufTy).Contents (Elt Ideal)) (x2 : (⟨S8x23x64x64x64, .f32⟩ : BufTy).Contents (Elt Ideal))
    (x3 : (⟨S8x262144x3, .f32⟩ : BufTy).Contents (Elt Ideal)) (i : S8x23x64x64x64.Idx) :
    val_main_v30 (F := Ideal) x1 x2 x3 i = sqR x1 x2 x3 i := by
  obtain ⟨b, j, h, w, d, rfl⟩ : ∃ (b : Fin 8) (j : Fin 23) (h w d : Fin 64), i = ix5 b j h w d :=
    ⟨i 0, i 1, i 2, i 3, i 4, eq_ix5 i⟩
  rw [val_main_v30_apply, val_main_v29_apply, val_main_v28_apply, reshape_idx, t_at]
  rfl

/-- The reference's last stage, as a function of its three live arguments, is the closed form. -/
theorem val_eq_lossR (x1 : (⟨S8x3x23, .f32⟩ : BufTy).Contents (Elt Ideal)) (x2 : (⟨S8x23x64x64x64, .f32⟩ : BufTy).Contents (Elt Ideal))
    (x3 : (⟨S8x262144x3, .f32⟩ : BufTy).Contents (Elt Ideal)) :
    val_main_v33 (F := Ideal) x1 x2 x3 = fun _ => lossR x1 x2 x3 := by
  funext i
  rw [val_main_v33_apply, val_main_v32_apply, val_main_v31_apply, val_main_cst_8_apply, val_main_cst_7_apply, val_main_cst_6_apply]
  have hs : (∑ j : S8x23x64x64x64.Idx, val_main_v30 (F := Ideal) x1 x2 x3 j) = ∑ j : S8x23x64x64x64.Idx, sqR x1 x2 x3 j :=
    Finset.sum_congr rfl fun j _ => sq_at x1 x2 x3 j
  rw [hs]
  simp only [Ideal.mulf_def, Ideal.hostDivf_def, Ideal.addf_def, Ideal.ofBits_def]
  unfold lossR
  rfl

/-- So the run's result term is the closed form of the launch memory's arguments. -/
theorem res_eq_lossR (m : (ℓ : Loc nD τ sig) → Buf (Elt Ideal) ℓ) (c : Dev nD) :
    Cert.ReferenceIdeal.Value.res_main_v33 (F := Ideal) m c
      = fun _ => lossR (m ((c.tc : Thread nD τ).loc main_arg1)) (m ((c.tc : Thread nD τ).loc main_arg2)) (m ((c.tc : Thread nD τ).loc main_arg3)) := by
  exact (val_main_v33_eq (F := Ideal) m c).trans (val_eq_lossR _ _ _)

end Cert.ReferenceIdeal.RefValue

end
-- ==== Proof.Algebra.lean ====
/-
  The algebra that joins the two programs, over the extended reals with every input a real number: the kernel's
  exp(y) normalised by its plain sum equals the reference's softmax (which subtracts the maximum first), because
  exp(y - m) = exp(y) * exp(-m) with exp(-m) a positive real that cancels; 2 * x = x / (1/2); the cross term's three
  products are the sum over the coordinate; and the loss's total is one sum over all voxels however it is grouped.
-/
import proofs.«107451_j57226144252798_1_alg».proof.Proof.Spec
import Idealize.ShloMosaic.PureOps.Ideal.Laws

noncomputable section

open scoped BigOperators

namespace Cert.Loss

open Idealize.ShloMosaic Idealize.ShloMosaic.ValueIdx

/-! ## The literals -/

/-- The six words denote 0, 2, 1/2, 8, 1 and minus infinity. -/
theorem k0_eq : k0 = 0 := Ideal.ofBits_zero_f32
theorem k2_eq : k2 = ((2 : ℝ) : EReal) := by
  simp [Ideal.ofBits, Ideal.ieee, -EReal.coe_mul]; norm_num
theorem kh_eq : kh = ((1 / 2 : ℝ) : EReal) := by
  simp [Ideal.ofBits, Ideal.ieee, -EReal.coe_mul]; norm_num
theorem k8_eq : k8 = ((8 : ℝ) : EReal) := by
  simp [Ideal.ofBits, Ideal.ieee, -EReal.coe_mul]; norm_num
theorem k1_eq : k1 = 1 := by
  simp [Ideal.ofBits, Ideal.ieee, -EReal.coe_mul]; norm_num
theorem kninf_eq : kninf = ⊥ := by
  simp [Ideal.ofBits, Ideal.ieee]

/-! ## Extended reals that are real numbers -/

/-- An extended real that is a real number. -/
def IsR (x : EReal) : Prop := ∃ r : ℝ, x = (r : EReal)

theorem IsR.zero : IsR 0 := ⟨0, EReal.coe_zero.symm⟩
theorem IsR.add {x y : EReal} (hx : IsR x) (hy : IsR y) : IsR (x + y) := by
  obtain ⟨a, rfl⟩ := hx; obtain ⟨b, rfl⟩ := hy; exact ⟨a + b, (EReal.coe_add a b).symm⟩
theorem IsR.sub {x y : EReal} (hx : IsR x) (hy : IsR y) : IsR (x - y) := by
  obtain ⟨a, rfl⟩ := hx; obtain ⟨b, rfl⟩ := hy; exact ⟨a - b, (EReal.coe_sub a b).symm⟩
theorem IsR.mul {x y : EReal} (hx : IsR x) (hy : IsR y) : IsR (x * y) := by
  obtain ⟨a, rfl⟩ := hx; obtain ⟨b, rfl⟩ := hy; exact ⟨a * b, (EReal.coe_mul a b).symm⟩
theorem IsR.neg {x : EReal} (hx : IsR x) : IsR (-x) := by
  obtain ⟨a, rfl⟩ := hx; exact ⟨-a, (EReal.coe_neg a).symm⟩
theorem IsR.exp {x : EReal} (hx : IsR x) : IsR (Ideal.exp x) := by
  obtain ⟨a, rfl⟩ := hx; exact ⟨Real.exp a, rfl⟩
/-- A finite sum of reals is real. -/
theorem IsR.sum {ι : Type*} (s : Finset ι) (f : ι → EReal) (h : ∀ i ∈ s, IsR (f i)) : IsR (∑ i ∈ s, f i) := by
  classical
  induction s using Finset.induction_on with
  | empty => simpa using IsR.zero
  | insert a s ha ih =>
    rw [Finset.sum_insert ha]
    exact (h a (Finset.mem_insert_self a s)).add (ih fun i hi => h i (Finset.mem_insert_of_mem hi))

/-- The coercion of a finite real sum is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The fold of max from minus infinity over a nonempty finite set of reals is a real. -/
theorem fold_max_real {ι : Type*} (s : Finset ι) (hs : s.Nonempty) (f : ι → EReal) (hf : ∀ i, IsR (f i)) :
    IsR (s.fold max ⊥ f) := by
  induction hs using Finset.Nonempty.cons_induction with
  | singleton a => rw [Finset.fold_singleton, max_eq_left bot_le]; exact hf a
  | cons a s ha hs ih =>
    rw [Finset.fold_cons]
    obtain ⟨x, hx⟩ := hf a; obtain ⟨r, hr⟩ := ih
    rw [hx, hr]; exact ⟨max x r, (EReal.coe_strictMono.monotone.map_max (a := x) (b := r)).symm⟩

/-! ## The two programs' y agree; it is real -/

/-- The squared distances agree: 0 + a = a, and the three products in order are the sum over the coordinate. -/
theorem d2K_eq (g p : Fin 3 → EReal) : d2K g p = d2R g p := by
  unfold d2K d2R
  rw [k0_eq, zero_add, zero_add, Fin.sum_univ_three (fun c => p c * g c)]

/-- exp(y) in the kernel is exp of the reference's y: 0 - d = -d, and 2 * x = x / (1/2). -/
theorem eK_eq (g p : Fin 3 → EReal) : eK g p = Ideal.exp (yR g p) := by
  unfold eK yR
  have h2 : (1 / (1 / 2) : ℝ) = 2 := by norm_num
  rw [d2K_eq, k0_eq, zero_sub, kh_eq, Ideal.div_coe (by norm_num : (1 / 2 : ℝ) ≠ 0), h2, k2_eq, mul_comm]

/-- On real coordinates y is a real. -/
theorem yR_real (g p : Fin 3 → EReal) (hg : ∀ c, IsR (g c)) (hp : ∀ c, IsR (p c)) : IsR (yR g p) := by
  unfold yR d2R
  rw [kh_eq, Ideal.div_coe (by norm_num : (1 / 2 : ℝ) ≠ 0), k0_eq, k2_eq]
  exact IsR.mul (IsR.exp (IsR.neg (IsR.sub
    (IsR.add (IsR.add IsR.zero (IsR.sum _ _ fun c _ => (hg c).mul (hg c)))
      (IsR.add IsR.zero (IsR.sum _ _ fun c _ => (hp c).mul (hp c))))
    (IsR.mul ⟨2, rfl⟩ (IsR.sum _ _ fun c _ => (hp c).mul (hg c)))))) ⟨_, rfl⟩

/-! ## The softmax does not see the shift -/

/-- Over a nonempty finite index set and real y, m: exp(y n) / Σ exp(y k) = exp(y n - m) / (0 + Σ exp(y k - m)), since
    exp(y - m) = exp(y) / exp(m) and the positive real exp(m) cancels between numerator and denominator. -/
theorem softmax_shift {ι : Type*} [Fintype ι] [Nonempty ι] (y : ι → ℝ) (m : ℝ) (n : ι) :
    Ideal.div (Ideal.exp (y n : EReal)) (∑ k, Ideal.exp (y k : EReal))
      = Ideal.div (Ideal.exp ((y n : EReal) - (m : EReal))) (0 + ∑ k, Ideal.exp ((y k : EReal) - (m : EReal))) := by
  have hS : 0 < ∑ k, Real.exp (y k) := Finset.sum_pos (fun k _ => Real.exp_pos _) Finset.univ_nonempty
  have hS' : 0 < ∑ k, Real.exp (y k - m) := Finset.sum_pos (fun k _ => Real.exp_pos _) Finset.univ_nonempty
  simp only [← EReal.coe_sub, Ideal.exp_coe, zero_add, ← coe_sum]
  rw [Ideal.div_coe hS.ne', Ideal.div_coe hS'.ne', ← EReal.coe_mul, ← EReal.coe_mul]
  congr 1
  have hsum : ∑ k, Real.exp (y k - m) = (∑ k, Real.exp (y k)) / Real.exp m := by
    rw [Finset.sum_div]; exact Finset.sum_congr rfl fun k _ => Real.exp_sub _ _
  rw [hsum, Real.exp_sub]
  have hm := Real.exp_pos m
  field_simp

/-- The kernel's normalised exp(y) is the reference's softmax, at every (b, j, n), on real inputs. -/
theorem soft_eq (P : PArr) (G : GArr) (hP : ∀ i, IsR (P i)) (hG : ∀ i, IsR (G i)) (b : Fin 8) (j : Fin 23)
    (n : Fin 262144) :
    Ideal.div (eK (gOf G b n) (pOf P b j)) (SK P G b j) = Ideal.div (uR P G b j n) (ZR P G b j) := by
  have hy : ∀ k : Fin 262144, IsR (yR (gOf G b k) (pOf P b j)) :=
    fun k => yR_real _ _ (fun c => hG _) (fun c => hP _)
  choose y hy using hy
  have hm : IsR (mR P G b j) := by
    unfold mR
    rw [kninf_eq, max_eq_right bot_le]
    exact fold_max_real _ Finset.univ_nonempty _ (fun k => ⟨y k, hy k⟩)
  obtain ⟨m, hm⟩ := hm
  unfold SK ZR uR
  simp only [eK_eq, hy, hm, k0_eq]
  exact softmax_shift y m n

/-! ## The voxels, flat and by coordinates -/

/-- The flat position of the voxel (n / 4096, n / 64 % 64, n % 64) is n. -/
theorem flat_unflat (n : Fin 262144) (h0 : n.val / 4096 < 64) (h1 : n.val / 64 % 64 < 64) (h2 : n.val % 64 < 64) :
    flat ⟨n.val / 4096, h0⟩ ⟨n.val / 64 % 64, h1⟩ ⟨n.val % 64, h2⟩ = n := by
  apply Fin.ext
  show (n.val / 4096 * 64 + n.val / 64 % 64) * 64 + n.val % 64 = n.val
  omega

/-- The rank-5 index set [8, 23, 64, 64, 64] is (batch, joint, flat voxel): (h, w, d) ↦ (h * 64 + w) * 64 + d is a
    bijection of the 64^3 grid onto the flat positions, with inverse n ↦ (n / 4096, n / 64 % 64, n % 64). -/
def voxEquiv : Fin 8 × Fin 23 × Fin 262144 ≃ (⟨5, ![8, 23, 64, 64, 64]⟩ : Shape).Idx where
  toFun x := ix5 x.1 x.2.1 ⟨x.2.2.val / 4096, by have h : x.2.2.val < 262144 := x.2.2.isLt; omega⟩
    ⟨x.2.2.val / 64 % 64, Nat.mod_lt _ (by decide)⟩ ⟨x.2.2.val % 64, Nat.mod_lt _ (by decide)⟩
  invFun i := (i 0, i 1, flat (i 2) (i 3) (i 4))
  left_inv x := by
    obtain ⟨b, j, n⟩ := x
    exact Prod.ext rfl (Prod.ext rfl (flat_unflat n _ _ _))
  right_inv i := by
    have h2 : (i 2).val < 64 := (i 2).isLt
    have h3 : (i 3).val < 64 := (i 3).isLt
    have h4 : (i 4).val < 64 := (i 4).isLt
    funext a
    match a with
    | ⟨0, _⟩ => rfl
    | ⟨1, _⟩ => rfl
    | ⟨2, _⟩ =>
      apply Fin.ext
      show (((i 2).val * 64 + (i 3).val) * 64 + (i 4).val) / 4096 = (i 2).val
      omega
    | ⟨3, _⟩ =>
      apply Fin.ext
      show (((i 2).val * 64 + (i 3).val) * 64 + (i 4).val) / 64 % 64 = (i 3).val
      omega
    | ⟨4, _⟩ =>
      apply Fin.ext
      show (((i 2).val * 64 + (i 3).val) * 64 + (i 4).val) % 64 = (i 4).val
      omega

/-- So a sum over all voxels of all heatmaps is the triple sum over batch, joint and flat position. -/
theorem sum_vox (f : (⟨5, ![8, 23, 64, 64, 64]⟩ : Shape).Idx → EReal) :
    ∑ i, f i = ∑ b : Fin 8, ∑ j : Fin 23, ∑ n : Fin 262144, f (voxEquiv (b, j, n)) := by
  rw [← Equiv.sum_comp voxEquiv f, Fintype.sum_prod_type]
  exact Finset.sum_congr rfl fun b _ => Fintype.sum_prod_type _

/-- The squared errors agree voxel by voxel: the flattened heatmap read at n is the heatmap at n's voxel, the voxel's
    flat position is n, and the two normalised exponentials are equal. -/
theorem sq_eq (P : PArr) (H : HArr) (G : GArr) (hP : ∀ i, IsR (P i)) (hG : ∀ i, IsR (G i)) (b : Fin 8) (j : Fin 23)
    (n : Fin 262144) : sqR P H G (voxEquiv (b, j, n)) = sqK P (flatH H) G b j n := by
  have hs := soft_eq P G hP hG b j n
  have hf : flat (voxEquiv (b, j, n) 2) (voxEquiv (b, j, n) 3) (voxEquiv (b, j, n) 4) = n := flat_unflat n _ _ _
  unfold sqR sqK
  rw [hf, hs]
  rfl

/-- THE LAW: on real inputs the kernel's loss (heatmaps flattened) is the reference's. -/
theorem loss_eq (P : PArr) (H : HArr) (G : GArr)
    (hP : ∀ i, ∃ r : ℝ, P i = (r : EReal)) (hH : ∀ i, ∃ r : ℝ, H i = (r : EReal)) (hG : ∀ i, ∃ r : ℝ, G i = (r : EReal)) :
    lossK P (flatH H) G = lossR P H G := by
  have hsum : ∑ b : Fin 8, partK P (flatH H) G b = ∑ i, sqR P H G i := by
    rw [sum_vox]
    exact Finset.sum_congr rfl fun b _ => Finset.sum_congr rfl fun j _ => Finset.sum_congr rfl fun n _ =>
      (sq_eq P H G hP hG b j n).symm
  unfold lossK lossR
  rw [hsum]

end Cert.Loss

end
-- ==== Proof.Finite.lean ====
/-
  The precondition read back: when the finiteness predicate of the four inputs is all ones, every entry of the
  predicted keypoints, the heatmaps and the grid centres is a real number (|x| < +inf rules out both infinities).
-/
import proofs.«107451_j57226144252798_1_alg».proof.Proof.Gen.Pre_finite_inputs
import Idealize.ShloMosaic.PureOps.Ideal
import Idealize.ShloMosaic.Lib.ValueIdx
import Idealize.ShloMosaic.Lib.ReduceAll

noncomputable section

namespace Cert.Loss

open Idealize.ShloMosaic Idealize.ShloMosaic.ValueIdx
open Cert.Pre_finite_inputs

/-- The scalar shape has one index. -/
instance subsingleton_S_Idx : Subsingleton S_.Idx := ⟨fun a b => funext fun d => d.elim0⟩

/-- One entry: the pattern 0x7F800000 denotes +∞, and |x| = max x (-x) is +∞ at both infinities, so
    |x| < +∞ holding leaves only a real. -/
theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- One array: a conjunction over all indices of |x i| < +∞ that came out 1 had a 1 at every index, and a 1 at
    index i says x i is a real. -/
theorem real_of_all {s : Shape} {axes : List (Fin s.rank)} (x : FVec Ideal s .f32) (dims : Fin S_.rank → Fin s.rank)
    (hb : S_.BroadcastsInDim s dims) (hr : s.ReducesTo axes S_) (hu : 0 < S_.numel)
    (e : Host.reduce IntOp.andi
          (cmpf .olt (Host.absf x) (broadcastInDim s dims hb (constant (F := Ideal) S_ .f32 0x7F800000#32)))
          (constantI S_ 1 1#1) hr hu ValueIdx.ix0 = 1#1) (i : s.Idx) : ∃ r : ℝ, x i = (r : EReal) :=
  real_of_abs_lt_inf (x i) (Host.reduce_andi_all _ _ hr hu ValueIdx.ix0 e i)

/-- All ones means every entry of the last three inputs is real. -/
theorem finite_of_fn (a0 a1 : FVec Ideal S8x3x23 .f32) (a2 : FVec Ideal S8x23x64x64x64 .f32) (a3 : FVec Ideal S8x262144x3 .f32)
    (h : Cert.Pre_finite_inputs.fn (F := Ideal) a0 a1 a2 a3 = fun _ => 1#1) :
    (∀ i, ∃ r : ℝ, a1 i = (r : EReal)) ∧ (∀ i, ∃ r : ℝ, a2 i = (r : EReal)) ∧ (∀ i, ∃ r : ℝ, a3 i = (r : EReal)) := by
  -- the result at its one index: ((all0 ∧ all1) ∧ all2) ∧ all3 = 1
  have h0 := congrFun h ValueIdx.ix0
  dsimp only [fn, fn_part1] at h0
  obtain ⟨h012, h3⟩ := IntOp.andi_eq_one.1 h0
  obtain ⟨h01, h2⟩ := IntOp.andi_eq_one.1 h012
  obtain ⟨_, h1⟩ := IntOp.andi_eq_one.1 h01
  exact ⟨real_of_all a1 _ _ _ _ h1, real_of_all a2 _ _ _ _ h2, real_of_all a3 _ _ _ _ h3⟩

end Cert.Loss

end
-- ==== Proof.lean ====
/-
  The certificate of the Gaussian-heatmap regression loss: a Pallas kernel in two passes against its jnp reference.
  Pass 1 streams the grid centres tile by tile and accumulates, per batch and joint, S = sum_n exp(y) with
  y = 2 * exp(-|g - p|^2); pass 2 streams them again with the heatmaps and accumulates, per batch, the sum of
  (exp(y) / S - heat)^2; the host adds the 8 partial sums and divides by 8. The reference computes
  y = exp(-d2) / 0.5, the softmax of y over the grid with the maximum subtracted, and the same squared error.
  FRAMES: each program terminates, faults nowhere and leaves its arguments as launched — for the two kernel
  programs by running @main as host stretch, call, call, host stretch with the buffer contents named at each
  boundary (the running sums carried in scratch from grid point to grid point), for the reference by its run.
  PRESERVES: the idealization rewrote nothing. ALGEBRAIC: at the extended reals the kernel's result is
  `lossK` and the reference's `lossR` of the same arguments, and on finite inputs the two are equal: the softmax
  does not see the subtracted maximum, 2 x = x / (1/2), and a finite sum may be grouped by tiles.
-/
import proofs.«107451_j57226144252798_1_alg».proof.Defs
import proofs.«107451_j57226144252798_1_alg».proof.Proof.Gen.Kernel
import proofs.«107451_j57226144252798_1_alg».proof.Proof.Gen.KernelIdeal
import proofs.«107451_j57226144252798_1_alg».proof.Proof.Gen.ReferenceIdeal
import proofs.«107451_j57226144252798_1_alg».proof.Proof.Gen.Pre_finite_inputs
import proofs.«107451_j57226144252798_1_alg».proof.Proof.Gen.ReferenceIdeal.Run
import proofs.«107451_j57226144252798_1_alg».proof.Proof.KArgs
import proofs.«107451_j57226144252798_1_alg».proof.Proof.Args
import proofs.«107451_j57226144252798_1_alg».proof.Proof.KVal
import proofs.«107451_j57226144252798_1_alg».proof.Proof.RefRead
import proofs.«107451_j57226144252798_1_alg».proof.Proof.Algebra
import proofs.«107451_j57226144252798_1_alg».proof.Proof.Finite

noncomputable section

namespace Cert.Proof

open Idealize.ShloMosaic Idealize.ShloMosaic.TcCoe Idealize.SL.Sem

/-- The word-level kernel program runs and keeps its arguments. -/
theorem frame_k : Cert.frame_Kernel := fun m ρ _ =>
  (θ_run (Cert.Kernel.defs (F := Bits)) _ _).mono (fun r h c =>
    ⟨(h c _ (Cert.Kernel.Run.mem_uc Cert.Kernel.main_arg0 (by decide))).trans (Cert.Kernel.Run.W4_main_arg0 m c),
      (h c _ (Cert.Kernel.Run.mem_uc Cert.Kernel.main_arg1 (by decide))).trans (Cert.Kernel.Run.W4_main_arg1 m c),
      (h c _ (Cert.Kernel.Run.mem_uc Cert.Kernel.main_arg2 (by decide))).trans (Cert.Kernel.Run.W4_main_arg2 m c),
      (h c _ (Cert.Kernel.Run.mem_uc Cert.Kernel.main_arg3 (by decide))).trans (Cert.Kernel.Run.W4_main_arg3 m c)⟩)
    (Cert.Kernel.Run.run_all (F := Bits) m ρ)

/-- The idealized kernel program runs and keeps its arguments. -/
theorem frame_ki : Cert.frame_KernelIdeal := fun m ρ _ =>
  (θ_run (Cert.KernelIdeal.defs (F := Ideal)) _ _).mono (fun r h c =>
    ⟨(h c _ (Cert.KernelIdeal.Run.mem_uc Cert.KernelIdeal.main_arg0 (by decide))).trans (Cert.KernelIdeal.Run.W4_main_arg0 m c),
      (h c _ (Cert.KernelIdeal.Run.mem_uc Cert.KernelIdeal.main_arg1 (by decide))).trans (Cert.KernelIdeal.Run.W4_main_arg1 m c),
      (h c _ (Cert.KernelIdeal.Run.mem_uc Cert.KernelIdeal.main_arg2 (by decide))).trans (Cert.KernelIdeal.Run.W4_main_arg2 m c),
      (h c _ (Cert.KernelIdeal.Run.mem_uc Cert.KernelIdeal.main_arg3 (by decide))).trans (Cert.KernelIdeal.Run.W4_main_arg3 m c)⟩)
    (Cert.KernelIdeal.Run.run_all (F := Ideal) m ρ)

/-- The reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end at the same loss: the kernel at `lossK`, the reference at `lossR`, equal on finite inputs. -/
theorem algebraic : Cert.algebraic_KernelIdeal_ReferenceIdeal := by
  intro m ρ m' ρ' hpre hagree
  refine ⟨fun c => fun _ => Cert.Loss.lossK (m ((c.tc : Thread Cert.KernelIdeal.nD Cert.KernelIdeal.τ).loc Cert.KernelIdeal.main_arg1))
      (Cert.Loss.flatH (m ((c.tc : Thread Cert.KernelIdeal.nD Cert.KernelIdeal.τ).loc Cert.KernelIdeal.main_arg2)))
      (m ((c.tc : Thread Cert.KernelIdeal.nD Cert.KernelIdeal.τ).loc Cert.KernelIdeal.main_arg3)), ?_, ?_⟩
  · exact (θ_run (Cert.KernelIdeal.defs (F := Ideal)) _ _).mono (fun r h c =>
      ⟨(h c _ (Cert.KernelIdeal.Run.mem_uc Cert.KernelIdeal.main_v6 (by decide))).trans (Cert.KernelIdeal.Run.kernel_value m c),
      (h c _ (Cert.KernelIdeal.Run.mem_uc Cert.KernelIdeal.main_arg0 (by decide))).trans (Cert.KernelIdeal.Run.W4_main_arg0 m c),
      (h c _ (Cert.KernelIdeal.Run.mem_uc Cert.KernelIdeal.main_arg1 (by decide))).trans (Cert.KernelIdeal.Run.W4_main_arg1 m c),
      (h c _ (Cert.KernelIdeal.Run.mem_uc Cert.KernelIdeal.main_arg2 (by decide))).trans (Cert.KernelIdeal.Run.W4_main_arg2 m c),
      (h c _ (Cert.KernelIdeal.Run.mem_uc Cert.KernelIdeal.main_arg3 (by decide))).trans (Cert.KernelIdeal.Run.W4_main_arg3 m c)⟩)
      (Cert.KernelIdeal.Run.run_all (F := Ideal) m ρ)
  · refine (θ_run Cert.ReferenceIdeal.defs _ _).mono (fun r h c => ⟨(h c).1.trans ?_, (h c).2⟩)
      (Cert.ReferenceIdeal.Value.run (F := Ideal) m' ρ')
    obtain ⟨-, h1, h2, h3⟩ := hagree c
    obtain ⟨f1, f2, f3⟩ := Cert.Loss.finite_of_fn _ _ _ _ (hpre c)
    rw [Cert.ReferenceIdeal.RefValue.res_eq_lossR, h1, h2, h3]
    exact funext fun _ => (Cert.Loss.loss_eq _ _ _ f1 f2 f3).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
